-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S25000x128 : Shape := ⟨2, ![25000, 128]⟩
abbrev S400000 : Shape := ⟨1, ![400000]⟩
abbrev S600000 : Shape := ⟨1, ![600000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S25000x128 : S_.BroadcastsInDim S25000x128 (![] : Fin 0 → Fin S25000x128.rank)
  reducesTo_S25000x128_S_d0_1 : S25000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S400000 : S_.BroadcastsInDim S400000 (![] : Fin 0 → Fin S400000.rank)
  reducesTo_S400000_S_d0 : S400000.ReducesTo [0] S_
  bcast_S_S600000 : S_.BroadcastsInDim S600000 (![] : Fin 0 → Fin S600000.rank)
  reducesTo_S600000_S_d0 : S600000.ReducesTo [0] S_

variable [Facts]

def fn_part5 {F : FTy → Type} [FloatOps F] (main_arg6 : IVec S600000 32) (main_v82 : IVec S_ 1) (main_v84 : IVec S600000 1) : IVec S_ 1 :=
  let main_c_33 : IVec S_ 32 := constantI S_ 32 50000#32
  let main_v85 : IVec S600000 32 := broadcastInDim S600000 ![] bcast_S_S600000 main_c_33
  let main_v86 : IVec S600000 1 := cmpi .slt main_arg6 main_v85
  let main_v87 : IVec S600000 1 := andi main_v84 main_v86
  let main_c_34 : IVec S_ 1 := constantI S_ 1 1#1
  let main_v88 : IVec S_ 1 := (fun x v => Host.reduce IntOp.andi x v reducesTo_S600000_S_d0 h_S_) main_v87 main_c_34
  let main_v89 : IVec S_ 1 := andi main_v82 main_v88
  main_v89

def fn_part4 {F : FTy → Type} [FloatOps F] (main_arg2 : IVec S400000 32) (main_arg4 : IVec S400000 32) (main_arg6 : IVec S600000 32) (main_v63 : IVec S_ 1) (main_v67 : IVec S_ 1) : IVec S_ 1 :=
  let main_v68 : IVec S_ 1 := andi main_v63 main_v67
  let main_c_26 : IVec S_ 32 := constantI S_ 32 4294917296#32
  let main_v69 : IVec S400000 32 := broadcastInDim S400000 ![] bcast_S_S400000 main_c_26
  let main_v70 : IVec S400000 1 := cmpi .sge main_arg2 main_v69
  let main_c_27 : IVec S_ 32 := constantI S_ 32 50000#32
  let main_v71 : IVec S400000 32 := broadcastInDim S400000 ![] bcast_S_S400000 main_c_27
  let main_v72 : IVec S400000 1 := cmpi .slt main_arg2 main_v71
  let main_v73 : IVec S400000 1 := andi main_v70 main_v72
  let main_c_28 : IVec S_ 1 := constantI S_ 1 1#1
  let main_v74 : IVec S_ 1 := (fun x v => Host.reduce IntOp.andi x v reducesTo_S400000_S_d0 h_S_) main_v73 main_c_28
  let main_v75 : IVec S_ 1 := andi main_v68 main_v74
  let main_c_29 : IVec S_ 32 := constantI S_ 32 4294942296#32
  let main_v76 : IVec S400000 32 := broadcastInDim S400000 ![] bcast_S_S400000 main_c_29
  let main_v77 : IVec S400000 1 := cmpi .sge main_arg4 main_v76
  let main_c_30 : IVec S_ 32 := constantI S_ 32 25000#32
  let main_v78 : IVec S400000 32 := broadcastInDim S400000 ![] bcast_S_S400000 main_c_30
  let main_v79 : IVec S400000 1 := cmpi .slt main_arg4 main_v78
  let main_v80 : IVec S400000 1 := andi main_v77 main_v79
  let main_c_31 : IVec S_ 1 := constantI S_ 1 1#1
  let main_v81 : IVec S_ 1 := (fun x v => Host.reduce IntOp.andi x v reducesTo_S400000_S_d0 h_S_) main_v80 main_c_31
  let main_v82 : IVec S_ 1 := andi main_v75 main_v81
  let main_c_32 : IVec S_ 32 := constantI S_ 32 4294917296#32
  let main_v83 : IVec S600000 32 := broadcastInDim S600000 ![] bcast_S_S600000 main_c_32
  let main_v84 : IVec S600000 1 := cmpi .sge main_arg6 main_v83
  fn_part5 (F := F) main_arg6 main_v82 main_v84

def fn_part3 {F : FTy → Type} [FloatOps F] (main_arg2 : IVec S400000 32) (main_arg4 : IVec S400000 32) (main_arg6 : IVec S600000 32) (main_arg17 : FVec F S128 .f32) (main_arg18 : FVec F S128x256 .f32) (main_arg19 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg18
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg4 main_arg6 main_v63 main_v67

def fn_part2 {F : FTy → Type} [FloatOps F] (main_arg2 : IVec S400000 32) (main_arg4 : IVec S400000 32) (main_arg6 : IVec S600000 32) (main_arg13 : FVec F S128 .f32) (main_arg14 : FVec F S128x256 .f32) (main_arg15 : FVec F S128 .f32) (main_arg16 : FVec F S128x128 .f32) (main_arg17 : FVec F S128 .f32) (main_arg18 : FVec F S128x256 .f32) (main_arg19 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg14
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg2 main_arg4 main_arg6 main_arg17 main_arg18 main_arg19 main_v48 main_v49 main_v50

def fn_part1 {F : FTy → Type} [FloatOps F] (main_arg2 : IVec S400000 32) (main_arg4 : IVec S400000 32) (main_arg6 : IVec S600000 32) (main_arg10 : FVec F S128x256 .f32) (main_arg11 : FVec F S128 .f32) (main_arg12 : FVec F S128x128 .f32) (main_arg13 : FVec F S128 .f32) (main_arg14 : FVec F S128x256 .f32) (main_arg15 : FVec F S128 .f32) (main_arg16 : FVec F S128x128 .f32) (main_arg17 : FVec F S128 .f32) (main_arg18 : FVec F S128x256 .f32) (main_arg19 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg10
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg4 main_arg6 main_arg13 main_arg14 main_arg15 main_arg16 main_arg17 main_arg18 main_arg19 main_v33

def fn {F : FTy → Type} [FloatOps F] (main_arg0 : FVec F S50000x128 .f32) (main_arg1 : FVec F S25000x128 .f32) (main_arg2 : IVec S400000 32) (main_arg3 : IVec S400000 32) (main_arg4 : IVec S400000 32) (main_arg5 : IVec S400000 32) (main_arg6 : IVec S600000 32) (main_arg7 : IVec S600000 32) (main_arg8 : FVec F S128x128 .f32) (main_arg9 : FVec F S128 .f32) (main_arg10 : FVec F S128x256 .f32) (main_arg11 : FVec F S128 .f32) (main_arg12 : FVec F S128x128 .f32) (main_arg13 : FVec F S128 .f32) (main_arg14 : FVec F S128x256 .f32) (main_arg15 : FVec F S128 .f32) (main_arg16 : FVec F S128x128 .f32) (main_arg17 : FVec F S128 .f32) (main_arg18 : FVec F S128x256 .f32) (main_arg19 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S25000x128 .f32 := Host.absf main_arg1
  let main_cst_0 : FVec F S_ .f32 := constant S_ .f32 0x7F800000#32
  let main_v5 : FVec F S25000x128 .f32 := broadcastInDim S25000x128 ![] bcast_S_S25000x128 main_cst_0
  let main_v6 : IVec S25000x128 1 := cmpf .olt main_v4 main_v5
  let main_c_1 : IVec S_ 1 := constantI S_ 1 1#1
  let main_v7 : IVec S_ 1 := (fun x v => Host.reduce IntOp.andi x v reducesTo_S25000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg4 main_arg6 main_arg10 main_arg11 main_arg12 main_arg13 main_arg14 main_arg15 main_arg16 main_arg17 main_arg18 main_arg19 main_v13 main_v16
-- ==== Kernel.lean ====
abbrev S50000x128 : Shape := ⟨2, ![50000, 128]⟩
abbrev S25000x128 : Shape := ⟨2, ![25000, 128]⟩
abbrev S400000 : Shape := ⟨1, ![400000]⟩
abbrev S600000 : Shape := ⟨1, ![600000]⟩
abbrev S128x128 : Shape := ⟨2, ![128, 128]⟩
abbrev S128 : Shape := ⟨1, ![128]⟩
abbrev S128x256 : Shape := ⟨2, ![128, 256]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x128 : Shape := ⟨2, ![400000, 128]⟩
abbrev S1x128 : Shape := ⟨2, ![1, 128]⟩
abbrev S8000x128 : Shape := ⟨2, ![8000, 128]⟩
abbrev S25000x1 : Shape := ⟨2, ![25000, 1]⟩
abbrev S5000x128 : Shape := ⟨2, ![5000, 128]⟩
abbrev S50000x1 : Shape := ⟨2, ![50000, 1]⟩
abbrev S600000x1 : Shape := ⟨2, ![600000, 1]⟩
abbrev S600000x128 : Shape := ⟨2, ![600000, 128]⟩

abbrev nBuf : Space → Nat
  | .hbm => 161
  | .vmem => 45
  | .smem => 0
  | _ => 0

abbrev hbmTy0_0 (i : Nat) : BufTy := match i % 128 with
  | 0 => ⟨S50000x128, .f32⟩
  | 1 => ⟨S25000x128, .f32⟩
  | 2 => ⟨S400000, .i32⟩
  | 3 => ⟨S400000, .i32⟩
  | 4 => ⟨S400000, .i32⟩
  | 5 => ⟨S400000, .i32⟩
  | 6 => ⟨S600000, .i32⟩
  | 7 => ⟨S600000, .i32⟩
  | 8 => ⟨S128x128, .f32⟩
  | 9 => ⟨S128, .f32⟩
  | 10 => ⟨S128x256, .f32⟩
  | 11 => ⟨S128, .f32⟩
  | 12 => ⟨S128x128, .f32⟩
  | 13 => ⟨S128, .f32⟩
  | 14 => ⟨S128x256, .f32⟩
  | 15 => ⟨S128, .f32⟩
  | 16 => ⟨S128x128, .f32⟩
  | 17 => ⟨S128, .f32⟩
  | 18 => ⟨S128x256, .f32⟩
  | 19 => ⟨S128, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S1, .i32⟩
  | 29 => ⟨S_, .i32⟩
  | 30 => ⟨S400000x1, .i32⟩
  | 31 => ⟨S400000x1, .i1⟩
  | 32 => ⟨S1x1, .i32⟩
  | 33 => ⟨S400000x1, .i32⟩
  | 34 => ⟨S400000x1, .i1⟩
  | 35 => ⟨S400000x1, .i1⟩
  | 36 => ⟨S_, .i1⟩
  | 37 => ⟨S400000, .i1⟩
  | 38 => ⟨S400000x128, .f32⟩
  | 39 => ⟨S400000x128, .i1⟩
  | 40 => ⟨S_, .f32⟩
  | 41 => ⟨S400000x128, .f32⟩
  | 42 => ⟨S400000x128, .f32⟩
  | 43 => ⟨S128x128, .f32⟩
  | 44 => ⟨S1x128, .f32⟩
  | 45 => ⟨S400000x128, .f32⟩
  | 46 => ⟨S_, .f32⟩
  | 47 => ⟨S25000x128, .f32⟩
  | 48 => ⟨S400000x1, .i32⟩
  | 49 => ⟨S25000x128, .f32⟩
  | 50 => ⟨S_, .f32⟩
  | 51 => ⟨S400000x1, .f32⟩
  | 52 => ⟨S_, .f32⟩
  | 53 => ⟨S25000x1, .f32⟩
  | 54 => ⟨S400000x1, .i32⟩
  | 55 => ⟨S25000x1, .f32⟩
  | 56 => ⟨S_, .f32⟩
  | 57 => ⟨S25000x1, .f32⟩
  | 58 => ⟨S25000x1, .f32⟩
  | 59 => ⟨S25000x128, .f32⟩
  | 60 => ⟨S25000x128, .f32⟩
  | 61 => ⟨S128x128, .f32⟩
  | 62 => ⟨S128x128, .f32⟩
  | 63 => ⟨S128x128, .f32⟩
  | 64 => ⟨S128x128, .f32⟩
  | 65 => ⟨S1x128, .f32⟩
  | 66 => ⟨S25000x128, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S1, .i32⟩
  | 76 => ⟨S_, .i32⟩
  | 77 => ⟨S400000x1, .i32⟩
  | 78 => ⟨S400000x1, .i1⟩
  | 79 => ⟨S1x1, .i32⟩
  | 80 => ⟨S400000x1, .i32⟩
  | 81 => ⟨S400000x1, .i1⟩
  | 82 => ⟨S400000x1, .i1⟩
  | 83 => ⟨S_, .i1⟩
  | 84 => ⟨S400000, .i1⟩
  | 85 => ⟨S400000x128, .f32⟩
  | 86 => ⟨S400000x128, .i1⟩
  | 87 => ⟨S_, .f32⟩
  | 88 => ⟨S400000x128, .f32⟩
  | 89 => ⟨S400000x128, .f32⟩
  | 90 => ⟨S128x128, .f32⟩
  | 91 => ⟨S1x128, .f32⟩
  | 92 => ⟨S400000x128, .f32⟩
  | 93 => ⟨S_, .f32⟩
  | 94 => ⟨S50000x128, .f32⟩
  | 95 => ⟨S400000x1, .i32⟩
  | 96 => ⟨S50000x128, .f32⟩
  | 97 => ⟨S_, .f32⟩
  | 98 => ⟨S400000x1, .f32⟩
  | 99 => ⟨S_, .f32⟩
  | 100 => ⟨S50000x1, .f32⟩
  | 101 => ⟨S400000x1, .i32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S128x128, .f32⟩
  | 109 => ⟨S128x128, .f32⟩
  | 110 => ⟨S128x128, .f32⟩
  | 111 => ⟨S128x128, .f32⟩
  | 112 => ⟨S1x128, .f32⟩
  | 113 => ⟨S50000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S1, .i32⟩
  | 123 => ⟨S_, .i32⟩
  | 124 => ⟨S600000x1, .i32⟩
  | 125 => ⟨S600000x1, .i1⟩
  | 126 => ⟨S1x1, .i32⟩
  | 127 => ⟨S600000x1, .i32⟩
  | _ => ⟨S50000x128, .f32⟩

abbrev hbmTy0_1 (i : Nat) : BufTy := match i % 128 with
  | 0 => ⟨S600000x1, .i1⟩
  | 1 => ⟨S600000x1, .i1⟩
  | 2 => ⟨S_, .i1⟩
  | 3 => ⟨S600000, .i1⟩
  | 4 => ⟨S600000x128, .f32⟩
  | 5 => ⟨S600000x128, .i1⟩
  | 6 => ⟨S_, .f32⟩
  | 7 => ⟨S600000x128, .f32⟩
  | 8 => ⟨S600000x128, .f32⟩
  | 9 => ⟨S128x128, .f32⟩
  | 10 => ⟨S1x128, .f32⟩
  | 11 => ⟨S600000x128, .f32⟩
  | 12 => ⟨S_, .f32⟩
  | 13 => ⟨S50000x128, .f32⟩
  | 14 => ⟨S600000x1, .i32⟩
  | 15 => ⟨S50000x128, .f32⟩
  | 16 => ⟨S_, .f32⟩
  | 17 => ⟨S600000x1, .f32⟩
  | 18 => ⟨S_, .f32⟩
  | 19 => ⟨S50000x1, .f32⟩
  | 20 => ⟨S600000x1, .i32⟩
  | 21 => ⟨S50000x1, .f32⟩
  | 22 => ⟨S_, .f32⟩
  | 23 => ⟨S50000x1, .f32⟩
  | 24 => ⟨S50000x1, .f32⟩
  | 25 => ⟨S50000x128, .f32⟩
  | 26 => ⟨S50000x128, .f32⟩
  | 27 => ⟨S128x128, .f32⟩
  | 28 => ⟨S128x128, .f32⟩
  | 29 => ⟨S128x128, .f32⟩
  | 30 => ⟨S128x128, .f32⟩
  | 31 => ⟨S1x128, .f32⟩
  | 32 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S8000x128, .f32⟩
  | .local _ .vmem, ⟨16, _⟩ => ⟨S8000x128, .f32⟩
  | .local _ .vmem, ⟨17, _⟩ => ⟨S128x128, .f32⟩
  | .local _ .vmem, ⟨18, _⟩ => ⟨S1x128, .f32⟩
  | .local _ .vmem, ⟨19, _⟩ => ⟨S8000x128, .f32⟩
  | .local _ .vmem, ⟨20, _⟩ => ⟨S8000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S8000x128, .f32⟩
  | .local _ .vmem, ⟨31, _⟩ => ⟨S8000x128, .f32⟩
  | .local _ .vmem, ⟨32, _⟩ => ⟨S128x128, .f32⟩
  | .local _ .vmem, ⟨33, _⟩ => ⟨S1x128, .f32⟩
  | .local _ .vmem, ⟨34, _⟩ => ⟨S8000x128, .f32⟩
  | .local _ .vmem, ⟨35, _⟩ => ⟨S8000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v0 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_cst : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst_0 : Ref sig .tc := ⟨.hbm, 50, rfl⟩
abbrev main_v7 : Ref sig .tc := ⟨.hbm, 51, rfl⟩
abbrev main_cst_1 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_cst_2 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_cst_3 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_cst_4 : Ref sig .tc := ⟨.hbm, 97, rfl⟩
abbrev main_v28 : Ref sig .tc := ⟨.hbm, 98, rfl⟩
abbrev main_cst_5 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_cst_6 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_c_1 : Ref sig .tc := ⟨.hbm, 122, rfl⟩
abbrev main_call2_c_2 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_3 : Ref sig .tc := ⟨.hbm, 130, rfl⟩
abbrev main_call2_v12 : Ref sig .tc := ⟨.hbm, 131, rfl⟩
abbrev main_call2_v13 : Ref sig .tc := ⟨.hbm, 132, rfl⟩
abbrev main_call2_v14 : Ref sig .tc := ⟨.hbm, 133, rfl⟩
abbrev main_call2_cst : Ref sig .tc := ⟨.hbm, 134, rfl⟩
abbrev main_call2_v15 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_cst_7 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_cst_8 : Ref sig .tc := ⟨.hbm, 144, rfl⟩
abbrev main_v49 : Ref sig .tc := ⟨.hbm, 145, rfl⟩
abbrev main_cst_9 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_cst_10 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg5_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem5_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![75], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  transposes_S128x128_S128x128_1_0 : S128x128.Transposes [1, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S25000x128 : S_.BroadcastsInDim S25000x128 (![] : Fin 0 → Fin S25000x128.rank)
  bcast_S_S25000x1 : S_.BroadcastsInDim S25000x1 (![] : Fin 0 → Fin S25000x1.rank)
  bcast_S25000x1_S25000x128_0_1 : S25000x1.BroadcastsInDim S25000x128 (![0, 1] : Fin 2 → Fin S25000x128.rank)
  slices_S128x256_S128x128_0_0 : S128x256.Slices ![0, 0] S128x128
  slices_S128x256_S128x128_0_128 : S128x256.Slices ![0, 128] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1x1_S600000x1_0_1 : S1x1.BroadcastsInDim S600000x1 (![0, 1] : Fin 2 → Fin S600000x1.rank)
  reducesTo_S600000x1_S600000_d1 : S600000x1.ReducesTo [1] S600000
  bcast_S600000_S600000x128_0 : S600000.BroadcastsInDim S600000x128 (![0] : Fin 1 → Fin S600000x128.rank)
  bcast_S_S600000x128 : S_.BroadcastsInDim S600000x128 (![] : Fin 0 → Fin S600000x128.rank)
  gather_S50000x128_S400000x1_S400000x128_1_0_n_n_0_1_1128_wf : GatherDims.WF S50000x128 S400000x1 S400000x128 [1] [0] [] [0] [] 1 ![1, 128]
  dot_S8000x128_S128x128_S8000x128_1_0_0_1_n_n_wf : DotDims.WF S8000x128 S128x128 S8000x128 [1] [0] [0] [1] [] []
  scatter_S25000x128_S400000x1_S400000x128_1_0_0_1_wf : ScatterDims.WF S25000x128 S400000x1 S400000x128 [1] [0] [0] 1
  scatter_S25000x1_S400000x1_S400000x1_1_0_0_1_wf : ScatterDims.WF S25000x1 S400000x1 S400000x1 [1] [0] [0] 1
  dot_S5000x128_S128x128_S5000x128_1_0_0_1_n_n_wf : DotDims.WF S5000x128 S128x128 S5000x128 [1] [0] [0] [1] [] []
  gather_S25000x128_S400000x1_S400000x128_1_0_n_n_0_1_1128_wf : GatherDims.WF S25000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S400000x128.size a
  hwx0_3 : ∀ i : grid0.Coords, EltTy.bits .f32 = 32 ∨ (Rect.block (s := S400000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S25000x128.size a
  hwx1_5 : ∀ i : grid1.Coords, EltTy.bits .f32 = 32 ∨ (Rect.block (s := S25000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S400000x128.size a
  hwx2_0 : ∀ i : grid2.Coords, EltTy.bits .f32 = 32 ∨ (Rect.block (s := S400000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S400000x128.size a
  hwx2_3 : ∀ i : grid2.Coords, EltTy.bits .f32 = 32 ∨ (Rect.block (s := S400000x128) S8000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S600000x128.size a
  hwx4_0 : ∀ i : grid4.Coords, EltTy.bits .f32 = 32 ∨ (Rect.block (s := S600000x128) S8000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x128.size a ≤ S600000x128.size a
  hwx4_3 : ∀ i : grid4.Coords, EltTy.bits .f32 = 32 ∨ (Rect.block (s := S600000x128) S8000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def scatter_S25000x1_S400000x1_S400000x1_1_0_0_1 : ScatterDims S25000x1 S400000x1 S400000x1 where
  updateWindowDims := [1]
  insertedWindowDims := [0]
  scatterDimsToOperandDims := [0]
  indexVectorDim := 1
  wf := scatter_S25000x1_S400000x1_S400000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf

abbrev win0_0 : Pipeline.Window sig grid0 :=
  Pipeline.Window.ofSpec (Memref.whole main_v0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v42) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v45) S8000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v41) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v59) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v60) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v61) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v62) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S25000x128 : Shape := ⟨2, ![25000, 128]⟩
abbrev S400000 : Shape := ⟨1, ![400000]⟩
abbrev S600000 : Shape := ⟨1, ![600000]⟩
abbrev S128x128 : Shape := ⟨2, ![128, 128]⟩
abbrev S128 : Shape := ⟨1, ![128]⟩
abbrev S128x256 : Shape := ⟨2, ![128, 256]⟩
abbrev S_ : Shape := ⟨0, ![]⟩
abbrev S400000x1 : Shape := ⟨2, ![400000, 1]⟩
abbrev S400000x128 : Shape := ⟨2, ![400000, 128]⟩
abbrev S1x128 : Shape := ⟨2, ![1, 128]⟩
abbrev S25000x1 : Shape := ⟨2, ![25000, 1]⟩
abbrev S25000x256 : Shape := ⟨2, ![25000, 256]⟩
abbrev S256x128 : Shape := ⟨2, ![256, 128]⟩
abbrev S50000x1 : Shape := ⟨2, ![50000, 1]⟩
abbrev S50000x256 : Shape := ⟨2, ![50000, 256]⟩
abbrev S600000x1 : Shape := ⟨2, ![600000, 1]⟩
abbrev S600000x128 : Shape := ⟨2, ![600000, 128]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S25000x128, .f32⟩
  | 2 => ⟨S400000, .i32⟩
  | 3 => ⟨S400000, .i32⟩
  | 4 => ⟨S400000, .i32⟩
  | 5 => ⟨S400000, .i32⟩
  | 6 => ⟨S600000, .i32⟩
  | 7 => ⟨S600000, .i32⟩
  | 8 => ⟨S128x128, .f32⟩
  | 9 => ⟨S128, .f32⟩
  | 10 => ⟨S128x256, .f32⟩
  | 11 => ⟨S128, .f32⟩
  | 12 => ⟨S128x128, .f32⟩
  | 13 => ⟨S128, .f32⟩
  | 14 => ⟨S128x256, .f32⟩
  | 15 => ⟨S128, .f32⟩
  | 16 => ⟨S128x128, .f32⟩
  | 17 => ⟨S128, .f32⟩
  | 18 => ⟨S128x256, .f32⟩
  | 19 => ⟨S128, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x128, .f32⟩
  | 29 => ⟨S128x128, .f32⟩
  | 30 => ⟨S400000x128, .f32⟩
  | 31 => ⟨S1x128, .f32⟩
  | 32 => ⟨S400000x128, .f32⟩
  | 33 => ⟨S400000x128, .f32⟩
  | 34 => ⟨S_, .f32⟩
  | 35 => ⟨S25000x128, .f32⟩
  | 36 => ⟨S400000x1, .i32⟩
  | 37 => ⟨S25000x128, .f32⟩
  | 38 => ⟨S_, .f32⟩
  | 39 => ⟨S400000x1, .f32⟩
  | 40 => ⟨S_, .f32⟩
  | 41 => ⟨S25000x1, .f32⟩
  | 42 => ⟨S400000x1, .i32⟩
  | 43 => ⟨S25000x1, .f32⟩
  | 44 => ⟨S_, .f32⟩
  | 45 => ⟨S25000x1, .f32⟩
  | 46 => ⟨S25000x1, .f32⟩
  | 47 => ⟨S25000x128, .f32⟩
  | 48 => ⟨S25000x128, .f32⟩
  | 49 => ⟨S25000x256, .f32⟩
  | 50 => ⟨S256x128, .f32⟩
  | 51 => ⟨S25000x128, .f32⟩
  | 52 => ⟨S1x128, .f32⟩
  | 53 => ⟨S25000x128, .f32⟩
  | 54 => ⟨S25000x128, .f32⟩
  | 55 => ⟨S_, .f32⟩
  | 56 => ⟨S25000x128, .f32⟩
  | 57 => ⟨S25000x128, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x128, .f32⟩
  | 67 => ⟨S128x128, .f32⟩
  | 68 => ⟨S400000x128, .f32⟩
  | 69 => ⟨S1x128, .f32⟩
  | 70 => ⟨S400000x128, .f32⟩
  | 71 => ⟨S400000x128, .f32⟩
  | 72 => ⟨S_, .f32⟩
  | 73 => ⟨S50000x128, .f32⟩
  | 74 => ⟨S400000x1, .i32⟩
  | 75 => ⟨S50000x128, .f32⟩
  | 76 => ⟨S_, .f32⟩
  | 77 => ⟨S400000x1, .f32⟩
  | 78 => ⟨S_, .f32⟩
  | 79 => ⟨S50000x1, .f32⟩
  | 80 => ⟨S400000x1, .i32⟩
  | 81 => ⟨S50000x1, .f32⟩
  | 82 => ⟨S_, .f32⟩
  | 83 => ⟨S50000x1, .f32⟩
  | 84 => ⟨S50000x1, .f32⟩
  | 85 => ⟨S50000x128, .f32⟩
  | 86 => ⟨S50000x128, .f32⟩
  | 87 => ⟨S50000x256, .f32⟩
  | 88 => ⟨S256x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x128, .f32⟩
  | 105 => ⟨S128x128, .f32⟩
  | 106 => ⟨S600000x128, .f32⟩
  | 107 => ⟨S1x128, .f32⟩
  | 108 => ⟨S600000x128, .f32⟩
  | 109 => ⟨S600000x128, .f32⟩
  | 110 => ⟨S_, .f32⟩
  | 111 => ⟨S50000x128, .f32⟩
  | 112 => ⟨S600000x1, .i32⟩
  | 113 => ⟨S50000x128, .f32⟩
  | 114 => ⟨S_, .f32⟩
  | 115 => ⟨S600000x1, .f32⟩
  | 116 => ⟨S_, .f32⟩
  | 117 => ⟨S50000x1, .f32⟩
  | 118 => ⟨S600000x1, .i32⟩
  | 119 => ⟨S50000x1, .f32⟩
  | 120 => ⟨S_, .f32⟩
  | 121 => ⟨S50000x1, .f32⟩
  | 122 => ⟨S50000x1, .f32⟩
  | 123 => ⟨S50000x128, .f32⟩
  | 124 => ⟨S50000x128, .f32⟩
  | 125 => ⟨S50000x256, .f32⟩
  | 126 => ⟨S256x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_1 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call0_cst : Ref sig .tc := ⟨.hbm, 55, rfl⟩
abbrev main_call0_v0 : Ref sig .tc := ⟨.hbm, 56, rfl⟩
abbrev main_v29 : Ref sig .tc := ⟨.hbm, 57, rfl⟩
abbrev main_c_4 : Ref sig .tc := ⟨.hbm, 58, rfl⟩
abbrev main_v30 : Ref sig .tc := ⟨.hbm, 59, rfl⟩
abbrev main_v31 : Ref sig .tc := ⟨.hbm, 60, rfl⟩
abbrev main_c_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_6 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_cst_8 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call1_cst : Ref sig .tc := ⟨.hbm, 93, rfl⟩
abbrev main_call1_v0 : Ref sig .tc := ⟨.hbm, 94, rfl⟩
abbrev main_v59 : Ref sig .tc := ⟨.hbm, 95, rfl⟩
abbrev main_c_10 : Ref sig .tc := ⟨.hbm, 96, rfl⟩
abbrev main_v60 : Ref sig .tc := ⟨.hbm, 97, rfl⟩
abbrev main_v61 : Ref sig .tc := ⟨.hbm, 98, rfl⟩
abbrev main_c_11 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_12 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_13 : Ref sig .tc := ⟨.hbm, 114, rfl⟩
abbrev main_v75 : Ref sig .tc := ⟨.hbm, 115, rfl⟩
abbrev main_cst_14 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_15 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_call2_cst : Ref sig .tc := ⟨.hbm, 131, rfl⟩
abbrev main_call2_v0 : Ref sig .tc := ⟨.hbm, 132, rfl⟩
abbrev main_v89 : Ref sig .tc := ⟨.hbm, 133, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  transposes_S128x128_S128x128_1_0 : S128x128.Transposes [1, 0] S128x128
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S25000x128 : S_.BroadcastsInDim S25000x128 (![] : Fin 0 → Fin S25000x128.rank)
  bcast_S_S400000x1 : S_.BroadcastsInDim S400000x1 (![] : Fin 0 → Fin S400000x1.rank)
  bcast_S_S25000x1 : S_.BroadcastsInDim S25000x1 (![] : Fin 0 → Fin S25000x1.rank)
  bcast_S25000x1_S25000x128_0_1 : S25000x1.BroadcastsInDim S25000x128 (![0, 1] : Fin 2 → Fin S25000x128.rank)
  concatenates_S25000x128_S25000x128_S25000x256_d1 : Shape.Concatenates [S25000x128, S25000x128] S25000x256 1
  transposes_S128x256_S256x128_1_0 : S128x256.Transposes [1, 0] S256x128
  bcast_S1x128_S25000x128_0_1 : S1x128.BroadcastsInDim S25000x128 (![0, 1] : Fin 2 → Fin S25000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S1x128_S600000x128_0_1 : S1x128.BroadcastsInDim S600000x128 (![0, 1] : Fin 2 → Fin S600000x128.rank)
  bcast_S_S600000x1 : S_.BroadcastsInDim S600000x1 (![] : Fin 0 → Fin S600000x1.rank)
  gather_S50000x128_S400000x1_S400000x128_1_0_n_n_0_1_1128_wf : GatherDims.WF S50000x128 S400000x1 S400000x128 [1] [0] [] [0] [] 1 ![1, 128]
  dot_S400000x128_S128x128_S400000x128_1_0_0_1_n_n_wf : DotDims.WF S400000x128 S128x128 S400000x128 [1] [0] [0] [1] [] []
  scatter_S25000x128_S400000x1_S400000x128_1_0_0_1_wf : ScatterDims.WF S25000x128 S400000x1 S400000x128 [1] [0] [0] 1
  scatter_S25000x1_S400000x1_S400000x1_1_0_0_1_wf : ScatterDims.WF S25000x1 S400000x1 S400000x1 [1] [0] [0] 1
  dot_S25000x256_S256x128_S25000x128_1_0_0_1_n_n_wf : DotDims.WF S25000x256 S256x128 S25000x128 [1] [0] [0] [1] [] []
  gather_S25000x128_S400000x1_S400000x128_1_0_n_n_0_1_1128_wf : GatherDims.WF S25000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  dot_S50000x256_S256x128_S50000x128_1_0_0_1_n_n_wf : DotDims.WF S50000x256 S256x128 S50000x128 [1] [0] [0] [1] [] []
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def scatter_S25000x1_S400000x1_S400000x1_1_0_0_1 : ScatterDims S25000x1 S400000x1 S400000x1 where
  updateWindowDims := [1]
  insertedWindowDims := [0]
  scatterDimsToOperandDims := [0]
  indexVectorDim := 1
  wf := scatter_S25000x1_S400000x1_S400000x1_1_0_0_1_wf
def dot_S25000x256_S256x128_S25000x128_1_0_0_1_n_n : DotDims S25000x256 S256x128 S25000x128 where
  lhsContracting := [1]
  rhsContracting := [0]
  lhsNonContracting := [0]
  rhsNonContracting := [1]
  lhsBatch := []
  rhsBatch := []
  wf := dot_S25000x256_S256x128_S25000x128_1_0_0_1_n_n_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf

class Facts : Prop extends Facts₀ where

variable [Facts]
-- ==== Proof.Spec.lean ====
/-
  The two dense maps of one message-passing stage, as functions of whole arrays over the extended reals.

  * `edgeG x wt b`: every edge row times a 128 × 128 weight laid out [in, out], plus a bias row:
      (e, n) ↦ (∑ k, x (e, k) · wt (k, n)) + b (0, n).
  * `nodeG h agg wh wa b`: the node update with the concatenation [h | agg] split into its two halves, each half
    meeting its own 128 × 128 block of the weight (laid out [in, out]), then the bias row and the positive part:
      (r, n) ↦ max ((∑ k, h (r, k) · wh (k, n)) + (∑ k, agg (r, k) · wa (k, n)) + b (0, n)) 0.

  Both are generic in the number of rows. Sums over the extended reals are sums in a commutative monoid, so
  regrouping and splitting them needs no finiteness of the entries.
-/
import Idealize.ShloMosaic.PureOps.Ideal
import Idealize.ShloMosaic.Lib.ValueIdx

noncomputable section

namespace Cert.MsgPass

open Idealize.ShloMosaic Idealize.ShloMosaic.ValueIdx

/-- A rank-2 array of extended reals with `a` rows and `b` columns. -/
abbrev Mat (a b : Nat) : Type := FVec Ideal (⟨2, ![a, b]⟩ : Shape) .f32

/-- One stage's per-edge linear map: row `e` of `x` against the [in, out] weight `wt`, plus the bias row `b`. -/
def edgeG {E : Nat} (x : Mat E 128) (wt : Mat 128 128) (b : Mat 1 128) : Mat E 128 :=
  fun i => (∑ k : Fin 128, x (ix2 (i 0) k) * wt (ix2 k (i 1))) + b (ix2 (0 : Fin 1) (i 1))

/-- One stage's node update: the node's own row against `wh`, its aggregated row against `wa` (both [in, out]),
    plus the bias row, then the positive part. -/
def nodeG {N : Nat} (h agg : Mat N 128) (wh wa : Mat 128 128) (b : Mat 1 128) : Mat N 128 :=
  fun i => max ((∑ k : Fin 128, h (ix2 (i 0) k) * wh (ix2 k (i 1)))
      + (∑ k : Fin 128, agg (ix2 (i 0) k) * wa (ix2 k (i 1))) + b (ix2 (0 : Fin 1) (i 1))) 0

theorem edgeG_apply {E : Nat} (x : Mat E 128) (wt : Mat 128 128) (b : Mat 1 128) (e : Fin E) (n : Fin 128) :
    edgeG x wt b (ix2 e n) = (∑ k : Fin 128, x (ix2 e k) * wt (ix2 k n)) + b (ix2 (0 : Fin 1) n) := rfl

theorem nodeG_apply {N : Nat} (h agg : Mat N 128) (wh wa : Mat 128 128) (b : Mat 1 128) (r : Fin N) (n : Fin 128) :
    nodeG h agg wh wa b (ix2 r n)
      = max ((∑ k : Fin 128, h (ix2 r k) * wh (ix2 k n)) + (∑ k : Fin 128, agg (ix2 r k) * wa (ix2 k n))
          + b (ix2 (0 : Fin 1) n)) 0 := rfl

end Cert.MsgPass

end
-- ==== Proof.Stages.lean ====
/-
  One message-passing stage, written out as functions of whole arrays, once in each program's own spelling.

  A stage gathers the source nodes' rows along the edges, maps every edge row linearly, averages the edge rows
  arriving at each destination node (a scatter-add of the rows, a scatter-add of ones for the counts, the counts
  raised to at least one, the quotient), and updates each destination node from its own row and its average.

  The kernel's program (`K` names) gathers with a fill: an index outside the table after wrapping negatives
  yields a row of a fixed pattern instead of a table row; the reference (`R` names) gathers at the wrapped index,
  clamped into the table. The two agree exactly where every index addresses a row counted from either end
  (`InRange`). The per-edge map and the node update are `edgeG` and `nodeG` on the kernel's side (with the weights
  transposed, the node weight split into its two column halves, the bias as a row) and a matrix product with the
  transposed weight plus a broadcast bias, over the concatenation for the node update, on the reference's side.
  The three stages differ only in their extents: (table rows, edges, destination rows) =
  (50000, 400000, 25000), (25000, 400000, 50000), (50000, 600000, 50000).
-/
import proofs.«410022_j38792144617921_1_alg».proof.KernelIdeal
import proofs.«410022_j38792144617921_1_alg».proof.ReferenceIdeal
import proofs.«410022_j38792144617921_1_alg».proof.Proof.Spec

noncomputable section

namespace Cert.MsgPass

open Idealize.ShloMosaic

/-- A signed 32-bit word that addresses one of `N` rows, counted from the front (0 … N-1) or from the back (-N … -1). -/
def InRange (N : Nat) (w : BitVec 32) : Prop := -(N : Int) ≤ w.toInt ∧ w.toInt < (N : Int)

/-! ## The kernel's spelling -/

section K
open Cert.KernelIdeal Cert.KernelIdeal.Facts₀ Cert.KernelIdeal.Facts
variable [Cert.KernelIdeal.Facts]

/-- The weight of a per-edge map laid out [in, out]. -/
def wT (W : FVec Ideal S128x128 .f32) : FVec Ideal S128x128 .f32 :=
  transpose S128x128 [1, 0] W transposes_S128x128_S128x128_1_0
/-- The node weight's first 128 columns (those meeting the node's own row), laid out [in, out]. -/
def wTh (W : FVec Ideal S128x256 .f32) : FVec Ideal S128x128 .f32 :=
  transpose S128x128 [1, 0] (extractStridedSlice S128x128 ![0, 0] W slices_S128x256_S128x128_0_0) transposes_S128x128_S128x128_1_0
/-- The node weight's last 128 columns (those meeting the aggregated row), laid out [in, out]. -/
def wTa (W : FVec Ideal S128x256 .f32) : FVec Ideal S128x128 .f32 :=
  transpose S128x128 [1, 0] (extractStridedSlice S128x128 ![0, 128] W slices_S128x256_S128x128_0_128) transposes_S128x128_S128x128_1_0
/-- A bias as a 1 × 128 row. -/
def bRow (b : FVec Ideal S128 .f32) : FVec Ideal S1x128 .f32 :=
  shapeCast S1x128 b shapeCasts_S128_S1x128

/-- Rows of a 50000-row table at 400000 indices, with the fill. -/
def takeK1 (x : FVec Ideal S50000x128 .f32) (idx : IVec S400000 32) : FVec Ideal S400000x128 .f32 :=
  let w : IVec S400000 32 := select (cmpi .slt idx (broadcastInDim S400000 ![] bcast_S_S400000 (constantI S_ 32 0#32)))
    (addi idx (broadcastInDim S400000 ![] bcast_S_S400000 (constantI S_ 32 50000#32))) idx
  let v5 : IVec S400000x1 32 := broadcastInDim S400000x1 ![0] bcast_S400000_S400000x1_0 w
  let v7 : IVec S400000x1 1 := cmpi .sge v5 (broadcastInDim S400000x1 ![] bcast_S_S400000x1 (constantI S_ 32 0#32))
  let v10 : IVec S400000x1 1 := cmpi .sle v5 (broadcastInDim S400000x1 ![0, 1] bcast_S1x1_S400000x1_0_1
    (broadcastInDim S1x1 ![1] bcast_S1_S1x1_1 (constantI S1 32 49999#32)))
  let v12 : IVec S400000 1 := Host.reduce IntOp.andi (andi v7 v10) (constantI S_ 1 1#1) reducesTo_S400000x1_S400000_d1 h_S_
  select (broadcastInDim S400000x128 ![0] bcast_S400000_S400000x128_0 v12)
    (Host.gather gather_S50000x128_S400000x1_S400000x128_1_0_n_n_0_1_1128 x v5)
    (broadcastInDim S400000x128 ![] bcast_S_S400000x128 (constant (F := Ideal) S_ .f32 0x7FC00000#32))

/-- Rows of a 25000-row table at 400000 indices, with the fill. -/
def takeK2 (x : FVec Ideal S25000x128 .f32) (idx : IVec S400000 32) : FVec Ideal S400000x128 .f32 :=
  let w : IVec S400000 32 := select (cmpi .slt idx (broadcastInDim S400000 ![] bcast_S_S400000 (constantI S_ 32 0#32)))
    (addi idx (broadcastInDim S400000 ![] bcast_S_S400000 (constantI S_ 32 25000#32))) idx
  let v5 : IVec S400000x1 32 := broadcastInDim S400000x1 ![0] bcast_S400000_S400000x1_0 w
  let v7 : IVec S400000x1 1 := cmpi .sge v5 (broadcastInDim S400000x1 ![] bcast_S_S400000x1 (constantI S_ 32 0#32))
  let v10 : IVec S400000x1 1 := cmpi .sle v5 (broadcastInDim S400000x1 ![0, 1] bcast_S1x1_S400000x1_0_1
    (broadcastInDim S1x1 ![1] bcast_S1_S1x1_1 (constantI S1 32 24999#32)))
  let v12 : IVec S400000 1 := Host.reduce IntOp.andi (andi v7 v10) (constantI S_ 1 1#1) reducesTo_S400000x1_S400000_d1 h_S_
  select (broadcastInDim S400000x128 ![0] bcast_S400000_S400000x128_0 v12)
    (Host.gather gather_S25000x128_S400000x1_S400000x128_1_0_n_n_0_1_1128 x v5)
    (broadcastInDim S400000x128 ![] bcast_S_S400000x128 (constant (F := Ideal) S_ .f32 0x7FC00000#32))

/-- Rows of a 50000-row table at 600000 indices, with the fill. -/
def takeK3 (x : FVec Ideal S50000x128 .f32) (idx : IVec S600000 32) : FVec Ideal S600000x128 .f32 :=
  let w : IVec S600000 32 := select (cmpi .slt idx (broadcastInDim S600000 ![] bcast_S_S600000 (constantI S_ 32 0#32)))
    (addi idx (broadcastInDim S600000 ![] bcast_S_S600000 (constantI S_ 32 50000#32))) idx
  let v5 : IVec S600000x1 32 := broadcastInDim S600000x1 ![0] bcast_S600000_S600000x1_0 w
  let v7 : IVec S600000x1 1 := cmpi .sge v5 (broadcastInDim S600000x1 ![] bcast_S_S600000x1 (constantI S_ 32 0#32))
  let v10 : IVec S600000x1 1 := cmpi .sle v5 (broadcastInDim S600000x1 ![0, 1] bcast_S1x1_S600000x1_0_1
    (broadcastInDim S1x1 ![1] bcast_S1_S1x1_1 (constantI S1 32 49999#32)))
  let v12 : IVec S600000 1 := Host.reduce IntOp.andi (andi v7 v10) (constantI S_ 1 1#1) reducesTo_S600000x1_S600000_d1 h_S_
  select (broadcastInDim S600000x128 ![0] bcast_S600000_S600000x128_0 v12)
    (Host.gather gather_S50000x128_S600000x1_S600000x128_1_0_n_n_0_1_1128 x v5)
    (broadcastInDim S600000x128 ![] bcast_S_S600000x128 (constant (F := Ideal) S_ .f32 0x7FC00000#32))

/-- The mean of the 400000 edge rows arriving at each of 25000 nodes (a node no edge reaches gets the zero row). -/
def aggK1 (msgs : FVec Ideal S400000x128 .f32) (dst : IVec S400000 32) : FVec Ideal S25000x128 .f32 :=
  Host.divf
    (Host.scatterAdd scatter_S25000x128_S400000x1_S400000x128_1_0_0_1
      (broadcastInDim S25000x128 ![] bcast_S_S25000x128 (constant (F := Ideal) S_ .f32 0x00000000#32))
      (broadcastInDim S400000x1 ![0] bcast_S400000_S400000x1_0 dst) msgs)
    (broadcastInDim S25000x128 ![0, 1] bcast_S25000x1_S25000x128_0_1
      (maximumf
        (Host.scatterAdd scatter_S25000x1_S400000x1_S400000x1_1_0_0_1
          (broadcastInDim S25000x1 ![] bcast_S_S25000x1 (constant (F := Ideal) S_ .f32 0x00000000#32))
          (broadcastInDim S400000x1 ![0] bcast_S400000_S400000x1_0 dst)
          (broadcastInDim S400000x1 ![] bcast_S_S400000x1 (constant (F := Ideal) S_ .f32 0x3F800000#32)))
        (broadcastInDim S25000x1 ![] bcast_S_S25000x1 (constant (F := Ideal) S_ .f32 0x3F800000#32))))

/-- The mean of the 400000 edge rows arriving at each of 50000 nodes. -/
def aggK2 (msgs : FVec Ideal S400000x128 .f32) (dst : IVec S400000 32) : FVec Ideal S50000x128 .f32 :=
  Host.divf
    (Host.scatterAdd scatter_S50000x128_S400000x1_S400000x128_1_0_0_1
      (broadcastInDim S50000x128 ![] bcast_S_S50000x128 (constant (F := Ideal) S_ .f32 0x00000000#32))
      (broadcastInDim S400000x1 ![0] bcast_S400000_S400000x1_0 dst) msgs)
    (broadcastInDim S50000x128 ![0, 1] bcast_S50000x1_S50000x128_0_1
      (maximumf
        (Host.scatterAdd scatter_S50000x1_S400000x1_S400000x1_1_0_0_1
          (broadcastInDim S50000x1 ![] bcast_S_S50000x1 (constant (F := Ideal) S_ .f32 0x00000000#32))
          (broadcastInDim S400000x1 ![0] bcast_S400000_S400000x1_0 dst)
          (broadcastInDim S400000x1 ![] bcast_S_S400000x1 (constant (F := Ideal) S_ .f32 0x3F800000#32)))
        (broadcastInDim S50000x1 ![] bcast_S_S50000x1 (constant (F := Ideal) S_ .f32 0x3F800000#32))))

/-- The mean of the 600000 edge rows arriving at each of 50000 nodes. -/
def aggK3 (msgs : FVec Ideal S600000x128 .f32) (dst : IVec S600000 32) : FVec Ideal S50000x128 .f32 :=
  Host.divf
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 dst) msgs)
    (broadcastInDim S50000x128 ![0, 1] bcast_S50000x1_S50000x128_0_1
      (maximumf
        (Host.scatterAdd scatter_S50000x1_S600000x1_S600000x1_1_0_0_1
          (broadcastInDim S50000x1 ![] bcast_S_S50000x1 (constant (F := Ideal) S_ .f32 0x00000000#32))
          (broadcastInDim S600000x1 ![0] bcast_S600000_S600000x1_0 dst)
          (broadcastInDim S600000x1 ![] bcast_S_S600000x1 (constant (F := Ideal) S_ .f32 0x3F800000#32)))
        (broadcastInDim S50000x1 ![] bcast_S_S50000x1 (constant (F := Ideal) S_ .f32 0x3F800000#32))))

/-- Stage 1 in the kernel's spelling: tiles to pieces. -/
def stageK1 (src : FVec Ideal S50000x128 .f32) (own : FVec Ideal S25000x128 .f32) (sidx didx : IVec S400000 32)
    (W : FVec Ideal S128x128 .f32) (b : FVec Ideal S128 .f32) (Wu : FVec Ideal S128x256 .f32) (bu : FVec Ideal S128 .f32) :
    FVec Ideal S25000x128 .f32 :=
  nodeG (N := 25000) own (aggK1 (edgeG (E := 400000) (takeK1 src sidx) (wT W) (bRow b)) didx) (wTh Wu) (wTa Wu) (bRow bu)

/-- Stage 2 in the kernel's spelling: pieces to tiles. -/
def stageK2 (src : FVec Ideal S25000x128 .f32) (own : FVec Ideal S50000x128 .f32) (sidx didx : IVec S400000 32)
    (W : FVec Ideal S128x128 .f32) (b : FVec Ideal S128 .f32) (Wu : FVec Ideal S128x256 .f32) (bu : FVec Ideal S128 .f32) :
    FVec Ideal S50000x128 .f32 :=
  nodeG (N := 50000) own (aggK2 (edgeG (E := 400000) (takeK2 src sidx) (wT W) (bRow b)) didx) (wTh Wu) (wTa Wu) (bRow bu)

/-- Stage 3 in the kernel's spelling: tiles to tiles. -/
def stageK3 (src own : FVec Ideal S50000x128 .f32) (sidx didx : IVec S600000 32)
    (W : FVec Ideal S128x128 .f32) (b : FVec Ideal S128 .f32) (Wu : FVec Ideal S128x256 .f32) (bu : FVec Ideal S128 .f32) :
    FVec Ideal S50000x128 .f32 :=
  nodeG (N := 50000) own (aggK3 (edgeG (E := 600000) (takeK3 src sidx) (wT W) (bRow b)) didx) (wTh Wu) (wTa Wu) (bRow bu)

end K

/-! ## The reference's spelling -/

section R
open Cert.ReferenceIdeal Cert.ReferenceIdeal.Facts₀ Cert.ReferenceIdeal.Facts
variable [Cert.ReferenceIdeal.Facts]

/-- Rows of a 50000-row table at 400000 indices (negatives wrapped, then clamped into the table). -/
def takeR1 (x : FVec Ideal S50000x128 .f32) (idx : IVec S400000 32) : FVec Ideal S400000x128 .f32 :=
  Host.gather gather_S50000x128_S400000x1_S400000x128_1_0_n_n_0_1_1128 x
    (broadcastInDim S400000x1 ![0] bcast_S400000_S400000x1_0
      (select (cmpi .slt idx (broadcastInDim S400000 ![] bcast_S_S400000 (constantI S_ 32 0#32)))
        (addi idx (broadcastInDim S400000 ![] bcast_S_S400000 (constantI S_ 32 50000#32))) idx))

/-- Rows of a 25000-row table at 400000 indices. -/
def takeR2 (x : FVec Ideal S25000x128 .f32) (idx : IVec S400000 32) : FVec Ideal S400000x128 .f32 :=
  Host.gather gather_S25000x128_S400000x1_S400000x128_1_0_n_n_0_1_1128 x
    (broadcastInDim S400000x1 ![0] bcast_S400000_S400000x1_0
      (select (cmpi .slt idx (broadcastInDim S400000 ![] bcast_S_S400000 (constantI S_ 32 0#32)))
        (addi idx (broadcastInDim S400000 ![] bcast_S_S400000 (constantI S_ 32 25000#32))) idx))

/-- Rows of a 50000-row table at 600000 indices. -/
def takeR3 (x : FVec Ideal S50000x128 .f32) (idx : IVec S600000 32) : FVec Ideal S600000x128 .f32 :=
  Host.gather gather_S50000x128_S600000x1_S600000x128_1_0_n_n_0_1_1128 x
    (broadcastInDim S600000x1 ![0] bcast_S600000_S600000x1_0
      (select (cmpi .slt idx (broadcastInDim S600000 ![] bcast_S_S600000 (constantI S_ 32 0#32)))
        (addi idx (broadcastInDim S600000 ![] bcast_S_S600000 (constantI S_ 32 50000#32))) idx))

/-- The per-edge map over 400000 rows: the product with the transposed weight, plus the bias along every row. -/
def edgeR400 (x : FVec Ideal S400000x128 .f32) (W : FVec Ideal S128x128 .f32) (b : FVec Ideal S128 .f32) : FVec Ideal S400000x128 .f32 :=
  addf (Host.dotGeneral dot_S400000x128_S128x128_S400000x128_1_0_0_1_n_n none x (transpose S128x128 [1, 0] W transposes_S128x128_S128x128_1_0))
    (broadcastInDim S400000x128 ![0, 1] bcast_S1x128_S400000x128_0_1 (broadcastInDim S1x128 ![1] bcast_S128_S1x128_1 b))

/-- The per-edge map over 600000 rows. -/
def edgeR600 (x : FVec Ideal S600000x128 .f32) (W : FVec Ideal S128x128 .f32) (b : FVec Ideal S128 .f32) : FVec Ideal S600000x128 .f32 :=
  addf (Host.dotGeneral dot_S600000x128_S128x128_S600000x128_1_0_0_1_n_n none x (transpose S128x128 [1, 0] W transposes_S128x128_S128x128_1_0))
    (broadcastInDim S600000x128 ![0, 1] bcast_S1x128_S600000x128_0_1 (broadcastInDim S1x128 ![1] bcast_S128_S1x128_1 b))

/-- The mean of the 400000 edge rows arriving at each of 25000 nodes. -/
def aggR1 (msgs : FVec Ideal S400000x128 .f32) (dst : IVec S400000 32) : FVec Ideal S25000x128 .f32 :=
  Host.divf
    (Host.scatterAdd scatter_S25000x128_S400000x1_S400000x128_1_0_0_1
      (broadcastInDim S25000x128 ![] bcast_S_S25000x128 (constant (F := Ideal) S_ .f32 0x00000000#32))
      (broadcastInDim S400000x1 ![0] bcast_S400000_S400000x1_0 dst) msgs)
    (broadcastInDim S25000x128 ![0, 1] bcast_S25000x1_S25000x128_0_1
      (maximumf
        (Host.scatterAdd scatter_S25000x1_S400000x1_S400000x1_1_0_0_1
          (broadcastInDim S25000x1 ![] bcast_S_S25000x1 (constant (F := Ideal) S_ .f32 0x00000000#32))
          (broadcastInDim S400000x1 ![0] bcast_S400000_S400000x1_0 dst)
          (broadcastInDim S400000x1 ![] bcast_S_S400000x1 (constant (F := Ideal) S_ .f32 0x3F800000#32)))
        (broadcastInDim S25000x1 ![] bcast_S_S25000x1 (constant (F := Ideal) S_ .f32 0x3F800000#32))))

/-- The mean of the 400000 edge rows arriving at each of 50000 nodes. -/
def aggR2 (msgs : FVec Ideal S400000x128 .f32) (dst : IVec S400000 32) : FVec Ideal S50000x128 .f32 :=
  Host.divf
    (Host.scatterAdd scatter_S50000x128_S400000x1_S400000x128_1_0_0_1
      (broadcastInDim S50000x128 ![] bcast_S_S50000x128 (constant (F := Ideal) S_ .f32 0x00000000#32))
      (broadcastInDim S400000x1 ![0] bcast_S400000_S400000x1_0 dst) msgs)
    (broadcastInDim S50000x128 ![0, 1] bcast_S50000x1_S50000x128_0_1
      (maximumf
        (Host.scatterAdd scatter_S50000x1_S400000x1_S400000x1_1_0_0_1
          (broadcastInDim S50000x1 ![] bcast_S_S50000x1 (constant (F := Ideal) S_ .f32 0x00000000#32))
          (broadcastInDim S400000x1 ![0] bcast_S400000_S400000x1_0 dst)
          (broadcastInDim S400000x1 ![] bcast_S_S400000x1 (constant (F := Ideal) S_ .f32 0x3F800000#32)))
        (broadcastInDim S50000x1 ![] bcast_S_S50000x1 (constant (F := Ideal) S_ .f32 0x3F800000#32))))

/-- The mean of the 600000 edge rows arriving at each of 50000 nodes. -/
def aggR3 (msgs : FVec Ideal S600000x128 .f32) (dst : IVec S600000 32) : FVec Ideal S50000x128 .f32 :=
  Host.divf
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 dst) msgs)
    (broadcastInDim S50000x128 ![0, 1] bcast_S50000x1_S50000x128_0_1
      (maximumf
        (Host.scatterAdd scatter_S50000x1_S600000x1_S600000x1_1_0_0_1
          (broadcastInDim S50000x1 ![] bcast_S_S50000x1 (constant (F := Ideal) S_ .f32 0x00000000#32))
          (broadcastInDim S600000x1 ![0] bcast_S600000_S600000x1_0 dst)
          (broadcastInDim S600000x1 ![] bcast_S_S600000x1 (constant (F := Ideal) S_ .f32 0x3F800000#32)))
        (broadcastInDim S50000x1 ![] bcast_S_S50000x1 (constant (F := Ideal) S_ .f32 0x3F800000#32))))

/-- The node update over 25000 rows: [own | agg] against the transposed 128 × 256 weight, plus the bias, positive part. -/
def nodeR25 (own agg : FVec Ideal S25000x128 .f32) (Wu : FVec Ideal S128x256 .f32) (bu : FVec Ideal S128 .f32) : FVec Ideal S25000x128 .f32 :=
  maximumf
    (addf
      (Host.dotGeneral dot_S25000x256_S256x128_S25000x128_1_0_0_1_n_n none
        (concatenate S25000x256 1 [⟨S25000x128, own⟩, ⟨S25000x128, agg⟩] concatenates_S25000x128_S25000x128_S25000x256_d1)
        (transpose S256x128 [1, 0] Wu transposes_S128x256_S256x128_1_0))
      (broadcastInDim S25000x128 ![0, 1] bcast_S1x128_S25000x128_0_1 (broadcastInDim S1x128 ![1] bcast_S128_S1x128_1 bu)))
    (broadcastInDim S25000x128 ![] bcast_S_S25000x128 (constant (F := Ideal) S_ .f32 0x00000000#32))

/-- The node update over 50000 rows. -/
def nodeR50 (own agg : FVec Ideal S50000x128 .f32) (Wu : FVec Ideal S128x256 .f32) (bu : FVec Ideal S128 .f32) : FVec Ideal S50000x128 .f32 :=
  maximumf
    (addf
      (Host.dotGeneral dot_S50000x256_S256x128_S50000x128_1_0_0_1_n_n none
        (concatenate S50000x256 1 [⟨S50000x128, own⟩, ⟨S50000x128, agg⟩] concatenates_S50000x128_S50000x128_S50000x256_d1)
        (transpose S256x128 [1, 0] Wu transposes_S128x256_S256x128_1_0))
      (broadcastInDim S50000x128 ![0, 1] bcast_S1x128_S50000x128_0_1 (broadcastInDim S1x128 ![1] bcast_S128_S1x128_1 bu)))
    (broadcastInDim S50000x128 ![] bcast_S_S50000x128 (constant (F := Ideal) S_ .f32 0x00000000#32))

/-- Stage 1 in the reference's spelling. -/
def stageR1 (src : FVec Ideal S50000x128 .f32) (own : FVec Ideal S25000x128 .f32) (sidx didx : IVec S400000 32)
    (W : FVec Ideal S128x128 .f32) (b : FVec Ideal S128 .f32) (Wu : FVec Ideal S128x256 .f32) (bu : FVec Ideal S128 .f32) :
    FVec Ideal S25000x128 .f32 :=
  nodeR25 own (aggR1 (edgeR400 (takeR1 src sidx) W b) didx) Wu bu

/-- Stage 2 in the reference's spelling. -/
def stageR2 (src : FVec Ideal S25000x128 .f32) (own : FVec Ideal S50000x128 .f32) (sidx didx : IVec S400000 32)
    (W : FVec Ideal S128x128 .f32) (b : FVec Ideal S128 .f32) (Wu : FVec Ideal S128x256 .f32) (bu : FVec Ideal S128 .f32) :
    FVec Ideal S50000x128 .f32 :=
  nodeR50 own (aggR2 (edgeR400 (takeR2 src sidx) W b) didx) Wu bu

/-- Stage 3 in the reference's spelling. -/
def stageR3 (src own : FVec Ideal S50000x128 .f32) (sidx didx : IVec S600000 32)
    (W : FVec Ideal S128x128 .f32) (b : FVec Ideal S128 .f32) (Wu : FVec Ideal S128x256 .f32) (bu : FVec Ideal S128 .f32) :
    FVec Ideal S50000x128 .f32 :=
  nodeR50 own (aggR3 (edgeR600 (takeR3 src sidx) W b) didx) Wu bu

end R

end Cert.MsgPass

end
-- ==== Proof.EdgePayload.lean ====
/-
  The arithmetic of one per-edge block, read entry by entry over the extended reals.

  The body of each per-edge region loads an 8000 × 128 block of gathered rows, the whole 128 × 128 weight (laid out
  [in, out]) and the 1 × 128 bias row; it changes the two matrix operands to a narrower format (the identity on
  extended reals), contracts the block's columns against the weight's rows into a zero accumulator, and adds the bias
  row broadcast down the rows. At entry (p, q) that is  (∑ k, x (p, k) · w (k, q)) + b (0, q).

  The three regions print the same arithmetic under three names; the statement is proved for the first and carried to
  the other two, whose texts are the same term.
-/
import proofs.«410022_j38792144617921_1_alg».proof.Proof.Gen.KernelIdeal.Skeleton
import proofs.«410022_j38792144617921_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.MsgPass

open Idealize.ShloMosaic Idealize.ShloMosaic.ValueIdx Idealize.SL.Sem
open Cert.KernelIdeal Cert.KernelIdeal.Gen

/-! ## The contraction's operand indices

The contraction takes axis 1 of the left operand against axis 0 of the right one. At output entry i and contraction
position q, the left operand is read at (i 0, q) and the right one at (q, i 1): one fact per operand axis. -/

/-- The left operand's row is the output's row. -/
theorem edgeDot_lhs_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- The left operand's column is the contraction position. -/
theorem edgeDot_lhs_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- The right operand's row is the contraction position. -/
theorem edgeDot_rhs_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
/-- The right operand's column is the output's column. -/
theorem edgeDot_rhs_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-! ## The two operations that are not entrywise -/

/-- The contraction into a zero accumulator, at entry (p, q): the sum over the 128 contraction positions of the left
    operand's row p against the right operand's column q. The sum over the one-axis contraction index is carried
    to a sum over the 128 positions along the bijection between the two. -/
theorem edge_matmul_apply (a : FVec Ideal S8000x128 .bf16) (b : FVec Ideal S128x128 .bf16) (p : Fin 8000) (q : Fin 128) :
    matmul (F := Ideal) dot_S8000x128_S128x128_S8000x128_1_0_0_1_n_n none a b (constant (F := Ideal) S8000x128 .f32 0x00000000#32) (ix2 p q)
      = ∑ k : Fin 128, a (ix2 p k) * b (ix2 k q) := by
  simp only [matmul]
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k := funext fun a => Fin.ext (by
    match a with
    | ⟨0, _⟩ => exact edgeDot_lhs_0 _ _
    | ⟨1, _⟩ => exact (edgeDot_lhs_1 _ _).trans hk)
  have er : dot_S8000x128_S128x128_S8000x128_1_0_0_1_n_n.rhsIdx (ix2 p q) ((contrEquiv1 dot_S8000x128_S128x128_S8000x128_1_0_0_1_n_n 128 rfl rfl).symm k) = ix2 k q := funext fun a => Fin.ext (by
    match a with
    | ⟨0, _⟩ => exact (edgeDot_rhs_0 _ _).trans hk
    | ⟨1, _⟩ => exact edgeDot_rhs_1 _ _)
  rw [el, er]

/-- The bias row broadcast down the 8000 rows reads, at entry (p, q), the row's entry (0, q): the row axis has extent
    one in the operand, the column axis is kept. -/
theorem edge_bias_apply (x2 : Vec Ideal S1x128 .f32) (p : Fin 8000) (q : Fin 128) :
    broadcastTo S8000x128 x2 broadcasts_S1x128_S8000x128 (ix2 p q) = x2 (ix2 (0 : Fin 1) q) :=
  broadcastTo_apply x2 broadcasts_S1x128_S8000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-! ## The block's arithmetic at an entry -/

/-- The first region's arithmetic at entry (p, q) of its block: the casts to the same shape and the format changes are
    the identity, the contraction is the sum above, the broadcast reads the bias row. -/
theorem edge_pay_apply (x0 : Vec Ideal S8000x128 .f32) (x1 : Vec Ideal S128x128 .f32) (x2 : Vec Ideal S1x128 .f32)
    (p : Fin 8000) (q : Fin 128) :
    k0_pay1 (F := Ideal) x0 x1 x2 (ix2 p q) = (∑ k : Fin 128, x0 (ix2 p k) * x1 (ix2 k q)) + x2 (ix2 (0 : Fin 1) q) := by
  unfold k0_pay1
  rw [addf_apply]
  simp only [shapeCast_self]
  rw [edge_matmul_apply, edge_bias_apply]
  rfl

/-- The second region's arithmetic is the same term as the first's … -/
theorem edge_pay2_eq (x0 : Vec Ideal S8000x128 .f32) (x1 : Vec Ideal S128x128 .f32) (x2 : Vec Ideal S1x128 .f32) :
    k2_pay1 (F := Ideal) x0 x1 x2 = k0_pay1 (F := Ideal) x0 x1 x2 := rfl

/-- … and so is the third's. -/
theorem edge_pay4_eq (x0 : Vec Ideal S8000x128 .f32) (x1 : Vec Ideal S128x128 .f32) (x2 : Vec Ideal S1x128 .f32) :
    k4_pay1 (F := Ideal) x0 x1 x2 = k0_pay1 (F := Ideal) x0 x1 x2 := rfl

/-- A block of restricted rows gives the restricted rows of the whole map. If the loaded block x0 holds, in its row
    p, row r of a whole array X of E rows, x1 is the weight W on column q and x2 the bias row B at q, then entry (p, q)
    of the block's arithmetic is entry (r, q) of the per-edge linear map of X, W and B. -/
theorem edge_pay_eq_edgeG {E : Nat} (X : Mat E 128) (W : Mat 128 128) (B : Mat 1 128)
    (x0 : Vec Ideal S8000x128 .f32) (x1 : Vec Ideal S128x128 .f32) (x2 : Vec Ideal S1x128 .f32)
    (p : Fin 8000) (q : Fin 128) (r : Fin E)
    (h0 : ∀ k : Fin 128, x0 (ix2 p k) = X (ix2 r k))
    (h1 : ∀ k : Fin 128, x1 (ix2 k q) = W (ix2 k q))
    (h2 : x2 (ix2 (0 : Fin 1) q) = B (ix2 (0 : Fin 1) q)) :
    k0_pay1 (F := Ideal) x0 x1 x2 (ix2 p q) = edgeG X W B (ix2 r q) := by
  rw [edge_pay_apply, edgeG_apply, h2]
  exact congrArg (· + B (ix2 (0 : Fin 1) q)) (Finset.sum_congr rfl fun k _ => by rw [h0 k, h1 k])

end Cert.MsgPass

end
-- ==== Proof.RegionEdge.lean ====
/-
  What each of the three per-edge regions leaves in its output array.

  A per-edge region walks its grid point by point. At point t it stages rows 8000·t … 8000·t + 7999 of the gathered
  array, the whole 128 × 128 weight and the whole 1 × 128 bias row, runs the block arithmetic on them, and writes the
  8000 × 128 result back over rows 8000·t … 8000·t + 7999 of the output array. The block arithmetic at entry (p, q)
  depends on row p of the staged rows only, so what point t writes back is exactly rows 8000·t … of ONE whole-array
  function: the per-edge linear map of the three arrays the region finds at its entry. Row r of the output is written
  by point r / 8000, every point writes back, and the points' row ranges fill the array; so after the last point the
  output array IS that function. Nothing is assumed about the contents the region finds.

  The three regions differ in the names of their arrays and in the number of rows (400000, 400000, 600000: 50, 50
  and 75 points); each is treated in its own section, the same argument three times.
-/
import proofs.«410022_j38792144617921_1_alg».proof.Proof.Gen.KernelIdeal.Frame
import proofs.«410022_j38792144617921_1_alg».proof.Proof.Spec
import proofs.«410022_j38792144617921_1_alg».proof.Proof.EdgePayload
import Idealize.ShloMosaic.Lib.Pipeline.Value
import Idealize.ShloMosaic.Lib.ValueIdx

set_option maxRecDepth 16384

noncomputable section

namespace Cert.MsgPass

open Idealize.ShloMosaic Idealize.ShloMosaic.ValueIdx Idealize.ShloMosaic.TcCoe Idealize.SL.Sem
open Idealize.ShloMosaic.Pipeline (Dat)
open Cert.KernelIdeal Cert.KernelIdeal.Gen

/-- The body loads and stores its staging buffers whole: at offsets zero on both axes. -/
theorem edge_zero2 : (![0, 0] : Fin 2 → Nat) = fun _ => 0 := funext fun a => by fin_cases a <;> rfl

/-! ## The first per-edge region: 400000 rows, 50 points -/

section Region0
variable (V : (c : Dev nD) → (b : Ref sig .tc) → Buf (Elt Ideal) ((c : Thread nD τ).loc b))

/-- The block indices at point t, decided over the 50 points: the rows window and the output window sit at block
    (t, 0); the weight and the bias row are one block each, (0, 0), at every point. -/
theorem edge0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the rows block at point t is row 8000·t + p of the gathered array: a block's coordinate in its array
    is block index × block size + the coordinate inside the block. -/
theorem edge0_rows (c : Dev nD) (t : Fin cfg0.N) (p : Fin 8000) (k : Fin 128) (r : Fin 400000)
    (hr : r.val = t.val * 8000 + p.val) :
    (iblk0 V c 0 t : Vec Ideal S8000x128 .f32) (ix2 p k) = V c main_v0 (ix2 r k) := by
  unfold iblk0
  rw [View.read_apply]
  show V c main_v0 _ = V c main_v0 _
  refine congrArg (V c main_v0) (funext fun a => Fin.ext ?_)
  match a with
  | ⟨0, _⟩ => show win0_0.index t (0 : Fin 2) * 8000 + 1 * p.val = r.val; rw [(edge0_idx t).1]; omega
  | ⟨1, _⟩ => show win0_0.index t (1 : Fin 2) * 128 + 1 * k.val = k.val; rw [(edge0_idx t).2.1]; omega

/-- The weight block at any point is the whole weight. -/
theorem edge0_weight (c : Dev nD) (t : Fin cfg0.N) (k n : Fin 128) :
    (iblk0 V c 1 t : Vec Ideal S128x128 .f32) (ix2 k n) = V c main_v1 (ix2 k n) := by
  unfold iblk0
  rw [View.read_apply]
  show V c main_v1 _ = V c main_v1 _
  refine congrArg (V c main_v1) (funext fun a => Fin.ext ?_)
  match a with
  | ⟨0, _⟩ => show win0_1.index t (0 : Fin 2) * 128 + 1 * k.val = k.val; rw [(edge0_idx t).2.2.1]; omega
  | ⟨1, _⟩ => show win0_1.index t (1 : Fin 2) * 128 + 1 * n.val = n.val; rw [(edge0_idx t).2.2.2.1]; omega

/-- The bias block at any point is the whole bias row. -/
theorem edge0_bias (c : Dev nD) (t : Fin cfg0.N) (n : Fin 128) :
    (iblk0 V c 2 t : Vec Ideal S1x128 .f32) (ix2 (0 : Fin 1) n) = V c main_v2 (ix2 (0 : Fin 1) n) := by
  unfold iblk0
  rw [View.read_apply]
  show V c main_v2 _ = V c main_v2 _
  refine congrArg (V c main_v2) (funext fun a => Fin.ext ?_)
  match a with
  | ⟨0, _⟩ => show win0_2.index t (0 : Fin 2) * 1 + 1 * (0 : Fin 1).val = (0 : Fin 1).val; rw [(edge0_idx t).2.2.2.2.1]; omega
  | ⟨1, _⟩ => show win0_2.index t (1 : Fin 2) * 128 + 1 * n.val = n.val; rw [(edge0_idx t).2.2.2.2.2.1]; omega

/-- Entry (p, q) of the output block at point t sits at (8000·t + p, q) of the output array. -/
theorem edge0_out_emb (t : Fin cfg0.N) (p : Fin 8000) (q : Fin 128) (r : Fin 400000)
    (hr : r.val = t.val * 8000 + p.val) :
    ((cfg0.win 3).blk t).view.emb (ix2 p q) = ix2 r q := by
  funext a; apply Fin.ext
  match a with
  | ⟨0, _⟩ => show win0_3.index t (0 : Fin 2) * 8000 + 1 * p.val = r.val; rw [(edge0_idx t).2.2.2.2.2.2.1]; omega
  | ⟨1, _⟩ => show win0_3.index t (1 : Fin 2) * 128 + 1 * q.val = q.val; rw [(edge0_idx t).2.2.2.2.2.2.2]; omega

/-- What point t writes back is its block of the per-edge linear map of the arrays the region finds: the body's one
    store covers the staging buffer, its loads read the three staged blocks whole, and the block arithmetic of rows
    8000·t … of the gathered array is rows 8000·t … of the map. -/
theorem edge0_flushed (c : Dev nD) (t : Fin cfg0.N) :
    (dat0 (F := Ideal) V c).flushed 3 t
      = ((cfg0.win 3).blk t).view.read (Elt Ideal) (edgeG (E := 400000) (V c main_v0) (V c main_v1) (V c main_v2)) := by
  show (cfg0.win 3).cut (grid0.coords t) ((dat0 V c).after 3 t) = _
  rw [after0_3]
  unfold out0_3
  rw [View.canon_unit_zero edge_zero2]
  simp only [View.ld_unit_zero (S := S8000x128) edge_zero2, View.ld_unit_zero (S := S128x128) edge_zero2, View.ld_unit_zero (S := S1x128) edge_zero2]
  show (fun j : S8000x128.Idx => k0_pay1 (F := Ideal) (iblk0 V c 0 t) (iblk0 V c 1 t) (iblk0 V c 2 t) j)
      = fun j : S8000x128.Idx => edgeG (E := 400000) (V c main_v0) (V c main_v1) (V c main_v2) (((cfg0.win 3).blk t).view.emb j)
  funext j
  obtain ⟨p, q, rfl⟩ : ∃ (p : Fin 8000) (q : Fin 128), j = ix2 p q := ⟨j 0, j 1, eq_ix2 j⟩
  have hp := p.isLt
  have ht : t.val < 50 := lt_of_lt_of_eq t.isLt N_0
  have hr : t.val * 8000 + p.val < 400000 := by omega
  rw [edge0_out_emb t p q ⟨_, hr⟩ rfl]
  exact edge_pay_eq_edgeG _ _ _ (iblk0 V c 0 t) (iblk0 V c 1 t) (iblk0 V c 2 t) p q ⟨_, hr⟩
    (fun k => edge0_rows V c t p k _ rfl) (fun k => edge0_weight V c t k q) (edge0_bias V c t q)

/-- An entry of the output array is in point t's block iff each coordinate is in the block's range on its axis. -/
theorem edge0_mem_blk (t : Fin cfg0.N) (i : S400000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v3).slice (win0_3.rect t)).set ↔ _
  rw [View.set_slice_whole, Rect.mem_set_unit]
  exact Iff.rfl

/-- Every entry of the output array is written back by some point: row r by point r / 8000. -/
theorem edge0_cover (i : S400000x128.Idx) :
    ∃ t : Fin cfg0.N, (cfg0.win 3).flush t = true ∧ i ∈ ((cfg0.win 3).blk t).view.set := by
  have hi0 : (i 0).val < 400000 := (i 0).isLt
  have hi1 : (i 1).val < 128 := (i 1).isLt
  have hN : (i 0).val / 8000 < cfg0.N := by rw [show cfg0.N = 50 from N_0]; omega
  have e0 : win0_3.index ⟨(i 0).val / 8000, hN⟩ (0 : Fin 2) = (i 0).val / 8000 := (edge0_idx ⟨(i 0).val / 8000, hN⟩).2.2.2.2.2.2.1
  have e1 : win0_3.index ⟨(i 0).val / 8000, hN⟩ (1 : Fin 2) = 0 := (edge0_idx ⟨(i 0).val / 8000, hN⟩).2.2.2.2.2.2.2
  refine ⟨⟨(i 0).val / 8000, hN⟩, flush0_3 _, ?_⟩
  rw [edge0_mem_blk]
  intro a
  match a with
  | ⟨0, _⟩ => show win0_3.index ⟨(i 0).val / 8000, hN⟩ (0 : Fin 2) * 8000 ≤ (i 0).val ∧ (i 0).val < win0_3.index ⟨(i 0).val / 8000, hN⟩ (0 : Fin 2) * 8000 + 8000; rw [e0]; omega
  | ⟨1, _⟩ => show win0_3.index ⟨(i 0).val / 8000, hN⟩ (1 : Fin 2) * 128 ≤ (i 1).val ∧ (i 1).val < win0_3.index ⟨(i 0).val / 8000, hN⟩ (1 : Fin 2) * 128 + 128; rw [e1]; omega

/-- What the first per-edge region leaves in its output array, from the arrays it finds. -/
theorem edge_region0 (c : Dev nD) :
    (dat0 (F := Ideal) V c).arrAt 3 cfg0.N = edgeG (E := 400000) (V c main_v0) (V c main_v1) (V c main_v2) :=
  (dat0 (F := Ideal) V c).arrAt_eq_of_cover 3 _ (fun t _ => edge0_flushed V c t) edge0_cover

end Region0

/-! ## The second per-edge region: 400000 rows, 50 points -/

section Region2
variable (V : (c : Dev nD) → (b : Ref sig .tc) → Buf (Elt Ideal) ((c : Thread nD τ).loc b))

/-- The block indices at point t, decided over the 50 points: the rows window and the output window sit at block
    (t, 0); the weight and the bias row are one block each, (0, 0), at every point. -/
theorem edge2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the rows block at point t is row 8000·t + p of the gathered array. -/
theorem edge2_rows (c : Dev nD) (t : Fin cfg2.N) (p : Fin 8000) (k : Fin 128) (r : Fin 400000)
    (hr : r.val = t.val * 8000 + p.val) :
    (iblk2 V c 0 t : Vec Ideal S8000x128 .f32) (ix2 p k) = V c main_v21 (ix2 r k) := by
  unfold iblk2
  rw [View.read_apply]
  show V c main_v21 _ = V c main_v21 _
  refine congrArg (V c main_v21) (funext fun a => Fin.ext ?_)
  match a with
  | ⟨0, _⟩ => show win2_0.index t (0 : Fin 2) * 8000 + 1 * p.val = r.val; rw [(edge2_idx t).1]; omega
  | ⟨1, _⟩ => show win2_0.index t (1 : Fin 2) * 128 + 1 * k.val = k.val; rw [(edge2_idx t).2.1]; omega

/-- The weight block at any point is the whole weight. -/
theorem edge2_weight (c : Dev nD) (t : Fin cfg2.N) (k n : Fin 128) :
    (iblk2 V c 1 t : Vec Ideal S128x128 .f32) (ix2 k n) = V c main_v22 (ix2 k n) := by
  unfold iblk2
  rw [View.read_apply]
  show V c main_v22 _ = V c main_v22 _
  refine congrArg (V c main_v22) (funext fun a => Fin.ext ?_)
  match a with
  | ⟨0, _⟩ => show win2_1.index t (0 : Fin 2) * 128 + 1 * k.val = k.val; rw [(edge2_idx t).2.2.1]; omega
  | ⟨1, _⟩ => show win2_1.index t (1 : Fin 2) * 128 + 1 * n.val = n.val; rw [(edge2_idx t).2.2.2.1]; omega

/-- The bias block at any point is the whole bias row. -/
theorem edge2_bias (c : Dev nD) (t : Fin cfg2.N) (n : Fin 128) :
    (iblk2 V c 2 t : Vec Ideal S1x128 .f32) (ix2 (0 : Fin 1) n) = V c main_v23 (ix2 (0 : Fin 1) n) := by
  unfold iblk2
  rw [View.read_apply]
  show V c main_v23 _ = V c main_v23 _
  refine congrArg (V c main_v23) (funext fun a => Fin.ext ?_)
  match a with
  | ⟨0, _⟩ => show win2_2.index t (0 : Fin 2) * 1 + 1 * (0 : Fin 1).val = (0 : Fin 1).val; rw [(edge2_idx t).2.2.2.2.1]; omega
  | ⟨1, _⟩ => show win2_2.index t (1 : Fin 2) * 128 + 1 * n.val = n.val; rw [(edge2_idx t).2.2.2.2.2.1]; omega

/-- Entry (p, q) of the output block at point t sits at (8000·t + p, q) of the output array. -/
theorem edge2_out_emb (t : Fin cfg2.N) (p : Fin 8000) (q : Fin 128) (r : Fin 400000)
    (hr : r.val = t.val * 8000 + p.val) :
    ((cfg2.win 3).blk t).view.emb (ix2 p q) = ix2 r q := by
  funext a; apply Fin.ext
  match a with
  | ⟨0, _⟩ => show win2_3.index t (0 : Fin 2) * 8000 + 1 * p.val = r.val; rw [(edge2_idx t).2.2.2.2.2.2.1]; omega
  | ⟨1, _⟩ => show win2_3.index t (1 : Fin 2) * 128 + 1 * q.val = q.val; rw [(edge2_idx t).2.2.2.2.2.2.2]; omega

/-- What point t writes back is its block of the per-edge linear map of the arrays the region finds. This region's
    block arithmetic is the first region's, term for term. -/
theorem edge2_flushed (c : Dev nD) (t : Fin cfg2.N) :
    (dat2 (F := Ideal) V c).flushed 3 t
      = ((cfg2.win 3).blk t).view.read (Elt Ideal) (edgeG (E := 400000) (V c main_v21) (V c main_v22) (V c main_v23)) := by
  show (cfg2.win 3).cut (grid2.coords t) ((dat2 V c).after 3 t) = _
  rw [after2_3]
  unfold out2_3
  rw [View.canon_unit_zero edge_zero2]
  simp only [View.ld_unit_zero (S := S8000x128) edge_zero2, View.ld_unit_zero (S := S128x128) edge_zero2, View.ld_unit_zero (S := S1x128) edge_zero2]
  show (fun j : S8000x128.Idx => k2_pay1 (F := Ideal) (iblk2 V c 0 t) (iblk2 V c 1 t) (iblk2 V c 2 t) j)
      = fun j : S8000x128.Idx => edgeG (E := 400000) (V c main_v21) (V c main_v22) (V c main_v23) (((cfg2.win 3).blk t).view.emb j)
  funext j
  obtain ⟨p, q, rfl⟩ : ∃ (p : Fin 8000) (q : Fin 128), j = ix2 p q := ⟨j 0, j 1, eq_ix2 j⟩
  have hp := p.isLt
  have ht : t.val < 50 := lt_of_lt_of_eq t.isLt N_2
  have hr : t.val * 8000 + p.val < 400000 := by omega
  rw [edge2_out_emb t p q ⟨_, hr⟩ rfl]
  refine (congrFun (edge_pay2_eq (iblk2 V c 0 t) (iblk2 V c 1 t) (iblk2 V c 2 t)) (ix2 p q)).trans ?_
  exact edge_pay_eq_edgeG _ _ _ (iblk2 V c 0 t) (iblk2 V c 1 t) (iblk2 V c 2 t) p q ⟨_, hr⟩
    (fun k => edge2_rows V c t p k _ rfl) (fun k => edge2_weight V c t k q) (edge2_bias V c t q)

/-- An entry of the output array is in point t's block iff each coordinate is in the block's range on its axis. -/
theorem edge2_mem_blk (t : Fin cfg2.N) (i : S400000x128.Idx) :
    i ∈ ((cfg2.win 3).blk t).view.set ↔ ∀ a : Fin 2, win2_3.index t a * S8000x128.size a ≤ (i a).val ∧ (i a).val < win2_3.index t a * S8000x128.size a + S8000x128.size a := by
  show i ∈ ((View.whole main_v24).slice (win2_3.rect t)).set ↔ _
  rw [View.set_slice_whole, Rect.mem_set_unit]
  exact Iff.rfl

/-- Every entry of the output array is written back by some point: row r by point r / 8000. -/
theorem edge2_cover (i : S400000x128.Idx) :
    ∃ t : Fin cfg2.N, (cfg2.win 3).flush t = true ∧ i ∈ ((cfg2.win 3).blk t).view.set := by
  have hi0 : (i 0).val < 400000 := (i 0).isLt
  have hi1 : (i 1).val < 128 := (i 1).isLt
  have hN : (i 0).val / 8000 < cfg2.N := by rw [show cfg2.N = 50 from N_2]; omega
  have e0 : win2_3.index ⟨(i 0).val / 8000, hN⟩ (0 : Fin 2) = (i 0).val / 8000 := (edge2_idx ⟨(i 0).val / 8000, hN⟩).2.2.2.2.2.2.1
  have e1 : win2_3.index ⟨(i 0).val / 8000, hN⟩ (1 : Fin 2) = 0 := (edge2_idx ⟨(i 0).val / 8000, hN⟩).2.2.2.2.2.2.2
  refine ⟨⟨(i 0).val / 8000, hN⟩, flush2_3 _, ?_⟩
  rw [edge2_mem_blk]
  intro a
  match a with
  | ⟨0, _⟩ => show win2_3.index ⟨(i 0).val / 8000, hN⟩ (0 : Fin 2) * 8000 ≤ (i 0).val ∧ (i 0).val < win2_3.index ⟨(i 0).val / 8000, hN⟩ (0 : Fin 2) * 8000 + 8000; rw [e0]; omega
  | ⟨1, _⟩ => show win2_3.index ⟨(i 0).val / 8000, hN⟩ (1 : Fin 2) * 128 ≤ (i 1).val ∧ (i 1).val < win2_3.index ⟨(i 0).val / 8000, hN⟩ (1 : Fin 2) * 128 + 128; rw [e1]; omega

/-- The second per-edge region. -/
theorem edge_region2 (c : Dev nD) :
    (dat2 (F := Ideal) V c).arrAt 3 cfg2.N = edgeG (E := 400000) (V c main_v21) (V c main_v22) (V c main_v23) :=
  (dat2 (F := Ideal) V c).arrAt_eq_of_cover 3 _ (fun t _ => edge2_flushed V c t) edge2_cover

end Region2

/-! ## The third per-edge region: 600000 rows, 75 points -/

section Region4
variable (V : (c : Dev nD) → (b : Ref sig .tc) → Buf (Elt Ideal) ((c : Thread nD τ).loc b))

/-- The block indices at point t, decided over the 75 points: the rows window and the output window sit at block
    (t, 0); the weight and the bias row are one block each, (0, 0), at every point. -/
theorem edge4_idx : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of the rows block at point t is row 8000·t + p of the gathered array. -/
theorem edge4_rows (c : Dev nD) (t : Fin cfg4.N) (p : Fin 8000) (k : Fin 128) (r : Fin 600000)
    (hr : r.val = t.val * 8000 + p.val) :
    (iblk4 V c 0 t : Vec Ideal S8000x128 .f32) (ix2 p k) = V c main_v42 (ix2 r k) := by
  unfold iblk4
  rw [View.read_apply]
  show V c main_v42 _ = V c main_v42 _
  refine congrArg (V c main_v42) (funext fun a => Fin.ext ?_)
  match a with
  | ⟨0, _⟩ => show win4_0.index t (0 : Fin 2) * 8000 + 1 * p.val = r.val; rw [(edge4_idx t).1]; omega
  | ⟨1, _⟩ => show win4_0.index t (1 : Fin 2) * 128 + 1 * k.val = k.val; rw [(edge4_idx t).2.1]; omega

/-- The weight block at any point is the whole weight. -/
theorem edge4_weight (c : Dev nD) (t : Fin cfg4.N) (k n : Fin 128) :
    (iblk4 V c 1 t : Vec Ideal S128x128 .f32) (ix2 k n) = V c main_v43 (ix2 k n) := by
  unfold iblk4
  rw [View.read_apply]
  show V c main_v43 _ = V c main_v43 _
  refine congrArg (V c main_v43) (funext fun a => Fin.ext ?_)
  match a with
  | ⟨0, _⟩ => show win4_1.index t (0 : Fin 2) * 128 + 1 * k.val = k.val; rw [(edge4_idx t).2.2.1]; omega
  | ⟨1, _⟩ => show win4_1.index t (1 : Fin 2) * 128 + 1 * n.val = n.val; rw [(edge4_idx t).2.2.2.1]; omega

/-- The bias block at any point is the whole bias row. -/
theorem edge4_bias (c : Dev nD) (t : Fin cfg4.N) (n : Fin 128) :
    (iblk4 V c 2 t : Vec Ideal S1x128 .f32) (ix2 (0 : Fin 1) n) = V c main_v44 (ix2 (0 : Fin 1) n) := by
  unfold iblk4
  rw [View.read_apply]
  show V c main_v44 _ = V c main_v44 _
  refine congrArg (V c main_v44) (funext fun a => Fin.ext ?_)
  match a with
  | ⟨0, _⟩ => show win4_2.index t (0 : Fin 2) * 1 + 1 * (0 : Fin 1).val = (0 : Fin 1).val; rw [(edge4_idx t).2.2.2.2.1]; omega
  | ⟨1, _⟩ => show win4_2.index t (1 : Fin 2) * 128 + 1 * n.val = n.val; rw [(edge4_idx t).2.2.2.2.2.1]; omega

/-- Entry (p, q) of the output block at point t sits at (8000·t + p, q) of the output array. -/
theorem edge4_out_emb (t : Fin cfg4.N) (p : Fin 8000) (q : Fin 128) (r : Fin 600000)
    (hr : r.val = t.val * 8000 + p.val) :
    ((cfg4.win 3).blk t).view.emb (ix2 p q) = ix2 r q := by
  funext a; apply Fin.ext
  match a with
  | ⟨0, _⟩ => show win4_3.index t (0 : Fin 2) * 8000 + 1 * p.val = r.val; rw [(edge4_idx t).2.2.2.2.2.2.1]; omega
  | ⟨1, _⟩ => show win4_3.index t (1 : Fin 2) * 128 + 1 * q.val = q.val; rw [(edge4_idx t).2.2.2.2.2.2.2]; omega

/-- What point t writes back is its block of the per-edge linear map of the arrays the region finds. This region's
    block arithmetic is the first region's, term for term. -/
theorem edge4_flushed (c : Dev nD) (t : Fin cfg4.N) :
    (dat4 (F := Ideal) V c).flushed 3 t
      = ((cfg4.win 3).blk t).view.read (Elt Ideal) (edgeG (E := 600000) (V c main_v42) (V c main_v43) (V c main_v44)) := by
  show (cfg4.win 3).cut (grid4.coords t) ((dat4 V c).after 3 t) = _
  rw [after4_3]
  unfold out4_3
  rw [View.canon_unit_zero edge_zero2]
  simp only [View.ld_unit_zero (S := S8000x128) edge_zero2, View.ld_unit_zero (S := S128x128) edge_zero2, View.ld_unit_zero (S := S1x128) edge_zero2]
  show (fun j : S8000x128.Idx => k4_pay1 (F := Ideal) (iblk4 V c 0 t) (iblk4 V c 1 t) (iblk4 V c 2 t) j)
      = fun j : S8000x128.Idx => edgeG (E := 600000) (V c main_v42) (V c main_v43) (V c main_v44) (((cfg4.win 3).blk t).view.emb j)
  funext j
  obtain ⟨p, q, rfl⟩ : ∃ (p : Fin 8000) (q : Fin 128), j = ix2 p q := ⟨j 0, j 1, eq_ix2 j⟩
  have hp := p.isLt
  have ht : t.val < 75 := lt_of_lt_of_eq t.isLt N_4
  have hr : t.val * 8000 + p.val < 600000 := by omega
  rw [edge4_out_emb t p q ⟨_, hr⟩ rfl]
  refine (congrFun (edge_pay4_eq (iblk4 V c 0 t) (iblk4 V c 1 t) (iblk4 V c 2 t)) (ix2 p q)).trans ?_
  exact edge_pay_eq_edgeG _ _ _ (iblk4 V c 0 t) (iblk4 V c 1 t) (iblk4 V c 2 t) p q ⟨_, hr⟩
    (fun k => edge4_rows V c t p k _ rfl) (fun k => edge4_weight V c t k q) (edge4_bias V c t q)

/-- An entry of the output array is in point t's block iff each coordinate is in the block's range on its axis. -/
theorem edge4_mem_blk (t : Fin cfg4.N) (i : S600000x128.Idx) :
    i ∈ ((cfg4.win 3).blk t).view.set ↔ ∀ a : Fin 2, win4_3.index t a * S8000x128.size a ≤ (i a).val ∧ (i a).val < win4_3.index t a * S8000x128.size a + S8000x128.size a := by
  show i ∈ ((View.whole main_v45).slice (win4_3.rect t)).set ↔ _
  rw [View.set_slice_whole, Rect.mem_set_unit]
  exact Iff.rfl

/-- Every entry of the output array is written back by some point: row r by point r / 8000. -/
theorem edge4_cover (i : S600000x128.Idx) :
    ∃ t : Fin cfg4.N, (cfg4.win 3).flush t = true ∧ i ∈ ((cfg4.win 3).blk t).view.set := by
  have hi0 : (i 0).val < 600000 := (i 0).isLt
  have hi1 : (i 1).val < 128 := (i 1).isLt
  have hN : (i 0).val / 8000 < cfg4.N := by rw [show cfg4.N = 75 from N_4]; omega
  have e0 : win4_3.index ⟨(i 0).val / 8000, hN⟩ (0 : Fin 2) = (i 0).val / 8000 := (edge4_idx ⟨(i 0).val / 8000, hN⟩).2.2.2.2.2.2.1
  have e1 : win4_3.index ⟨(i 0).val / 8000, hN⟩ (1 : Fin 2) = 0 := (edge4_idx ⟨(i 0).val / 8000, hN⟩).2.2.2.2.2.2.2
  refine ⟨⟨(i 0).val / 8000, hN⟩, flush4_3 _, ?_⟩
  rw [edge4_mem_blk]
  intro a
  match a with
  | ⟨0, _⟩ => show win4_3.index ⟨(i 0).val / 8000, hN⟩ (0 : Fin 2) * 8000 ≤ (i 0).val ∧ (i 0).val < win4_3.index ⟨(i 0).val / 8000, hN⟩ (0 : Fin 2) * 8000 + 8000; rw [e0]; omega
  | ⟨1, _⟩ => show win4_3.index ⟨(i 0).val / 8000, hN⟩ (1 : Fin 2) * 128 ≤ (i 1).val ∧ (i 1).val < win4_3.index ⟨(i 0).val / 8000, hN⟩ (1 : Fin 2) * 128 + 128; rw [e1]; omega

/-- The third per-edge region. -/
theorem edge_region4 (c : Dev nD) :
    (dat4 (F := Ideal) V c).arrAt 3 cfg4.N = edgeG (E := 600000) (V c main_v42) (V c main_v43) (V c main_v44) :=
  (dat4 (F := Ideal) V c).arrAt_eq_of_cover 3 _ (fun t _ => edge4_flushed V c t) edge4_cover

end Region4

end Cert.MsgPass

end
-- ==== Proof.NodePayload.lean ====
/-
  The node-update kernel's arithmetic at one entry, over the extended reals.

  One grid point of the node update works on a block of 5000 rows. From the block `h` of the nodes' own rows, the
  block `a` of their aggregated rows, the two 128 × 128 weights `wh`, `wa` (laid out [in, out]) and the bias row
  `b` it stores, at row `p` and column `q`,

      max ((∑ k, h (p, k) · wh (k, q)) + (∑ k, a (p, k) · wa (k, q)) + b (0, q)) 0.

  Why: over the extended reals a change of float format is the identity, a reshape to the same shape is the
  identity, a matrix product into a zero accumulator is the plain sum over the contracted axis, the broadcast of
  the 1 × 128 bias row reads its column, and the scalar zero the maximum is taken against is the real 0.
-/
import proofs.«410022_j38792144617921_1_alg».proof.Proof.Gen.KernelIdeal.Skeleton
import proofs.«410022_j38792144617921_1_alg».proof.Proof.Spec
import Idealize.ShloMosaic.Lib.ValueIdx
import Idealize.ShloMosaic.Lib.Pipeline.Value
import Idealize.ShloMosaic.PureOps.Ideal.Laws

noncomputable section

namespace Cert.MsgPass

open Idealize.ShloMosaic Idealize.ShloMosaic.ValueIdx
open Cert.KernelIdeal Cert.KernelIdeal.Gen

/-! ## The contraction's operand indices

The product contracts the left operand's axis 1 with the right operand's axis 0. At output index `i` and
contraction index `c` the left operand is read at (i 0, c) and the right operand at (c, i 1): one fact per axis. -/

/-- The left operand's row is the output's row. -/
theorem lhs_rowdot_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column is the contraction index. -/
theorem lhs_rowdot_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand's row is the contraction index. -/
theorem rhs_rowdot_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- The right operand's column is the output's column. -/
theorem rhs_rowdot_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## One product at an entry -/

/-- A block of 5000 rows times a 128 × 128 matrix, accumulated into zero, at (p, q): the row of the block against
    the column of the matrix. The contraction's index set is re-indexed by its one coordinate. -/
theorem rowdot_apply (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun d => Fin.ext (by
    match d with
    | ⟨0, _⟩ => exact lhs_rowdot_0 _ _
    | ⟨1, _⟩ => exact (lhs_rowdot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun d => Fin.ext (by
    match d with
    | ⟨0, _⟩ => exact (rhs_rowdot_0 _ _).trans hk
    | ⟨1, _⟩ => exact rhs_rowdot_1 _ _)
  rw [el, er]

/-- The bias row broadcast down the 5000 rows reads its own column. -/
theorem biasrow_apply (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun d => by
    match d with
    | ⟨0, _⟩ => rfl
    | ⟨1, _⟩ => rfl)

/-! ## The stored block at an entry -/

/-- The first two node-update kernels' stored block at (p, q). -/
theorem node_pay_apply (h a : Vec Ideal S5000x128 .f32) (wh wa : Vec Ideal S128x128 .f32) (b : Vec Ideal S1x128 .f32)
    (p : Fin 5000) (q : Fin 128) :
    k1_pay1 h a wh wa b (ix2 p q)
      = max ((∑ k : Fin 128, h (ix2 p k) * wh (ix2 k q)) + (∑ k : Fin 128, a (ix2 p k) * wa (ix2 k q))
          + b (ix2 (0 : Fin 1) q)) 0 := by
  unfold k1_pay1
  simp only [shapeCast_self]
  rw [maximumf_apply, addf_apply, addf_apply, rowdot_apply, rowdot_apply, biasrow_apply, broadcast_apply]
  simp only [truncf_apply]
  rw [show (Scalar.ofBits .f32 0x00000000#32 : Ideal .f32) = 0 from Ideal.ofBits_zero_f32]

/-- The second node-update kernel stores the same function of its five blocks as the first. -/
theorem node_pay3_eq (h a : Vec Ideal S5000x128 .f32) (wh wa : Vec Ideal S128x128 .f32) (b : Vec Ideal S1x128 .f32) :
    k3_pay1 h a wh wa b = k1_pay1 h a wh wa b := rfl

/-- So does the third: it only reshapes the nodes' own block to its own shape first, which changes nothing. -/
theorem node_pay5_eq (h a : Vec Ideal S5000x128 .f32) (wh wa : Vec Ideal S128x128 .f32) (b : Vec Ideal S1x128 .f32) :
    k5_pay1 h a wh wa b = k1_pay1 h a wh wa b := by
  unfold k5_pay1 k1_pay1
  simp only [shapeCast_self]

/-! ## The stored block as rows of the whole-array function

When the two row blocks hold, at block row `p`, row `r` of the arrays `H` and `A`, and the weight and bias blocks
are the whole arrays `Wh`, `Wa`, `B`, the stored block at (p, q) is `nodeG H A Wh Wa B` at (r, q): both are the same
two row-by-column sums, the bias entry and the positive part. -/

theorem node_pay_rows1 {N : Nat} (H A : Mat N 128) (Wh Wa : Mat 128 128) (B : Mat 1 128)
    (h a : Vec Ideal S5000x128 .f32) (wh wa : Vec Ideal S128x128 .f32) (b : Vec Ideal S1x128 .f32)
    (p : Fin 5000) (q : Fin 128) (r : Fin N)
    (hh : ∀ k : Fin 128, h (ix2 p k) = H (ix2 r k)) (ha : ∀ k : Fin 128, a (ix2 p k) = A (ix2 r k))
    (hwh : wh = Wh) (hwa : wa = Wa) (hb : b = B) :
    k1_pay1 h a wh wa b (ix2 p q) = nodeG H A Wh Wa B (ix2 r q) := by
  subst hwh hwa hb
  rw [node_pay_apply, nodeG_apply]
  simp only [hh, ha]

/-- The same for the second node-update kernel's stored block. -/
theorem node_pay_rows3 {N : Nat} (H A : Mat N 128) (Wh Wa : Mat 128 128) (B : Mat 1 128)
    (h a : Vec Ideal S5000x128 .f32) (wh wa : Vec Ideal S128x128 .f32) (b : Vec Ideal S1x128 .f32)
    (p : Fin 5000) (q : Fin 128) (r : Fin N)
    (hh : ∀ k : Fin 128, h (ix2 p k) = H (ix2 r k)) (ha : ∀ k : Fin 128, a (ix2 p k) = A (ix2 r k))
    (hwh : wh = Wh) (hwa : wa = Wa) (hb : b = B) :
    k3_pay1 h a wh wa b (ix2 p q) = nodeG H A Wh Wa B (ix2 r q) :=
  (congrFun (node_pay3_eq h a wh wa b) (ix2 p q)).trans (node_pay_rows1 H A Wh Wa B h a wh wa b p q r hh ha hwh hwa hb)

/-- The same for the third node-update kernel's stored block. -/
theorem node_pay_rows5 {N : Nat} (H A : Mat N 128) (Wh Wa : Mat 128 128) (B : Mat 1 128)
    (h a : Vec Ideal S5000x128 .f32) (wh wa : Vec Ideal S128x128 .f32) (b : Vec Ideal S1x128 .f32)
    (p : Fin 5000) (q : Fin 128) (r : Fin N)
    (hh : ∀ k : Fin 128, h (ix2 p k) = H (ix2 r k)) (ha : ∀ k : Fin 128, a (ix2 p k) = A (ix2 r k))
    (hwh : wh = Wh) (hwa : wa = Wa) (hb : b = B) :
    k5_pay1 h a wh wa b (ix2 p q) = nodeG H A Wh Wa B (ix2 r q) :=
  (congrFun (node_pay5_eq h a wh wa b) (ix2 p q)).trans (node_pay_rows1 H A Wh Wa B h a wh wa b p q r hh ha hwh hwa hb)

end Cert.MsgPass

end
-- ==== Proof.RegionNode1.lean ====
/-
  The first node-update region, read as one function of whole arrays.

  The region runs the node-update kernel over 5 grid points, each on a block of 5000 rows: point `t` sees rows
  5000 t … 5000 t + 4999 of the nodes' own array and of their aggregated array, the two 128 × 128 weights and the
  bias row whole, and writes back rows 5000 t … 5000 t + 4999 of the output. Whatever the arrays hold when the
  region is entered, its output array ends holding the whole-array node update `nodeG` of them:

    * the input blocks are the arrays read through their windows' rectangles (block coordinate = block index ×
      block size + coordinate inside the block), and the block indices are decided once over the grid;
    * so what point `t` writes back is block `t` of `nodeG` (the kernel's arithmetic at one entry is the payload
      module's; row `p` of the block is row 5000 t + p of the arrays);
    * the 5 output blocks tile the 25000 rows: row `r` lies in the block of point `r / 5000`.
-/
import proofs.«410022_j38792144617921_1_alg».proof.Proof.Gen.KernelIdeal.Frame
import proofs.«410022_j38792144617921_1_alg».proof.Proof.Spec
import proofs.«410022_j38792144617921_1_alg».proof.Proof.NodePayload
import Idealize.ShloMosaic.Lib.ValueIdx
import Idealize.ShloMosaic.Lib.Pipeline.Value

set_option maxRecDepth 16384

noncomputable section

namespace Cert.MsgPass

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offsets of a whole-buffer access, as a constant function. -/
theorem node1_zero : (![0, 0] : Fin 2 → Nat) = fun _ => 0 :=
  funext fun a => by match a with | ⟨0, _⟩ => rfl | ⟨1, _⟩ => rfl

/-- The block indices of the six windows at grid point `t`, decided once over the 5 points: the two row windows and
    the output sit at block row `t`, column block 0; the weights and the bias are whole at every point. -/
theorem node1_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The input blocks, read off the arrays -/

/-- The nodes' own block at point `t` holds rows 5000 t … 5000 t + 4999 of the array. -/
theorem node1_own (c : Dev nD) (t : Fin cfg1.N) (x : S5000x128.Idx) (i : S25000x128.Idx)
    (h0 : (i 0).val = 5000 * t.val + (x 0).val) (h1 : (i 1).val = (x 1).val) :
    (iblk1 V c 0 t : Vec Ideal S5000x128 .f32) x = (V c main_arg1 : S25000x128.Idx → Elt Ideal .f32) i := by
  obtain ⟨e0, e1, -⟩ := node1_index t
  unfold iblk1
  rw [View.read_apply]
  show V c main_arg1 _ = V c main_arg1 _
  congr 1
  funext a
  apply Fin.ext
  match a with
  | ⟨0, _⟩ => show win1_0.index t (0 : Fin 2) * 5000 + 1 * (x 0).val = (i 0).val; rw [e0, h0]; omega
  | ⟨1, _⟩ => show win1_0.index t (1 : Fin 2) * 128 + 1 * (x 1).val = (i 1).val; rw [e1, h1]; omega

/-- The aggregated block at point `t` holds the same rows of the aggregated array. -/
theorem node1_agg (c : Dev nD) (t : Fin cfg1.N) (x : S5000x128.Idx) (i : S25000x128.Idx)
    (h0 : (i 0).val = 5000 * t.val + (x 0).val) (h1 : (i 1).val = (x 1).val) :
    (iblk1 V c 1 t : Vec Ideal S5000x128 .f32) x = (V c main_v14 : S25000x128.Idx → Elt Ideal .f32) i := by
  obtain ⟨-, -, e0, e1, -⟩ := node1_index t
  unfold iblk1
  rw [View.read_apply]
  show V c main_v14 _ = V c main_v14 _
  congr 1
  funext a
  apply Fin.ext
  match a with
  | ⟨0, _⟩ => show win1_1.index t (0 : Fin 2) * 5000 + 1 * (x 0).val = (i 0).val; rw [e0, h0]; omega
  | ⟨1, _⟩ => show win1_1.index t (1 : Fin 2) * 128 + 1 * (x 1).val = (i 1).val; rw [e1, h1]; omega

/-- The first weight's block is the whole weight at every point. -/
theorem node1_wh (c : Dev nD) (t : Fin cfg1.N) : (iblk1 V c 2 t : Vec Ideal S128x128 .f32) = V c main_v17 := by
  obtain ⟨-, -, -, -, e0, e1, -⟩ := node1_index t
  funext x
  unfold iblk1
  rw [View.read_apply]
  show V c main_v17 _ = V c main_v17 _
  congr 1
  funext a
  apply Fin.ext
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- So is the second weight's. -/
theorem node1_wa (c : Dev nD) (t : Fin cfg1.N) : (iblk1 V c 3 t : Vec Ideal S128x128 .f32) = V c main_v18 := by
  obtain ⟨-, -, -, -, -, -, e0, e1, -⟩ := node1_index t
  funext x
  unfold iblk1
  rw [View.read_apply]
  show V c main_v18 _ = V c main_v18 _
  congr 1
  funext a
  apply Fin.ext
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- And the bias row's block is the whole bias row. -/
theorem node1_bias (c : Dev nD) (t : Fin cfg1.N) : (iblk1 V c 4 t : Vec Ideal S1x128 .f32) = V c main_v19 := by
  obtain ⟨-, -, -, -, -, -, -, -, e0, e1, -⟩ := node1_index t
  funext x
  unfold iblk1
  rw [View.read_apply]
  show V c main_v19 _ = V c main_v19 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-! ## What a point writes back -/

/-- Point `t` writes back block `t` of the whole-array node update of the arrays the region finds: at block row `p`
    the stored block is the update's row 5000 t + p, because that is the row both row blocks hold there. -/
theorem node1_flushed (c : Dev nD) (t : Fin cfg1.N) :
    (dat1 V c).flushed 5 t = ((cfg1.win 5).blk t).view.read (Elt Ideal)
      (nodeG (N := 25000) (V c main_arg1) (V c main_v14) (V c main_v17) (V c main_v18) (V c main_v19)) := by
  show (cfg1.win 5).cut (grid1.coords t) ((dat1 V c).after 5 t) = _
  rw [after1_5]
  unfold out1_5
  rw [View.canon_unit_zero node1_zero]
  simp only [View.ld_unit_zero (S := S5000x128) node1_zero, View.ld_unit_zero (S := S128x128) node1_zero,
    View.ld_unit_zero (S := S1x128) node1_zero]
  obtain ⟨-, -, -, -, -, -, -, -, -, -, e0, e1⟩ := node1_index t
  have hN : t.val < 5 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hemb : ((cfg1.win 5).blk t).view.emb (ix2 p q) = ix2 (⟨5000 * t.val + p.val, by omega⟩ : Fin 25000) q := by
    funext a
    apply Fin.ext
    match a with
    | ⟨0, _⟩ => show win1_5.index t (0 : Fin 2) * 5000 + 1 * p.val = 5000 * t.val + p.val; rw [e0]; omega
    | ⟨1, _⟩ => show win1_5.index t (1 : Fin 2) * 128 + 1 * q.val = q.val; rw [e1]; omega
  show k1_pay1 (iblk1 V c 0 t) (iblk1 V c 1 t) (iblk1 V c 2 t) (iblk1 V c 3 t) (iblk1 V c 4 t) (ix2 p q)
    = nodeG (N := 25000) (V c main_arg1) (V c main_v14) (V c main_v17) (V c main_v18) (V c main_v19)
        (((cfg1.win 5).blk t).view.emb (ix2 p q))
  rw [hemb]
  exact node_pay_rows1 (V c main_arg1) (V c main_v14) (V c main_v17) (V c main_v18) (V c main_v19)
    (iblk1 V c 0 t) (iblk1 V c 1 t) (iblk1 V c 2 t) (iblk1 V c 3 t) (iblk1 V c 4 t) p q ⟨5000 * t.val + p.val, by omega⟩
    (fun k => node1_own V c t (ix2 p k) (ix2 ⟨5000 * t.val + p.val, by omega⟩ k) rfl rfl)
    (fun k => node1_agg V c t (ix2 p k) (ix2 ⟨5000 * t.val + p.val, by omega⟩ k) rfl rfl)
    (node1_wh V c t) (node1_wa V c t) (node1_bias V c t)

/-! ## The blocks tile the array -/

/-- An index of the output array is in point `t`'s block iff each coordinate is in the block's range. -/
theorem node1_mem_blk (t : Fin cfg1.N) (i : S25000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v20).slice (win1_5.rect t)).set ↔ _
  rw [View.set_slice_whole, Rect.mem_set_unit]
  exact Iff.rfl

/-- Row `r` of the output array is written by point `r / 5000`. -/
theorem node1_cover (i : S25000x128.Idx) :
    ∃ t : Fin cfg1.N, (cfg1.win 5).flush t = true ∧ i ∈ ((cfg1.win 5).blk t).view.set := by
  have hi0 : (i 0).val < 25000 := (i 0).isLt
  have hi1 : (i 1).val < 128 := (i 1).isLt
  have hlt : (i 0).val / 5000 < cfg1.N := lt_of_lt_of_eq (by omega) N_1.symm
  refine ⟨⟨(i 0).val / 5000, hlt⟩, flush1_5 _, ?_⟩
  obtain ⟨-, -, -, -, -, -, -, -, -, -, e0, e1⟩ := node1_index ⟨(i 0).val / 5000, hlt⟩
  rw [node1_mem_blk]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    rw [e1]
    omega

/-! ## The region's output array -/

/-- What the first node-update region leaves in its output array, from the arrays it finds: the whole-array node
    update. Every point writes back its block of that one function, and the blocks tile the array. -/
theorem node_region1 (c : Dev nD) :
    (dat1 (F := Ideal) V c).arrAt 5 cfg1.N
      = nodeG (N := 25000) (V c main_arg1) (V c main_v14) (V c main_v17) (V c main_v18) (V c main_v19) :=
  (dat1 V c).arrAt_eq_of_cover 5
    (nodeG (N := 25000) (V c main_arg1) (V c main_v14) (V c main_v17) (V c main_v18) (V c main_v19))
    (fun t _ => node1_flushed V c t) node1_cover

end Cert.MsgPass

end
-- ==== Proof.RegionNode3.lean ====
/-
  The second node-update region, read as one function of whole arrays.

  The region runs the node-update kernel over 10 grid points, each on a block of 5000 rows: point `t` sees rows
  5000 t … 5000 t + 4999 of the nodes' own array and of their aggregated array, the two 128 × 128 weights and the
  bias row whole, and writes back rows 5000 t … 5000 t + 4999 of the output. Whatever the arrays hold when the
  region is entered, its output array ends holding the whole-array node update `nodeG` of them:

    * the input blocks are the arrays read through their windows' rectangles (block coordinate = block index ×
      block size + coordinate inside the block), and the block indices are decided once over the grid;
    * so what point `t` writes back is block `t` of `nodeG` (the kernel's arithmetic at one entry is the payload
      module's; row `p` of the block is row 5000 t + p of the arrays);
    * the 10 output blocks tile the 50000 rows: row `r` lies in the block of point `r / 5000`.
-/
import proofs.«410022_j38792144617921_1_alg».proof.Proof.Gen.KernelIdeal.Frame
import proofs.«410022_j38792144617921_1_alg».proof.Proof.Spec
import proofs.«410022_j38792144617921_1_alg».proof.Proof.NodePayload
import Idealize.ShloMosaic.Lib.ValueIdx
import Idealize.ShloMosaic.Lib.Pipeline.Value

set_option maxRecDepth 16384

noncomputable section

namespace Cert.MsgPass

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offsets of a whole-buffer access, as a constant function. -/
theorem node3_zero : (![0, 0] : Fin 2 → Nat) = fun _ => 0 :=
  funext fun a => by match a with | ⟨0, _⟩ => rfl | ⟨1, _⟩ => rfl

/-- The block indices of the six windows at grid point `t`, decided once over the 10 points: the two row windows and
    the output sit at block row `t`, column block 0; the weights and the bias are whole at every point. -/
theorem node3_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-! ## The input blocks, read off the arrays -/

/-- The nodes' own block at point `t` holds rows 5000 t … 5000 t + 4999 of the array. -/
theorem node3_own (c : Dev nD) (t : Fin cfg3.N) (x : S5000x128.Idx) (i : S50000x128.Idx)
    (h0 : (i 0).val = 5000 * t.val + (x 0).val) (h1 : (i 1).val = (x 1).val) :
    (iblk3 V c 0 t : Vec Ideal S5000x128 .f32) x = (V c main_arg0 : S50000x128.Idx → Elt Ideal .f32) i := by
  obtain ⟨e0, e1, -⟩ := node3_index t
  unfold iblk3
  rw [View.read_apply]
  show V c main_arg0 _ = V c main_arg0 _
  congr 1
  funext a
  apply Fin.ext
  match a with
  | ⟨0, _⟩ => show win3_0.index t (0 : Fin 2) * 5000 + 1 * (x 0).val = (i 0).val; rw [e0, h0]; omega
  | ⟨1, _⟩ => show win3_0.index t (1 : Fin 2) * 128 + 1 * (x 1).val = (i 1).val; rw [e1, h1]; omega

/-- The aggregated block at point `t` holds the same rows of the aggregated array. -/
theorem node3_agg (c : Dev nD) (t : Fin cfg3.N) (x : S5000x128.Idx) (i : S50000x128.Idx)
    (h0 : (i 0).val = 5000 * t.val + (x 0).val) (h1 : (i 1).val = (x 1).val) :
    (iblk3 V c 1 t : Vec Ideal S5000x128 .f32) x = (V c main_v35 : S50000x128.Idx → Elt Ideal .f32) i := by
  obtain ⟨-, -, e0, e1, -⟩ := node3_index t
  unfold iblk3
  rw [View.read_apply]
  show V c main_v35 _ = V c main_v35 _
  congr 1
  funext a
  apply Fin.ext
  match a with
  | ⟨0, _⟩ => show win3_1.index t (0 : Fin 2) * 5000 + 1 * (x 0).val = (i 0).val; rw [e0, h0]; omega
  | ⟨1, _⟩ => show win3_1.index t (1 : Fin 2) * 128 + 1 * (x 1).val = (i 1).val; rw [e1, h1]; omega

/-- The first weight's block is the whole weight at every point. -/
theorem node3_wh (c : Dev nD) (t : Fin cfg3.N) : (iblk3 V c 2 t : Vec Ideal S128x128 .f32) = V c main_v38 := by
  obtain ⟨-, -, -, -, e0, e1, -⟩ := node3_index t
  funext x
  unfold iblk3
  rw [View.read_apply]
  show V c main_v38 _ = V c main_v38 _
  congr 1
  funext a
  apply Fin.ext
  match a with
  | ⟨0, _⟩ => show win3_2.index t (0 : Fin 2) * 128 + 1 * (x 0).val = (x 0).val; rw [e0]; omega
  | ⟨1, _⟩ => show win3_2.index t (1 : Fin 2) * 128 + 1 * (x 1).val = (x 1).val; rw [e1]; omega

/-- So is the second weight's. -/
theorem node3_wa (c : Dev nD) (t : Fin cfg3.N) : (iblk3 V c 3 t : Vec Ideal S128x128 .f32) = V c main_v39 := by
  obtain ⟨-, -, -, -, -, -, e0, e1, -⟩ := node3_index t
  funext x
  unfold iblk3
  rw [View.read_apply]
  show V c main_v39 _ = V c main_v39 _
  congr 1
  funext a
  apply Fin.ext
  match a with
  | ⟨0, _⟩ => show win3_3.index t (0 : Fin 2) * 128 + 1 * (x 0).val = (x 0).val; rw [e0]; omega
  | ⟨1, _⟩ => show win3_3.index t (1 : Fin 2) * 128 + 1 * (x 1).val = (x 1).val; rw [e1]; omega

/-- And the bias row's block is the whole bias row. -/
theorem node3_bias (c : Dev nD) (t : Fin cfg3.N) : (iblk3 V c 4 t : Vec Ideal S1x128 .f32) = V c main_v40 := by
  obtain ⟨-, -, -, -, -, -, -, -, e0, e1, -⟩ := node3_index t
  funext x
  unfold iblk3
  rw [View.read_apply]
  show V c main_v40 _ = V c main_v40 _
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 128 + 1 * (x 1).val = (x 1).val; rw [e1]; omega

/-! ## What a point writes back -/

/-- Point `t` writes back block `t` of the whole-array node update of the arrays the region finds: at block row `p`
    the stored block is the update's row 5000 t + p, because that is the row both row blocks hold there. -/
theorem node3_flushed (c : Dev nD) (t : Fin cfg3.N) :
    (dat3 V c).flushed 5 t = ((cfg3.win 5).blk t).view.read (Elt Ideal)
      (nodeG (N := 50000) (V c main_arg0) (V c main_v35) (V c main_v38) (V c main_v39) (V c main_v40)) := by
  show (cfg3.win 5).cut (grid3.coords t) ((dat3 V c).after 5 t) = _
  rw [after3_5]
  unfold out3_5
  rw [View.canon_unit_zero node3_zero]
  simp only [View.ld_unit_zero (S := S5000x128) node3_zero, View.ld_unit_zero (S := S128x128) node3_zero,
    View.ld_unit_zero (S := S1x128) node3_zero]
  obtain ⟨-, -, -, -, -, -, -, -, -, -, e0, e1⟩ := node3_index t
  have hN : t.val < 10 := lt_of_lt_of_eq t.isLt N_3
  funext j
  obtain ⟨p, q, rfl⟩ : ∃ (p : Fin 5000) (q : Fin 128), j = ix2 p q := ⟨j 0, j 1, eq_ix2 j⟩
  have hp : p.val < 5000 := p.isLt
  have hemb : ((cfg3.win 5).blk t).view.emb (ix2 p q) = ix2 (⟨5000 * t.val + p.val, by omega⟩ : Fin 50000) q := by
    funext a
    apply Fin.ext
    match a with
    | ⟨0, _⟩ => show win3_5.index t (0 : Fin 2) * 5000 + 1 * p.val = 5000 * t.val + p.val; rw [e0]; omega
    | ⟨1, _⟩ => show win3_5.index t (1 : Fin 2) * 128 + 1 * q.val = q.val; rw [e1]; omega
  show k3_pay1 (iblk3 V c 0 t) (iblk3 V c 1 t) (iblk3 V c 2 t) (iblk3 V c 3 t) (iblk3 V c 4 t) (ix2 p q)
    = nodeG (N := 50000) (V c main_arg0) (V c main_v35) (V c main_v38) (V c main_v39) (V c main_v40)
        (((cfg3.win 5).blk t).view.emb (ix2 p q))
  rw [hemb]
  exact node_pay_rows3 (V c main_arg0) (V c main_v35) (V c main_v38) (V c main_v39) (V c main_v40)
    (iblk3 V c 0 t) (iblk3 V c 1 t) (iblk3 V c 2 t) (iblk3 V c 3 t) (iblk3 V c 4 t) p q ⟨5000 * t.val + p.val, by omega⟩
    (fun k => node3_own V c t (ix2 p k) (ix2 ⟨5000 * t.val + p.val, by omega⟩ k) rfl rfl)
    (fun k => node3_agg V c t (ix2 p k) (ix2 ⟨5000 * t.val + p.val, by omega⟩ k) rfl rfl)
    (node3_wh V c t) (node3_wa V c t) (node3_bias V c t)

/-! ## The blocks tile the array -/

/-- An index of the output array is in point `t`'s block iff each coordinate is in the block's range. -/
theorem node3_mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v41).slice (win3_5.rect t)).set ↔ _
  rw [View.set_slice_whole, Rect.mem_set_unit]
  exact Iff.rfl

/-- Row `r` of the output array is written by point `r / 5000`. -/
theorem node3_cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hlt : (i 0).val / 5000 < cfg3.N := lt_of_lt_of_eq (by omega) N_3.symm
  refine ⟨⟨(i 0).val / 5000, hlt⟩, flush3_5 _, ?_⟩
  obtain ⟨-, -, -, -, -, -, -, -, -, -, e0, e1⟩ := node3_index ⟨(i 0).val / 5000, hlt⟩
  rw [node3_mem_blk]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win3_5.index ⟨(i 0).val / 5000, hlt⟩ (1 : Fin 2) * 128 ≤ (i 1).val
      ∧ (i 1).val < win3_5.index ⟨(i 0).val / 5000, hlt⟩ (1 : Fin 2) * 128 + 128
    rw [e1]
    omega

/-! ## The region's output array -/

/-- What the second node-update region leaves in its output array, from the arrays it finds: the whole-array node
    update. Every point writes back its block of that one function, and the blocks tile the array. -/
theorem node_region3 (c : Dev nD) :
    (dat3 (F := Ideal) V c).arrAt 5 cfg3.N
      = nodeG (N := 50000) (V c main_arg0) (V c main_v35) (V c main_v38) (V c main_v39) (V c main_v40) :=
  (dat3 V c).arrAt_eq_of_cover 5
    (nodeG (N := 50000) (V c main_arg0) (V c main_v35) (V c main_v38) (V c main_v39) (V c main_v40))
    (fun t _ => node3_flushed V c t) node3_cover

end Cert.MsgPass

end
-- ==== Proof.RegionNode5.lean ====
/-
  The third node-update region, read as one function of whole arrays.

  The region runs the node-update kernel over 10 grid points, each on a block of 5000 rows: point `t` sees rows
  5000 t … 5000 t + 4999 of the nodes' own array and of their aggregated array, the two 128 × 128 weights and the
  bias row whole, and writes back rows 5000 t … 5000 t + 4999 of the output. Whatever the arrays hold when the
  region is entered, its output array ends holding the whole-array node update `nodeG` of them:

    * the input blocks are the arrays read through their windows' rectangles (block coordinate = block index ×
      block size + coordinate inside the block), and the block indices are decided once over the grid;
    * so what point `t` writes back is block `t` of `nodeG` (the kernel's arithmetic at one entry is the payload
      module's; row `p` of the block is row 5000 t + p of the arrays);
    * the 10 output blocks tile the 50000 rows: row `r` lies in the block of point `r / 5000`.
-/
import proofs.«410022_j38792144617921_1_alg».proof.Proof.Gen.KernelIdeal.Frame
import proofs.«410022_j38792144617921_1_alg».proof.Proof.Spec
import proofs.«410022_j38792144617921_1_alg».proof.Proof.NodePayload
import Idealize.ShloMosaic.Lib.ValueIdx
import Idealize.ShloMosaic.Lib.Pipeline.Value

set_option maxRecDepth 16384

noncomputable section

namespace Cert.MsgPass

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offsets of a whole-buffer access, as a constant function. -/
theorem node5_zero : (![0, 0] : Fin 2 → Nat) = fun _ => 0 :=
  funext fun a => by match a with | ⟨0, _⟩ => rfl | ⟨1, _⟩ => rfl

/-- The block indices of the six windows at grid point `t`, decided once over the 10 points: the two row windows and
    the output sit at block row `t`, column block 0; the weights and the bias are whole at every point. -/
theorem node5_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-! ## The input blocks, read off the arrays -/

/-- The nodes' own block at point `t` holds rows 5000 t … 5000 t + 4999 of the array. -/
theorem node5_own (c : Dev nD) (t : Fin cfg5.N) (x : S5000x128.Idx) (i : S50000x128.Idx)
    (h0 : (i 0).val = 5000 * t.val + (x 0).val) (h1 : (i 1).val = (x 1).val) :
    (iblk5 V c 0 t : Vec Ideal S5000x128 .f32) x = (V c main_v41 : S50000x128.Idx → Elt Ideal .f32) i := by
  obtain ⟨e0, e1, -⟩ := node5_index t
  unfold iblk5
  rw [View.read_apply]
  show V c main_v41 _ = V c main_v41 _
  congr 1
  funext a
  apply Fin.ext
  match a with
  | ⟨0, _⟩ => show win5_0.index t (0 : Fin 2) * 5000 + 1 * (x 0).val = (i 0).val; rw [e0, h0]; omega
  | ⟨1, _⟩ => show win5_0.index t (1 : Fin 2) * 128 + 1 * (x 1).val = (i 1).val; rw [e1, h1]; omega

/-- The aggregated block at point `t` holds the same rows of the aggregated array. -/
theorem node5_agg (c : Dev nD) (t : Fin cfg5.N) (x : S5000x128.Idx) (i : S50000x128.Idx)
    (h0 : (i 0).val = 5000 * t.val + (x 0).val) (h1 : (i 1).val = (x 1).val) :
    (iblk5 V c 1 t : Vec Ideal S5000x128 .f32) x = (V c main_v56 : S50000x128.Idx → Elt Ideal .f32) i := by
  obtain ⟨-, -, e0, e1, -⟩ := node5_index t
  unfold iblk5
  rw [View.read_apply]
  show V c main_v56 _ = V c main_v56 _
  congr 1
  funext a
  apply Fin.ext
  match a with
  | ⟨0, _⟩ => show win5_1.index t (0 : Fin 2) * 5000 + 1 * (x 0).val = (i 0).val; rw [e0, h0]; omega
  | ⟨1, _⟩ => show win5_1.index t (1 : Fin 2) * 128 + 1 * (x 1).val = (i 1).val; rw [e1, h1]; omega

/-- The first weight's block is the whole weight at every point. -/
theorem node5_wh (c : Dev nD) (t : Fin cfg5.N) : (iblk5 V c 2 t : Vec Ideal S128x128 .f32) = V c main_v59 := by
  obtain ⟨-, -, -, -, e0, e1, -⟩ := node5_index t
  funext x
  unfold iblk5
  rw [View.read_apply]
  show V c main_v59 _ = V c main_v59 _
  congr 1
  funext a
  apply Fin.ext
  match a with
  | ⟨0, _⟩ => show win5_2.index t (0 : Fin 2) * 128 + 1 * (x 0).val = (x 0).val; rw [e0]; omega
  | ⟨1, _⟩ => show win5_2.index t (1 : Fin 2) * 128 + 1 * (x 1).val = (x 1).val; rw [e1]; omega

/-- So is the second weight's. -/
theorem node5_wa (c : Dev nD) (t : Fin cfg5.N) : (iblk5 V c 3 t : Vec Ideal S128x128 .f32) = V c main_v60 := by
  obtain ⟨-, -, -, -, -, -, e0, e1, -⟩ := node5_index t
  funext x
  unfold iblk5
  rw [View.read_apply]
  show V c main_v60 _ = V c main_v60 _
  congr 1
  funext a
  apply Fin.ext
  match a with
  | ⟨0, _⟩ => show win5_3.index t (0 : Fin 2) * 128 + 1 * (x 0).val = (x 0).val; rw [e0]; omega
  | ⟨1, _⟩ => show win5_3.index t (1 : Fin 2) * 128 + 1 * (x 1).val = (x 1).val; rw [e1]; omega

/-- And the bias row's block is the whole bias row. -/
theorem node5_bias (c : Dev nD) (t : Fin cfg5.N) : (iblk5 V c 4 t : Vec Ideal S1x128 .f32) = V c main_v61 := by
  obtain ⟨-, -, -, -, -, -, -, -, e0, e1, -⟩ := node5_index t
  funext x
  unfold iblk5
  rw [View.read_apply]
  show V c main_v61 _ = V c main_v61 _
  congr 1
  funext a
  apply Fin.ext
  match a with
  | ⟨0, _⟩ => show win5_4.index t (0 : Fin 2) * 1 + 1 * (x 0).val = (x 0).val; rw [e0]; omega
  | ⟨1, _⟩ => show win5_4.index t (1 : Fin 2) * 128 + 1 * (x 1).val = (x 1).val; rw [e1]; omega

/-! ## What a point writes back -/

/-- Point `t` writes back block `t` of the whole-array node update of the arrays the region finds: at block row `p`
    the stored block is the update's row 5000 t + p, because that is the row both row blocks hold there. -/
theorem node5_flushed (c : Dev nD) (t : Fin cfg5.N) :
    (dat5 V c).flushed 5 t = ((cfg5.win 5).blk t).view.read (Elt Ideal)
      (nodeG (N := 50000) (V c main_v41) (V c main_v56) (V c main_v59) (V c main_v60) (V c main_v61)) := by
  show (cfg5.win 5).cut (grid5.coords t) ((dat5 V c).after 5 t) = _
  rw [after5_5]
  unfold out5_5
  rw [View.canon_unit_zero node5_zero]
  simp only [View.ld_unit_zero (S := S5000x128) node5_zero, View.ld_unit_zero (S := S128x128) node5_zero,
    View.ld_unit_zero (S := S1x128) node5_zero]
  obtain ⟨-, -, -, -, -, -, -, -, -, -, e0, e1⟩ := node5_index t
  have hN : t.val < 10 := lt_of_lt_of_eq t.isLt N_5
  funext j
  obtain ⟨p, q, rfl⟩ : ∃ (p : Fin 5000) (q : Fin 128), j = ix2 p q := ⟨j 0, j 1, eq_ix2 j⟩
  have hp : p.val < 5000 := p.isLt
  have hemb : ((cfg5.win 5).blk t).view.emb (ix2 p q) = ix2 (⟨5000 * t.val + p.val, by omega⟩ : Fin 50000) q := by
    funext a
    apply Fin.ext
    match a with
    | ⟨0, _⟩ => show win5_5.index t (0 : Fin 2) * 5000 + 1 * p.val = 5000 * t.val + p.val; rw [e0]; omega
    | ⟨1, _⟩ => show win5_5.index t (1 : Fin 2) * 128 + 1 * q.val = q.val; rw [e1]; omega
  show k5_pay1 (iblk5 V c 0 t) (iblk5 V c 1 t) (iblk5 V c 2 t) (iblk5 V c 3 t) (iblk5 V c 4 t) (ix2 p q)
    = nodeG (N := 50000) (V c main_v41) (V c main_v56) (V c main_v59) (V c main_v60) (V c main_v61)
        (((cfg5.win 5).blk t).view.emb (ix2 p q))
  rw [hemb]
  exact node_pay_rows5 (V c main_v41) (V c main_v56) (V c main_v59) (V c main_v60) (V c main_v61)
    (iblk5 V c 0 t) (iblk5 V c 1 t) (iblk5 V c 2 t) (iblk5 V c 3 t) (iblk5 V c 4 t) p q ⟨5000 * t.val + p.val, by omega⟩
    (fun k => node5_own V c t (ix2 p k) (ix2 ⟨5000 * t.val + p.val, by omega⟩ k) rfl rfl)
    (fun k => node5_agg V c t (ix2 p k) (ix2 ⟨5000 * t.val + p.val, by omega⟩ k) rfl rfl)
    (node5_wh V c t) (node5_wa V c t) (node5_bias V c t)

/-! ## The blocks tile the array -/

/-- An index of the output array is in point `t`'s block iff each coordinate is in the block's range. -/
theorem node5_mem_blk (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v62).slice (win5_5.rect t)).set ↔ _
  rw [View.set_slice_whole, Rect.mem_set_unit]
  exact Iff.rfl

/-- Row `r` of the output array is written by point `r / 5000`. -/
theorem node5_cover (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hlt : (i 0).val / 5000 < cfg5.N := lt_of_lt_of_eq (by omega) N_5.symm
  refine ⟨⟨(i 0).val / 5000, hlt⟩, flush5_5 _, ?_⟩
  obtain ⟨-, -, -, -, -, -, -, -, -, -, e0, e1⟩ := node5_index ⟨(i 0).val / 5000, hlt⟩
  rw [node5_mem_blk]
  intro a
  match a with
  | ⟨0, _⟩ =>
    show win5_5.index ⟨(i 0).val / 5000, hlt⟩ (0 : Fin 2) * 5000 ≤ (i 0).val
      ∧ (i 0).val < win5_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win5_5.index ⟨(i 0).val / 5000, hlt⟩ (1 : Fin 2) * 128 ≤ (i 1).val
      ∧ (i 1).val < win5_5.index ⟨(i 0).val / 5000, hlt⟩ (1 : Fin 2) * 128 + 128
    rw [e1]
    omega

/-! ## The region's output array -/

/-- What the third node-update region leaves in its output array, from the arrays it finds: the whole-array node
    update. Every point writes back its block of that one function, and the blocks tile the array. -/
theorem node_region5 (c : Dev nD) :
    (dat5 (F := Ideal) V c).arrAt 5 cfg5.N
      = nodeG (N := 50000) (V c main_v41) (V c main_v56) (V c main_v59) (V c main_v60) (V c main_v61) :=
  (dat5 V c).arrAt_eq_of_cover 5
    (nodeG (N := 50000) (V c main_v41) (V c main_v56) (V c main_v59) (V c main_v60) (V c main_v61))
    (fun t _ => node5_flushed V c t) node5_cover

end Cert.MsgPass

end
-- ==== Proof.RegionNode.lean ====
/-
  The three node-update regions, each read as one function of whole arrays.

  Each region runs the same node-update kernel on row blocks of 5000 over its own arrays (25000, 50000 and 50000
  rows); whatever the arrays hold when the region is entered, its output array ends holding the whole-array node
  update `nodeG` of its five input arrays. The three statements (`node_region1`, `node_region3`, `node_region5`)
  are proved in the modules imported here, one per region, over the kernel's arithmetic at one entry, which is proved
  once.
-/
import proofs.«410022_j38792144617921_1_alg».proof.Proof.RegionNode1
import proofs.«410022_j38792144617921_1_alg».proof.Proof.RegionNode3
import proofs.«410022_j38792144617921_1_alg».proof.Proof.RegionNode5
-- ==== Proof.KernelValueA.lean ====
/-
  Stage 1's host stretches, read as the stage functions.

  Between the launch and the first node update the host program runs three stretches of whole-array operations:
  the gather of the source rows along the edges (with its fill), the per-edge weight's transpose and the bias as a
  row, and — after the per-edge map — the mean over the edges arriving at each node together with the node
  weight's two transposed halves and the node bias as a row. Each lemma below reads ONE buffer after ONE stretch,
  from arbitrary contents `V` before it, as the stage function of that name applied to `V` at the stretch's operands.
  Each stretch also comes with the list of the references it writes: any other reference keeps its contents.
-/
import proofs.«410022_j38792144617921_1_alg».proof.Proof.Gen.KernelIdeal.Frame
import proofs.«410022_j38792144617921_1_alg».proof.Proof.Stages

set_option maxRecDepth 16384

noncomputable section

namespace Cert.MsgPass

open Idealize.ShloMosaic Idealize.ShloMosaic.TcCoe Idealize.SL.Sem
open Cert.KernelIdeal Cert.KernelIdeal.Gen

/-! ## What each stretch writes -/

/-- The references the first gather's operations write. -/
abbrev gather1Writes : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v0]

theorem gather1Writes_sub : (hostOps0 : List (HloOp τ sig (Elt Ideal))).Forall fun op =>
    op.writes ⊆ (gather1Writes.map (Proc.devRef (τ := τ) .tc)).toFinset := by
  simp only [List.Forall, StableHlo.nullary_writes, StableHlo.unary_writes, StableHlo.binary_writes,
    StableHlo.ternary_writes, Finset.singleton_subset_iff, List.mem_toFinset]
  repeat' apply And.intro
  all_goals exact List.mem_map_of_mem (by decide)

/-- The references the first per-edge weight stretch writes. -/
abbrev edgeParams1Writes : List (Ref sig .tc) := [main_v1, main_v2]

theorem edgeParams1Writes_sub : (hostOps0_1 : List (HloOp τ sig (Elt Ideal))).Forall fun op =>
    op.writes ⊆ (edgeParams1Writes.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

/-- The references the first mean-and-node-weights stretch writes. -/
abbrev mean1Writes : List (Ref sig .tc) :=
  [main_cst, main_v4, main_v5, main_v6, main_cst_0, main_v7, main_cst_1, main_v8, main_v9, main_v10, main_cst_2, main_v11,
   main_v12, main_v13, main_v14, main_v15, main_v16, main_v17, main_v18, main_v19]

theorem mean1Writes_sub : (hostOps1 : List (HloOp τ sig (Elt Ideal))).Forall fun op =>
    op.writes ⊆ (mean1Writes.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ## What each stretch computes -/

/-- The gathered edge rows: the table and the source indices as the stretch finds them, through `takeK1`. -/
theorem gather1_eq (V : Valuation τ sig (Elt Ideal)) :
    StableHlo.after hostOps0 V (Proc.devRef .tc main_v0)
      = takeK1 (V (Proc.devRef .tc main_arg0)) (V (Proc.devRef .tc main_arg2)) := by
  after_results_simp
  simp only [StableHlo.TRef.ofBuf, StableHlo.TRef.toBuf, cast_cast, cast_eq]
  rfl

/-- The per-edge weight laid out [in, out]. -/
theorem edgeWeight1_eq (V : Valuation τ sig (Elt Ideal)) :
    StableHlo.after hostOps0_1 V (Proc.devRef .tc main_v1) = wT (V (Proc.devRef .tc main_arg8)) := by
  after_results_simp
  rfl

/-- The per-edge bias as a row. -/
theorem edgeBias1_eq (V : Valuation τ sig (Elt Ideal)) :
    StableHlo.after hostOps0_1 V (Proc.devRef .tc main_v2) = bRow (V (Proc.devRef .tc main_arg9)) := by
  after_results_simp
  rfl

/-- The mean of the edge rows arriving at each node: the per-edge map's output and the destination indices as the
    stretch finds them, through `aggK1`. -/
theorem mean1_eq (V : Valuation τ sig (Elt Ideal)) :
    StableHlo.after hostOps1 V (Proc.devRef .tc main_v14)
      = aggK1 (V (Proc.devRef .tc main_v3)) (V (Proc.devRef .tc main_arg3)) := by
  after_results_simp
  rfl

/-- The node weight's half meeting the node's own row, laid out [in, out]. -/
theorem ownWeight1_eq (V : Valuation τ sig (Elt Ideal)) :
    StableHlo.after hostOps1 V (Proc.devRef .tc main_v17) = wTh (V (Proc.devRef .tc main_arg10)) := by
  after_results_simp
  rfl

/-- The node weight's half meeting the aggregated row, laid out [in, out]. -/
theorem aggWeight1_eq (V : Valuation τ sig (Elt Ideal)) :
    StableHlo.after hostOps1 V (Proc.devRef .tc main_v18) = wTa (V (Proc.devRef .tc main_arg10)) := by
  after_results_simp
  rfl

/-- The node bias as a row. -/
theorem nodeBias1_eq (V : Valuation τ sig (Elt Ideal)) :
    StableHlo.after hostOps1 V (Proc.devRef .tc main_v19) = bRow (V (Proc.devRef .tc main_arg11)) := by
  after_results_simp
  rfl

end Cert.MsgPass

end
-- ==== Proof.KernelValueB.lean ====
/-
  Stage 2's host stretches, read as the stage functions.

  Between the first node update and the second the host program runs three stretches of whole-array operations:
  the gather of the updated pieces' rows along the second edge set (with its fill), the per-edge weight's transpose
  and the bias as a row, and — after the per-edge map — the mean over the edges arriving at each tile together with
  the node weight's two transposed halves and the node bias as a row. Each lemma below reads ONE buffer after ONE
  stretch, from arbitrary contents `V` before it, as the stage function of that name applied to `V` at the stretch's
  operands. Each stretch also comes with the list of the references it writes: any other reference keeps its contents.
-/
import proofs.«410022_j38792144617921_1_alg».proof.Proof.Gen.KernelIdeal.Frame
import proofs.«410022_j38792144617921_1_alg».proof.Proof.Stages

set_option maxRecDepth 16384

noncomputable section

namespace Cert.MsgPass

open Idealize.ShloMosaic Idealize.ShloMosaic.TcCoe Idealize.SL.Sem
open Cert.KernelIdeal Cert.KernelIdeal.Gen

/-! ## What each stretch writes -/

/-- The references the second gather's operations write. -/
abbrev gather2Writes : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v21]

theorem gather2Writes_sub : (hostOps2 : List (HloOp τ sig (Elt Ideal))).Forall fun op =>
    op.writes ⊆ (gather2Writes.map (Proc.devRef (τ := τ) .tc)).toFinset := by
  simp only [List.Forall, StableHlo.nullary_writes, StableHlo.unary_writes, StableHlo.binary_writes,
    StableHlo.ternary_writes, Finset.singleton_subset_iff, List.mem_toFinset]
  repeat' apply And.intro
  all_goals exact List.mem_map_of_mem (by decide)

/-- The references the second per-edge weight stretch writes. -/
abbrev edgeParams2Writes : List (Ref sig .tc) := [main_v22, main_v23]

theorem edgeParams2Writes_sub : (hostOps2_1 : List (HloOp τ sig (Elt Ideal))).Forall fun op =>
    op.writes ⊆ (edgeParams2Writes.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

/-- The references the second mean-and-node-weights stretch writes. -/
abbrev mean2Writes : List (Ref sig .tc) :=
  [main_cst_3, main_v25, main_v26, main_v27, main_cst_4, main_v28, main_cst_5, main_v29, main_v30, main_v31, main_cst_6, main_v32,
   main_v33, main_v34, main_v35, main_v36, main_v37, main_v38, main_v39, main_v40]

theorem mean2Writes_sub : (hostOps3 : List (HloOp τ sig (Elt Ideal))).Forall fun op =>
    op.writes ⊆ (mean2Writes.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ## What each stretch computes -/

/-- The gathered edge rows: the updated pieces and the source indices as the stretch finds them, through `takeK2`. -/
theorem gather2_eq (V : Valuation τ sig (Elt Ideal)) :
    StableHlo.after hostOps2 V (Proc.devRef .tc main_v21)
      = takeK2 (V (Proc.devRef .tc main_v20)) (V (Proc.devRef .tc main_arg4)) := by
  after_results_simp
  simp only [StableHlo.TRef.ofBuf, StableHlo.TRef.toBuf, cast_cast, cast_eq]
  rfl

/-- The per-edge weight laid out [in, out]. -/
theorem edgeWeight2_eq (V : Valuation τ sig (Elt Ideal)) :
    StableHlo.after hostOps2_1 V (Proc.devRef .tc main_v22) = wT (V (Proc.devRef .tc main_arg12)) := by
  after_results_simp
  rfl

/-- The per-edge bias as a row. -/
theorem edgeBias2_eq (V : Valuation τ sig (Elt Ideal)) :
    StableHlo.after hostOps2_1 V (Proc.devRef .tc main_v23) = bRow (V (Proc.devRef .tc main_arg13)) := by
  after_results_simp
  rfl

/-- The mean of the edge rows arriving at each tile: the per-edge map's output and the destination indices as the
    stretch finds them, through `aggK2`. -/
theorem mean2_eq (V : Valuation τ sig (Elt Ideal)) :
    StableHlo.after hostOps3 V (Proc.devRef .tc main_v35)
      = aggK2 (V (Proc.devRef .tc main_v24)) (V (Proc.devRef .tc main_arg5)) := by
  after_results_simp
  rfl

/-- The node weight's half meeting the node's own row, laid out [in, out]. -/
theorem ownWeight2_eq (V : Valuation τ sig (Elt Ideal)) :
    StableHlo.after hostOps3 V (Proc.devRef .tc main_v38) = wTh (V (Proc.devRef .tc main_arg14)) := by
  after_results_simp
  rfl

/-- The node weight's half meeting the aggregated row, laid out [in, out]. -/
theorem aggWeight2_eq (V : Valuation τ sig (Elt Ideal)) :
    StableHlo.after hostOps3 V (Proc.devRef .tc main_v39) = wTa (V (Proc.devRef .tc main_arg14)) := by
  after_results_simp
  rfl

/-- The node bias as a row. -/
theorem nodeBias2_eq (V : Valuation τ sig (Elt Ideal)) :
    StableHlo.after hostOps3 V (Proc.devRef .tc main_v40) = bRow (V (Proc.devRef .tc main_arg15)) := by
  after_results_simp
  rfl

end Cert.MsgPass

end
-- ==== Proof.KernelValueC.lean ====
/-
  Stage 3's host stretches, read as the stage functions.

  Between the second node update and the third the host program runs three stretches of whole-array operations:
  the gather of the updated tiles' rows along the third edge set (with its fill), the per-edge weight's transpose
  and the bias as a row, and — after the per-edge map — the mean over the edges arriving at each tile together with
  the node weight's two transposed halves and the node bias as a row. Each lemma below reads ONE buffer after ONE
  stretch, from arbitrary contents `V` before it, as the stage function of that name applied to `V` at the stretch's
  operands. Each stretch also comes with the list of the references it writes: any other reference keeps its contents.
-/
import proofs.«410022_j38792144617921_1_alg».proof.Proof.Gen.KernelIdeal.Frame
import proofs.«410022_j38792144617921_1_alg».proof.Proof.Stages

set_option maxRecDepth 16384

noncomputable section

namespace Cert.MsgPass

open Idealize.ShloMosaic Idealize.ShloMosaic.TcCoe Idealize.SL.Sem
open Cert.KernelIdeal Cert.KernelIdeal.Gen

/-! ## What each stretch writes -/

/-- The references the third gather's operations write. -/
abbrev gather3Writes : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v42]

theorem gather3Writes_sub : (hostOps4 : List (HloOp τ sig (Elt Ideal))).Forall fun op =>
    op.writes ⊆ (gather3Writes.map (Proc.devRef (τ := τ) .tc)).toFinset := by
  simp only [List.Forall, StableHlo.nullary_writes, StableHlo.unary_writes, StableHlo.binary_writes,
    StableHlo.ternary_writes, Finset.singleton_subset_iff, List.mem_toFinset]
  repeat' apply And.intro
  all_goals exact List.mem_map_of_mem (by decide)

/-- The references the third per-edge weight stretch writes. -/
abbrev edgeParams3Writes : List (Ref sig .tc) := [main_v43, main_v44]

theorem edgeParams3Writes_sub : (hostOps4_1 : List (HloOp τ sig (Elt Ideal))).Forall fun op =>
    op.writes ⊆ (edgeParams3Writes.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

/-- The references the third mean-and-node-weights stretch writes. -/
abbrev mean3Writes : List (Ref sig .tc) :=
  [main_cst_7, main_v46, main_v47, main_v48, main_cst_8, main_v49, main_cst_9, main_v50, main_v51, main_v52, main_cst_10, main_v53,
   main_v54, main_v55, main_v56, main_v57, main_v58, main_v59, main_v60, main_v61]

theorem mean3Writes_sub : (hostOps5 : List (HloOp τ sig (Elt Ideal))).Forall fun op =>
    op.writes ⊆ (mean3Writes.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ## What each stretch computes -/

/-- The gathered edge rows: the updated tiles and the source indices as the stretch finds them, through `takeK3`. -/
theorem gather3_eq (V : Valuation τ sig (Elt Ideal)) :
    StableHlo.after hostOps4 V (Proc.devRef .tc main_v42)
      = takeK3 (V (Proc.devRef .tc main_v41)) (V (Proc.devRef .tc main_arg6)) := by
  after_results_simp
  simp only [StableHlo.TRef.ofBuf, StableHlo.TRef.toBuf, cast_cast, cast_eq]
  rfl

/-- The per-edge weight laid out [in, out]. -/
theorem edgeWeight3_eq (V : Valuation τ sig (Elt Ideal)) :
    StableHlo.after hostOps4_1 V (Proc.devRef .tc main_v43) = wT (V (Proc.devRef .tc main_arg16)) := by
  after_results_simp
  rfl

/-- The per-edge bias as a row. -/
theorem edgeBias3_eq (V : Valuation τ sig (Elt Ideal)) :
    StableHlo.after hostOps4_1 V (Proc.devRef .tc main_v44) = bRow (V (Proc.devRef .tc main_arg17)) := by
  after_results_simp
  rfl

/-- The mean of the edge rows arriving at each tile: the per-edge map's output and the destination indices as the
    stretch finds them, through `aggK3`. -/
theorem mean3_eq (V : Valuation τ sig (Elt Ideal)) :
    StableHlo.after hostOps5 V (Proc.devRef .tc main_v56)
      = aggK3 (V (Proc.devRef .tc main_v45)) (V (Proc.devRef .tc main_arg7)) := by
  after_results_simp
  rfl

/-- The node weight's half meeting the node's own row, laid out [in, out]. -/
theorem ownWeight3_eq (V : Valuation τ sig (Elt Ideal)) :
    StableHlo.after hostOps5 V (Proc.devRef .tc main_v59) = wTh (V (Proc.devRef .tc main_arg18)) := by
  after_results_simp
  rfl

/-- The node weight's half meeting the aggregated row, laid out [in, out]. -/
theorem aggWeight3_eq (V : Valuation τ sig (Elt Ideal)) :
    StableHlo.after hostOps5 V (Proc.devRef .tc main_v60) = wTa (V (Proc.devRef .tc main_arg18)) := by
  after_results_simp
  rfl

/-- The node bias as a row. -/
theorem nodeBias3_eq (V : Valuation τ sig (Elt Ideal)) :
    StableHlo.after hostOps5 V (Proc.devRef .tc main_v61) = bRow (V (Proc.devRef .tc main_arg19)) := by
  after_results_simp
  rfl

end Cert.MsgPass

end
-- ==== Proof.KernelValue.lean ====
/-
  The kernel's two results at the end of the run, read back to the launch memory.

  The run folds the buffer contents through fifteen boundaries: a host stretch rewrites the buffers it writes and
  keeps the rest; a kernel region rewrites its output array and keeps every other buffer. Each stage is read one
  boundary at a time: the gathered rows after the gather stretch, the per-edge parameters after the next stretch, the
  per-edge map at the edge region's exit, the mean and the node parameters after the following stretch, the node
  update at the node region's exit. A buffer that a single step does not touch passes that step unchanged
  (`keep<j>`); a buffer nothing has touched up to boundary `j` still holds its launch contents (`back<j>`, over the
  cumulative lists `upTo<j>` of what the stretches wrote and the regions held so far). Composing the three stages
  gives the pieces after stage 1 and the tiles after stage 3 as the stage functions of the launch memory.
-/
import proofs.«410022_j38792144617921_1_alg».proof.Proof.Gen.KernelIdeal.Frame
import proofs.«410022_j38792144617921_1_alg».proof.Proof.Stages
import proofs.«410022_j38792144617921_1_alg».proof.Proof.RegionEdge
import proofs.«410022_j38792144617921_1_alg».proof.Proof.RegionNode
import proofs.«410022_j38792144617921_1_alg».proof.Proof.KernelValueA
import proofs.«410022_j38792144617921_1_alg».proof.Proof.KernelValueB
import proofs.«410022_j38792144617921_1_alg».proof.Proof.KernelValueC

set_option maxRecDepth 16384

noncomputable section

namespace Cert.MsgPass

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The pieces after stage 1, from the launch memory, in the kernel's spelling. -/
def kPiece1 (c : Dev nD) : FVec Ideal S25000x128 .f32 :=
  stageK1 (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg8)) (m ((c.tc : Thread nD τ).loc main_arg9))
    (m ((c.tc : Thread nD τ).loc main_arg10)) (m ((c.tc : Thread nD τ).loc main_arg11))

/-- The tiles after stage 2: gathered from the updated pieces, aggregated onto the launch tiles. -/
def kTile2 (c : Dev nD) : FVec Ideal S50000x128 .f32 :=
  stageK2 (kPiece1 m c) (m ((c.tc : Thread nD τ).loc main_arg0))
    (m ((c.tc : Thread nD τ).loc main_arg4)) (m ((c.tc : Thread nD τ).loc main_arg5))
    (m ((c.tc : Thread nD τ).loc main_arg12)) (m ((c.tc : Thread nD τ).loc main_arg13))
    (m ((c.tc : Thread nD τ).loc main_arg14)) (m ((c.tc : Thread nD τ).loc main_arg15))

/-- The tiles after stage 3: gathered from, and aggregated onto, the tiles of stage 2. -/
def kTile3 (c : Dev nD) : FVec Ideal S50000x128 .f32 :=
  stageK3 (kTile2 m c) (kTile2 m c)
    (m ((c.tc : Thread nD τ).loc main_arg6)) (m ((c.tc : Thread nD τ).loc main_arg7))
    (m ((c.tc : Thread nD τ).loc main_arg16)) (m ((c.tc : Thread nD τ).loc main_arg17))
    (m ((c.tc : Thread nD τ).loc main_arg18)) (m ((c.tc : Thread nD τ).loc main_arg19))

/-! ## Stage 1: launch → gather → per-edge map (region 0) → mean → node update (region 1) -/

/-- The arrays region 0 holds as windows. -/
abbrev edge1Windows : List (Ref sig .tc) := [main_v0, main_v1, main_v2, main_v3]
theorem edge1Windows_mem : ∀ w, Pipeline.arrRef spec0 w ∈ edge1Windows := by decide
/-- The arrays region 1 holds as windows. -/
abbrev node1Windows : List (Ref sig .tc) := [main_arg1, main_v14, main_v17, main_v18, main_v19, main_v20]
theorem node1Windows_mem : ∀ w, Pipeline.arrRef spec1 w ∈ node1Windows := by decide

/-- Boundary 0 is the launch memory. -/
theorem launch_eq (c : Dev nD) (b : Ref sig .tc) :
    W0 (F := Ideal) m ρ c (Proc.devRef .tc b) = m ((c.tc : Thread nD τ).loc b) := rfl

/-! One step keeps every buffer it does not touch: a host stretch the references it does not write, a region the
    arrays it does not hold as windows. -/

theorem keep1 (c : Dev nD) (b : Ref sig .tc) (h : b ∉ gather1Writes) :
    W1 (F := Ideal) m ρ c (Proc.devRef .tc b) = W0 (F := Ideal) m ρ c (Proc.devRef .tc b) :=
  StableHlo.after_of_writes_sub hostOps0 _ gather1Writes_sub h
theorem keep2 (c : Dev nD) (b : Ref sig .tc) (h : b ∉ edgeParams1Writes) :
    W2 (F := Ideal) m ρ c (Proc.devRef .tc b) = W1 (F := Ideal) m ρ c (Proc.devRef .tc b) :=
  StableHlo.after_of_writes_sub hostOps0_1 _ edgeParams1Writes_sub h
theorem keep3 (c : Dev nD) (b : Ref sig .tc) (h : b ∉ edge1Windows) :
    W3 (F := Ideal) m ρ c (Proc.devRef .tc b) = W2 (F := Ideal) m ρ c (Proc.devRef .tc b) :=
  W3_of_ne m ρ c b fun w e => h (e ▸ edge1Windows_mem w)
theorem keep4 (c : Dev nD) (b : Ref sig .tc) (h : b ∉ mean1Writes) :
    W4 (F := Ideal) m ρ c (Proc.devRef .tc b) = W3 (F := Ideal) m ρ c (Proc.devRef .tc b) :=
  StableHlo.after_of_writes_sub hostOps1 _ mean1Writes_sub h
theorem keep5 (c : Dev nD) (b : Ref sig .tc) (h : b ∉ node1Windows) :
    W5 (F := Ideal) m ρ c (Proc.devRef .tc b) = W4 (F := Ideal) m ρ c (Proc.devRef .tc b) :=
  W5_of_ne m ρ c b fun w e => h (e ▸ node1Windows_mem w)

/-! What has been written or held up to each boundary; a buffer outside the list still holds its launch contents. -/

abbrev upTo1 : List (Ref sig .tc) := gather1Writes
abbrev upTo2 : List (Ref sig .tc) := upTo1 ++ edgeParams1Writes
abbrev upTo3 : List (Ref sig .tc) := upTo2 ++ edge1Windows
abbrev upTo4 : List (Ref sig .tc) := upTo3 ++ mean1Writes
abbrev upTo5 : List (Ref sig .tc) := upTo4 ++ node1Windows

theorem back1 (c : Dev nD) (b : Ref sig .tc) (h : b ∉ upTo1) :
    W1 (F := Ideal) m ρ c (Proc.devRef .tc b) = m ((c.tc : Thread nD τ).loc b) :=
  (keep1 m ρ c b h).trans (launch_eq m ρ c b)
theorem back2 (c : Dev nD) (b : Ref sig .tc) (h : b ∉ upTo2) :
    W2 (F := Ideal) m ρ c (Proc.devRef .tc b) = m ((c.tc : Thread nD τ).loc b) :=
  (keep2 m ρ c b fun hb => h (List.mem_append_right _ hb)).trans (back1 m ρ c b fun hb => h (List.mem_append_left _ hb))
theorem back3 (c : Dev nD) (b : Ref sig .tc) (h : b ∉ upTo3) :
    W3 (F := Ideal) m ρ c (Proc.devRef .tc b) = m ((c.tc : Thread nD τ).loc b) :=
  (keep3 m ρ c b fun hb => h (List.mem_append_right _ hb)).trans (back2 m ρ c b fun hb => h (List.mem_append_left _ hb))
theorem back4 (c : Dev nD) (b : Ref sig .tc) (h : b ∉ upTo4) :
    W4 (F := Ideal) m ρ c (Proc.devRef .tc b) = m ((c.tc : Thread nD τ).loc b) :=
  (keep4 m ρ c b fun hb => h (List.mem_append_right _ hb)).trans (back3 m ρ c b fun hb => h (List.mem_append_left _ hb))
theorem back5 (c : Dev nD) (b : Ref sig .tc) (h : b ∉ upTo5) :
    W5 (F := Ideal) m ρ c (Proc.devRef .tc b) = m ((c.tc : Thread nD τ).loc b) :=
  (keep5 m ρ c b fun hb => h (List.mem_append_right _ hb)).trans (back4 m ρ c b fun hb => h (List.mem_append_left _ hb))

/-! Region 0's inputs at its entry, its output at its exit. -/

theorem V2_v0 (c : Dev nD) : V2 (F := Ideal) m ρ c main_v0
    = takeK1 (m ((c.tc : Thread nD τ).loc main_arg0)) (m ((c.tc : Thread nD τ).loc main_arg2)) :=
  (keep2 m ρ c main_v0 (by decide)).trans (gather1_eq (W0 (F := Ideal) m ρ c))
theorem V2_v1 (c : Dev nD) : V2 (F := Ideal) m ρ c main_v1 = wT (m ((c.tc : Thread nD τ).loc main_arg8)) :=
  (edgeWeight1_eq (W1 (F := Ideal) m ρ c)).trans (by rw [back1 m ρ c main_arg8 (by decide)])
theorem V2_v2 (c : Dev nD) : V2 (F := Ideal) m ρ c main_v2 = bRow (m ((c.tc : Thread nD τ).loc main_arg9)) :=
  (edgeBias1_eq (W1 (F := Ideal) m ρ c)).trans (by rw [back1 m ρ c main_arg9 (by decide)])

theorem W3_v3 (c : Dev nD) : W3 (F := Ideal) m ρ c (Proc.devRef .tc main_v3)
    = edgeG (E := 400000) (takeK1 (m ((c.tc : Thread nD τ).loc main_arg0)) (m ((c.tc : Thread nD τ).loc main_arg2)))
        (wT (m ((c.tc : Thread nD τ).loc main_arg8))) (bRow (m ((c.tc : Thread nD τ).loc main_arg9))) := by
  refine ((W3_arr (F := Ideal) m ρ c 3).trans (edge_region0 (V2 (F := Ideal) m ρ) c)).trans ?_
  rw [V2_v0 m ρ c, V2_v1 m ρ c, V2_v2 m ρ c]

/-! Region 1's inputs at its entry, its output at its exit. -/

theorem V4_arg1 (c : Dev nD) : V4 (F := Ideal) m ρ c main_arg1 = m ((c.tc : Thread nD τ).loc main_arg1) :=
  back4 m ρ c main_arg1 (by decide)
theorem V4_v14 (c : Dev nD) : V4 (F := Ideal) m ρ c main_v14
    = aggK1 (edgeG (E := 400000) (takeK1 (m ((c.tc : Thread nD τ).loc main_arg0)) (m ((c.tc : Thread nD τ).loc main_arg2)))
        (wT (m ((c.tc : Thread nD τ).loc main_arg8))) (bRow (m ((c.tc : Thread nD τ).loc main_arg9))))
        (m ((c.tc : Thread nD τ).loc main_arg3)) :=
  (mean1_eq (W3 (F := Ideal) m ρ c)).trans (by rw [W3_v3 m ρ c, back3 m ρ c main_arg3 (by decide)])
theorem V4_v17 (c : Dev nD) : V4 (F := Ideal) m ρ c main_v17 = wTh (m ((c.tc : Thread nD τ).loc main_arg10)) :=
  (ownWeight1_eq (W3 (F := Ideal) m ρ c)).trans (by rw [back3 m ρ c main_arg10 (by decide)])
theorem V4_v18 (c : Dev nD) : V4 (F := Ideal) m ρ c main_v18 = wTa (m ((c.tc : Thread nD τ).loc main_arg10)) :=
  (aggWeight1_eq (W3 (F := Ideal) m ρ c)).trans (by rw [back3 m ρ c main_arg10 (by decide)])
theorem V4_v19 (c : Dev nD) : V4 (F := Ideal) m ρ c main_v19 = bRow (m ((c.tc : Thread nD τ).loc main_arg11)) :=
  (nodeBias1_eq (W3 (F := Ideal) m ρ c)).trans (by rw [back3 m ρ c main_arg11 (by decide)])

theorem W5_v20 (c : Dev nD) : W5 (F := Ideal) m ρ c (Proc.devRef .tc main_v20) = kPiece1 m c := by
  refine ((W5_arr (F := Ideal) m ρ c 5).trans (node_region1 (V4 (F := Ideal) m ρ) c)).trans ?_
  rw [V4_arg1 m ρ c, V4_v14 m ρ c, V4_v17 m ρ c, V4_v18 m ρ c, V4_v19 m ρ c]
  rfl

/-! ## Stage 2: gather from the pieces → per-edge map (region 2) → mean → node update onto the launch tiles (region 3) -/

/-- The arrays region 2 holds as windows. -/
abbrev edge2Windows : List (Ref sig .tc) := [main_v21, main_v22, main_v23, main_v24]
theorem edge2Windows_mem : ∀ w, Pipeline.arrRef spec2 w ∈ edge2Windows := by decide
/-- The arrays region 3 holds as windows. -/
abbrev node2Windows : List (Ref sig .tc) := [main_arg0, main_v35, main_v38, main_v39, main_v40, main_v41]
theorem node2Windows_mem : ∀ w, Pipeline.arrRef spec3 w ∈ node2Windows := by decide

theorem keep6 (c : Dev nD) (b : Ref sig .tc) (h : b ∉ gather2Writes) :
    W6 (F := Ideal) m ρ c (Proc.devRef .tc b) = W5 (F := Ideal) m ρ c (Proc.devRef .tc b) :=
  StableHlo.after_of_writes_sub hostOps2 _ gather2Writes_sub h
theorem keep7 (c : Dev nD) (b : Ref sig .tc) (h : b ∉ edgeParams2Writes) :
    W7 (F := Ideal) m ρ c (Proc.devRef .tc b) = W6 (F := Ideal) m ρ c (Proc.devRef .tc b) :=
  StableHlo.after_of_writes_sub hostOps2_1 _ edgeParams2Writes_sub h
theorem keep8 (c : Dev nD) (b : Ref sig .tc) (h : b ∉ edge2Windows) :
    W8 (F := Ideal) m ρ c (Proc.devRef .tc b) = W7 (F := Ideal) m ρ c (Proc.devRef .tc b) :=
  W8_of_ne m ρ c b fun w e => h (e ▸ edge2Windows_mem w)
theorem keep9 (c : Dev nD) (b : Ref sig .tc) (h : b ∉ mean2Writes) :
    W9 (F := Ideal) m ρ c (Proc.devRef .tc b) = W8 (F := Ideal) m ρ c (Proc.devRef .tc b) :=
  StableHlo.after_of_writes_sub hostOps3 _ mean2Writes_sub h
theorem keep10 (c : Dev nD) (b : Ref sig .tc) (h : b ∉ node2Windows) :
    W10 (F := Ideal) m ρ c (Proc.devRef .tc b) = W9 (F := Ideal) m ρ c (Proc.devRef .tc b) :=
  W10_of_ne m ρ c b fun w e => h (e ▸ node2Windows_mem w)

abbrev upTo6 : List (Ref sig .tc) := upTo5 ++ gather2Writes
abbrev upTo7 : List (Ref sig .tc) := upTo6 ++ edgeParams2Writes
abbrev upTo8 : List (Ref sig .tc) := upTo7 ++ edge2Windows
abbrev upTo9 : List (Ref sig .tc) := upTo8 ++ mean2Writes
abbrev upTo10 : List (Ref sig .tc) := upTo9 ++ node2Windows

theorem back6 (c : Dev nD) (b : Ref sig .tc) (h : b ∉ upTo6) :
    W6 (F := Ideal) m ρ c (Proc.devRef .tc b) = m ((c.tc : Thread nD τ).loc b) :=
  (keep6 m ρ c b fun hb => h (List.mem_append_right _ hb)).trans (back5 m ρ c b fun hb => h (List.mem_append_left _ hb))
theorem back7 (c : Dev nD) (b : Ref sig .tc) (h : b ∉ upTo7) :
    W7 (F := Ideal) m ρ c (Proc.devRef .tc b) = m ((c.tc : Thread nD τ).loc b) :=
  (keep7 m ρ c b fun hb => h (List.mem_append_right _ hb)).trans (back6 m ρ c b fun hb => h (List.mem_append_left _ hb))
theorem back8 (c : Dev nD) (b : Ref sig .tc) (h : b ∉ upTo8) :
    W8 (F := Ideal) m ρ c (Proc.devRef .tc b) = m ((c.tc : Thread nD τ).loc b) :=
  (keep8 m ρ c b fun hb => h (List.mem_append_right _ hb)).trans (back7 m ρ c b fun hb => h (List.mem_append_left _ hb))
theorem back9 (c : Dev nD) (b : Ref sig .tc) (h : b ∉ upTo9) :
    W9 (F := Ideal) m ρ c (Proc.devRef .tc b) = m ((c.tc : Thread nD τ).loc b) :=
  (keep9 m ρ c b fun hb => h (List.mem_append_right _ hb)).trans (back8 m ρ c b fun hb => h (List.mem_append_left _ hb))
theorem back10 (c : Dev nD) (b : Ref sig .tc) (h : b ∉ upTo10) :
    W10 (F := Ideal) m ρ c (Proc.devRef .tc b) = m ((c.tc : Thread nD τ).loc b) :=
  (keep10 m ρ c b fun hb => h (List.mem_append_right _ hb)).trans (back9 m ρ c b fun hb => h (List.mem_append_left _ hb))

/-! Region 2's inputs at its entry, its output at its exit. -/

theorem W6_v21 (c : Dev nD) : W6 (F := Ideal) m ρ c (Proc.devRef .tc main_v21)
    = takeK2 (kPiece1 m c) (m ((c.tc : Thread nD τ).loc main_arg4)) :=
  (gather2_eq (W5 (F := Ideal) m ρ c)).trans (by rw [W5_v20 m ρ c, back5 m ρ c main_arg4 (by decide)])
theorem V7_v21 (c : Dev nD) : V7 (F := Ideal) m ρ c main_v21 = takeK2 (kPiece1 m c) (m ((c.tc : Thread nD τ).loc main_arg4)) :=
  (keep7 m ρ c main_v21 (by decide)).trans (W6_v21 m ρ c)
theorem V7_v22 (c : Dev nD) : V7 (F := Ideal) m ρ c main_v22 = wT (m ((c.tc : Thread nD τ).loc main_arg12)) :=
  (edgeWeight2_eq (W6 (F := Ideal) m ρ c)).trans (by rw [back6 m ρ c main_arg12 (by decide)])
theorem V7_v23 (c : Dev nD) : V7 (F := Ideal) m ρ c main_v23 = bRow (m ((c.tc : Thread nD τ).loc main_arg13)) :=
  (edgeBias2_eq (W6 (F := Ideal) m ρ c)).trans (by rw [back6 m ρ c main_arg13 (by decide)])

theorem W8_v24 (c : Dev nD) : W8 (F := Ideal) m ρ c (Proc.devRef .tc main_v24)
    = edgeG (E := 400000) (takeK2 (kPiece1 m c) (m ((c.tc : Thread nD τ).loc main_arg4))) (wT (m ((c.tc : Thread nD τ).loc main_arg12))) (bRow (m ((c.tc : Thread nD τ).loc main_arg13))) := by
  refine ((W8_arr (F := Ideal) m ρ c 3).trans (edge_region2 (V7 (F := Ideal) m ρ) c)).trans ?_
  rw [V7_v21 m ρ c, V7_v22 m ρ c, V7_v23 m ρ c]

/-! Region 3's inputs at its entry, its output at its exit. -/

theorem V9_arg0 (c : Dev nD) : V9 (F := Ideal) m ρ c main_arg0 = m ((c.tc : Thread nD τ).loc main_arg0) :=
  back9 m ρ c main_arg0 (by decide)
theorem V9_v35 (c : Dev nD) : V9 (F := Ideal) m ρ c main_v35
    = aggK2 (edgeG (E := 400000) (takeK2 (kPiece1 m c) (m ((c.tc : Thread nD τ).loc main_arg4))) (wT (m ((c.tc : Thread nD τ).loc main_arg12))) (bRow (m ((c.tc : Thread nD τ).loc main_arg13)))) (m ((c.tc : Thread nD τ).loc main_arg5)) :=
  (mean2_eq (W8 (F := Ideal) m ρ c)).trans (by rw [W8_v24 m ρ c, back8 m ρ c main_arg5 (by decide)])
theorem V9_v38 (c : Dev nD) : V9 (F := Ideal) m ρ c main_v38 = wTh (m ((c.tc : Thread nD τ).loc main_arg14)) :=
  (ownWeight2_eq (W8 (F := Ideal) m ρ c)).trans (by rw [back8 m ρ c main_arg14 (by decide)])
theorem V9_v39 (c : Dev nD) : V9 (F := Ideal) m ρ c main_v39 = wTa (m ((c.tc : Thread nD τ).loc main_arg14)) :=
  (aggWeight2_eq (W8 (F := Ideal) m ρ c)).trans (by rw [back8 m ρ c main_arg14 (by decide)])
theorem V9_v40 (c : Dev nD) : V9 (F := Ideal) m ρ c main_v40 = bRow (m ((c.tc : Thread nD τ).loc main_arg15)) :=
  (nodeBias2_eq (W8 (F := Ideal) m ρ c)).trans (by rw [back8 m ρ c main_arg15 (by decide)])

theorem W10_v41 (c : Dev nD) : W10 (F := Ideal) m ρ c (Proc.devRef .tc main_v41) = kTile2 m c := by
  refine ((W10_arr (F := Ideal) m ρ c 5).trans (node_region3 (V9 (F := Ideal) m ρ) c)).trans ?_
  rw [V9_arg0 m ρ c, V9_v35 m ρ c, V9_v38 m ρ c, V9_v39 m ρ c, V9_v40 m ρ c]
  rfl

/-! ## Stage 3: gather from the tiles of stage 2 → per-edge map (region 4) → mean → node update onto those tiles (region 5) -/

/-- The arrays region 4 holds as windows. -/
abbrev edge3Windows : List (Ref sig .tc) := [main_v42, main_v43, main_v44, main_v45]
theorem edge3Windows_mem : ∀ w, Pipeline.arrRef spec4 w ∈ edge3Windows := by decide
/-- The arrays region 5 holds as windows. -/
abbrev node3Windows : List (Ref sig .tc) := [main_v41, main_v56, main_v59, main_v60, main_v61, main_v62]
theorem node3Windows_mem : ∀ w, Pipeline.arrRef spec5 w ∈ node3Windows := by decide

theorem keep11 (c : Dev nD) (b : Ref sig .tc) (h : b ∉ gather3Writes) :
    W11 (F := Ideal) m ρ c (Proc.devRef .tc b) = W10 (F := Ideal) m ρ c (Proc.devRef .tc b) :=
  StableHlo.after_of_writes_sub hostOps4 _ gather3Writes_sub h
theorem keep12 (c : Dev nD) (b : Ref sig .tc) (h : b ∉ edgeParams3Writes) :
    W12 (F := Ideal) m ρ c (Proc.devRef .tc b) = W11 (F := Ideal) m ρ c (Proc.devRef .tc b) :=
  StableHlo.after_of_writes_sub hostOps4_1 _ edgeParams3Writes_sub h
theorem keep13 (c : Dev nD) (b : Ref sig .tc) (h : b ∉ edge3Windows) :
    W13 (F := Ideal) m ρ c (Proc.devRef .tc b) = W12 (F := Ideal) m ρ c (Proc.devRef .tc b) :=
  W13_of_ne m ρ c b fun w e => h (e ▸ edge3Windows_mem w)
theorem keep14 (c : Dev nD) (b : Ref sig .tc) (h : b ∉ mean3Writes) :
    W14 (F := Ideal) m ρ c (Proc.devRef .tc b) = W13 (F := Ideal) m ρ c (Proc.devRef .tc b) :=
  StableHlo.after_of_writes_sub hostOps5 _ mean3Writes_sub h
theorem keep15 (c : Dev nD) (b : Ref sig .tc) (h : b ∉ node3Windows) :
    W15 (F := Ideal) m ρ c (Proc.devRef .tc b) = W14 (F := Ideal) m ρ c (Proc.devRef .tc b) :=
  W15_of_ne m ρ c b fun w e => h (e ▸ node3Windows_mem w)

abbrev upTo11 : List (Ref sig .tc) := upTo10 ++ gather3Writes
abbrev upTo12 : List (Ref sig .tc) := upTo11 ++ edgeParams3Writes
abbrev upTo13 : List (Ref sig .tc) := upTo12 ++ edge3Windows

theorem back11 (c : Dev nD) (b : Ref sig .tc) (h : b ∉ upTo11) :
    W11 (F := Ideal) m ρ c (Proc.devRef .tc b) = m ((c.tc : Thread nD τ).loc b) :=
  (keep11 m ρ c b fun hb => h (List.mem_append_right _ hb)).trans (back10 m ρ c b fun hb => h (List.mem_append_left _ hb))
theorem back12 (c : Dev nD) (b : Ref sig .tc) (h : b ∉ upTo12) :
    W12 (F := Ideal) m ρ c (Proc.devRef .tc b) = m ((c.tc : Thread nD τ).loc b) :=
  (keep12 m ρ c b fun hb => h (List.mem_append_right _ hb)).trans (back11 m ρ c b fun hb => h (List.mem_append_left _ hb))
theorem back13 (c : Dev nD) (b : Ref sig .tc) (h : b ∉ upTo13) :
    W13 (F := Ideal) m ρ c (Proc.devRef .tc b) = m ((c.tc : Thread nD τ).loc b) :=
  (keep13 m ρ c b fun hb => h (List.mem_append_right _ hb)).trans (back12 m ρ c b fun hb => h (List.mem_append_left _ hb))

/-! Region 4's inputs at its entry, its output at its exit. -/

theorem W11_v42 (c : Dev nD) : W11 (F := Ideal) m ρ c (Proc.devRef .tc main_v42)
    = takeK3 (kTile2 m c) (m ((c.tc : Thread nD τ).loc main_arg6)) :=
  (gather3_eq (W10 (F := Ideal) m ρ c)).trans (by rw [W10_v41 m ρ c, back10 m ρ c main_arg6 (by decide)])
theorem V12_v42 (c : Dev nD) : V12 (F := Ideal) m ρ c main_v42 = takeK3 (kTile2 m c) (m ((c.tc : Thread nD τ).loc main_arg6)) :=
  (keep12 m ρ c main_v42 (by decide)).trans (W11_v42 m ρ c)
theorem V12_v43 (c : Dev nD) : V12 (F := Ideal) m ρ c main_v43 = wT (m ((c.tc : Thread nD τ).loc main_arg16)) :=
  (edgeWeight3_eq (W11 (F := Ideal) m ρ c)).trans (by rw [back11 m ρ c main_arg16 (by decide)])
theorem V12_v44 (c : Dev nD) : V12 (F := Ideal) m ρ c main_v44 = bRow (m ((c.tc : Thread nD τ).loc main_arg17)) :=
  (edgeBias3_eq (W11 (F := Ideal) m ρ c)).trans (by rw [back11 m ρ c main_arg17 (by decide)])

theorem W13_v45 (c : Dev nD) : W13 (F := Ideal) m ρ c (Proc.devRef .tc main_v45)
    = edgeG (E := 600000) (takeK3 (kTile2 m c) (m ((c.tc : Thread nD τ).loc main_arg6))) (wT (m ((c.tc : Thread nD τ).loc main_arg16))) (bRow (m ((c.tc : Thread nD τ).loc main_arg17))) := by
  refine ((W13_arr (F := Ideal) m ρ c 3).trans (edge_region4 (V12 (F := Ideal) m ρ) c)).trans ?_
  rw [V12_v42 m ρ c, V12_v43 m ρ c, V12_v44 m ρ c]

/-! Region 5's inputs at its entry: the tiles of stage 2 reach it untouched since region 3 wrote them. -/

theorem V14_v41 (c : Dev nD) : V14 (F := Ideal) m ρ c main_v41 = kTile2 m c :=
  (keep14 m ρ c main_v41 (by decide)).trans <| (keep13 m ρ c main_v41 (by decide)).trans <|
    (keep12 m ρ c main_v41 (by decide)).trans <| (keep11 m ρ c main_v41 (by decide)).trans (W10_v41 m ρ c)
theorem V14_v56 (c : Dev nD) : V14 (F := Ideal) m ρ c main_v56
    = aggK3 (edgeG (E := 600000) (takeK3 (kTile2 m c) (m ((c.tc : Thread nD τ).loc main_arg6))) (wT (m ((c.tc : Thread nD τ).loc main_arg16))) (bRow (m ((c.tc : Thread nD τ).loc main_arg17)))) (m ((c.tc : Thread nD τ).loc main_arg7)) :=
  (mean3_eq (W13 (F := Ideal) m ρ c)).trans (by rw [W13_v45 m ρ c, back13 m ρ c main_arg7 (by decide)])
theorem V14_v59 (c : Dev nD) : V14 (F := Ideal) m ρ c main_v59 = wTh (m ((c.tc : Thread nD τ).loc main_arg18)) :=
  (ownWeight3_eq (W13 (F := Ideal) m ρ c)).trans (by rw [back13 m ρ c main_arg18 (by decide)])
theorem V14_v60 (c : Dev nD) : V14 (F := Ideal) m ρ c main_v60 = wTa (m ((c.tc : Thread nD τ).loc main_arg18)) :=
  (aggWeight3_eq (W13 (F := Ideal) m ρ c)).trans (by rw [back13 m ρ c main_arg18 (by decide)])
theorem V14_v61 (c : Dev nD) : V14 (F := Ideal) m ρ c main_v61 = bRow (m ((c.tc : Thread nD τ).loc main_arg19)) :=
  (nodeBias3_eq (W13 (F := Ideal) m ρ c)).trans (by rw [back13 m ρ c main_arg19 (by decide)])

/-! ## The two results at the end of the run -/

/-- The second result (the pieces) at the end of the run: stage 1 of the launch memory. -/
theorem W15_v20 (c : Dev nD) : W15 (F := Ideal) m ρ c (Proc.devRef .tc main_v20) = kPiece1 m c :=
  (keep15 m ρ c main_v20 (by decide)).trans <| (keep14 m ρ c main_v20 (by decide)).trans <|
    (keep13 m ρ c main_v20 (by decide)).trans <| (keep12 m ρ c main_v20 (by decide)).trans <|
    (keep11 m ρ c main_v20 (by decide)).trans <| (keep10 m ρ c main_v20 (by decide)).trans <|
    (keep9 m ρ c main_v20 (by decide)).trans <| (keep8 m ρ c main_v20 (by decide)).trans <|
    (keep7 m ρ c main_v20 (by decide)).trans <| (keep6 m ρ c main_v20 (by decide)).trans (W5_v20 m ρ c)

/-- The first result (the tiles) at the end of the run: the three stages composed. -/
theorem W15_v62 (c : Dev nD) : W15 (F := Ideal) m ρ c (Proc.devRef .tc main_v62) = kTile3 m c := by
  refine ((W15_arr (F := Ideal) m ρ c 5).trans (node_region5 (V14 (F := Ideal) m ρ) c)).trans ?_
  rw [V14_v41 m ρ c, V14_v56 m ρ c, V14_v59 m ρ c, V14_v60 m ρ c, V14_v61 m ρ c]
  rfl

end Cert.MsgPass

end
-- ==== Proof.RefValue.lean ====
/-
  The reference's run with its two results named stage by stage: the generated run states each result as the composed
  term of the arguments; that term is, by unfolding the stage functions, three (for the pieces: one) stages applied in turn.
-/
import proofs.«410022_j38792144617921_1_alg».proof.Proof.Gen.ReferenceIdeal.Run
import proofs.«410022_j38792144617921_1_alg».proof.Proof.Stages

set_option maxRecDepth 16384

noncomputable section

namespace Cert.MsgPass

open Idealize.ShloMosaic Idealize.ShloMosaic.TcCoe Idealize.SL.Sem
open Cert.ReferenceIdeal

section
variable (m : (ℓ : Loc nD τ sig) → Buf (Elt Ideal) ℓ)

/-- The pieces after stage 1, from the launch memory, in the reference's spelling. -/
def rPiece1 (c : Dev nD) : FVec Ideal S25000x128 .f32 :=
  stageR1 (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg8)) (m ((c.tc : Thread nD τ).loc main_arg9))
    (m ((c.tc : Thread nD τ).loc main_arg10)) (m ((c.tc : Thread nD τ).loc main_arg11))

/-- The tiles after stage 2. -/
def rTile2 (c : Dev nD) : FVec Ideal S50000x128 .f32 :=
  stageR2 (rPiece1 m c) (m ((c.tc : Thread nD τ).loc main_arg0))
    (m ((c.tc : Thread nD τ).loc main_arg4)) (m ((c.tc : Thread nD τ).loc main_arg5))
    (m ((c.tc : Thread nD τ).loc main_arg12)) (m ((c.tc : Thread nD τ).loc main_arg13))
    (m ((c.tc : Thread nD τ).loc main_arg14)) (m ((c.tc : Thread nD τ).loc main_arg15))

/-- The tiles after stage 3. -/
def rTile3 (c : Dev nD) : FVec Ideal S50000x128 .f32 :=
  stageR3 (rTile2 m c) (rTile2 m c)
    (m ((c.tc : Thread nD τ).loc main_arg6)) (m ((c.tc : Thread nD τ).loc main_arg7))
    (m ((c.tc : Thread nD τ).loc main_arg16)) (m ((c.tc : Thread nD τ).loc main_arg17))
    (m ((c.tc : Thread nD τ).loc main_arg18)) (m ((c.tc : Thread nD τ).loc main_arg19))

/-- The first result's composed term is the three stages in turn. -/
theorem res_tile_eq (c : Dev nD) : Cert.ReferenceIdeal.Value.res_main_v89 (F := Ideal) m c = rTile3 m c := by
  unfold Cert.ReferenceIdeal.Value.res_main_v89
  rfl

end

/-- The reference's run: both results at the stages of the launch memory, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v89) = rTile3 m c
      ∧ r.2.mem ((c.tc : Thread nD τ).loc main_v29) = rPiece1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run (defs (F := Ideal)) _ _).mono
    (fun _ h c => ⟨(h c).1.trans (res_tile_eq m c), (h c).2.1.trans rfl, (h c).2.2⟩)
    (Cert.ReferenceIdeal.Value.run (F := Ideal) m ρ)

end Cert.MsgPass

end
-- ==== Proof.TakeEq.lean ====
/-
  The gather with a fill agrees with the plain gather wherever every index addresses a table row.

  An index word `w` addresses one of `N` rows counted from the front (0 … N-1) or from the back (-N … -1). Wrapping
  moves the rows counted from the back to the front: `w' = w + N` if `w < 0`, else `w' = w`; the sum does not
  overflow since `N` is far below 2³¹. So `0 ≤ w' ≤ N-1` as signed words, both range tests of the fill pass, and their
  conjunction is the set bit at every position of the index column. An `and`-reduction of set bits from the set bit
  is the set bit, its broadcast along the columns is the set bit everywhere, and a select on set bits returns its
  first operand: the table's rows at the wrapped indices. The reference reads the same rows: its dimension numbers
  and its index column are the same data as the kernel's.
-/
import proofs.«410022_j38792144617921_1_alg».proof.Proof.Stages
import Idealize.ShloMosaic.PureOps.Reduce
import Idealize.ShloMosaic.Lib.WordArith
import Idealize.ShloMosaic.Lib.ValueIdx

noncomputable section

namespace Cert.MsgPass

open Idealize.ShloMosaic

/-! ## One index word -/

/-- The wrapped word, read signed, lies in `[0, N)`: a row counted from the back (`-N ≤ w < 0`) becomes `w + N`, a sum
    of integers between `-N` and `N` that a 32-bit word holds exactly; a row counted from the front is kept. -/
theorem wrap_toInt {N : Nat} (hN : N < 2 ^ 30) (w : BitVec 32) (hw : InRange N w) :
    0 ≤ (Scalar.select (IntOp.cmpi .slt w 0#32) (IntOp.addi w (BitVec.ofNat 32 N)) w).toInt ∧
    (Scalar.select (IntOp.cmpi .slt w 0#32) (IntOp.addi w (BitVec.ofNat 32 N)) w).toInt < N := by
  obtain ⟨hlo, hhi⟩ := hw
  have hNi : (BitVec.ofNat 32 N).toInt = N := WordArith.toInt_ofNat_small N (by omega)
  have h0 : (0#32 : BitVec 32).toInt = 0 := rfl
  by_cases hneg : w.toInt < 0
  · -- counted from the back: the comparison's bit is set and the select takes the sum
    have hc : IntOp.cmpi .slt w 0#32 = 1#1 := by
      unfold IntOp.cmpi
      rw [WordArith.ofBool_eq_one_iff]
      show decide (w.toInt < (0#32 : BitVec 32).toInt) = true
      rw [h0]; exact decide_eq_true hneg
    rw [hc, ValueIdx.select_one]
    have hs : (IntOp.addi w (BitVec.ofNat 32 N)).toInt = w.toInt + N := by
      show (w + BitVec.ofNat 32 N).toInt = _
      rw [WordArith.toInt_add_of_bounds _ _ (by rw [hNi]; omega) (by rw [hNi]; omega), hNi]
    rw [hs]; omega
  · -- counted from the front: the bit is clear and the select keeps the word
    have hc : IntOp.cmpi .slt w 0#32 = 0#1 := by
      apply ValueIdx.eq_zero_of_ne_one
      unfold IntOp.cmpi
      rw [WordArith.ofBool_eq_one_iff]
      show ¬ decide (w.toInt < (0#32 : BitVec 32).toInt) = true
      rw [h0]; exact fun hd => hneg (of_decide_eq_true hd)
    rw [hc, ValueIdx.select_zero]
    omega

/-- Both range tests of the fill, `0 ≤ w'` and `w' ≤ N - 1` (signed), pass on the wrapped word `w'`: their conjunction
    is the set bit. `M` is the last row, `N - 1`. -/
theorem wrap_mask {N M : Nat} (hM : M + 1 = N) (hN : N < 2 ^ 30) (w : BitVec 32) (hw : InRange N w) :
    IntOp.andi
      (IntOp.cmpi .sge (Scalar.select (IntOp.cmpi .slt w 0#32) (IntOp.addi w (BitVec.ofNat 32 N)) w) 0#32)
      (IntOp.cmpi .sle (Scalar.select (IntOp.cmpi .slt w 0#32) (IntOp.addi w (BitVec.ofNat 32 N)) w) (BitVec.ofNat 32 M))
      = 1#1 := by
  obtain ⟨h0, h1⟩ := wrap_toInt hN w hw
  generalize Scalar.select (IntOp.cmpi .slt w 0#32) (IntOp.addi w (BitVec.ofNat 32 N)) w = v at h0 h1
  have hMi : (BitVec.ofNat 32 M).toInt = M := WordArith.toInt_ofNat_small M (by omega)
  have hz : (0#32 : BitVec 32).toInt = 0 := rfl
  unfold IntOp.cmpi
  rw [WordArith.andi_ofBool, WordArith.ofBool_eq_one_iff, Bool.and_eq_true]
  refine ⟨?_, ?_⟩
  · show decide ((0#32 : BitVec 32).toInt ≤ v.toInt) = true
    rw [hz]; exact decide_eq_true h0
  · show decide (v.toInt ≤ (BitVec.ofNat 32 M).toInt) = true
    rw [hMi]; exact decide_eq_true (by omega)

/-! ## Arrays of set bits -/

/-- An `and`-fold from the set bit over set bits is the set bit, over any set of positions. -/
theorem fold_andi_one {ι : Type} (S : Finset ι) (f : ι → BitVec 1) (hf : ∀ i, f i = 1#1) :
    S.fold IntOp.andi 1#1 f = 1#1 := by
  induction S using Finset.cons_induction with
  | empty => rfl
  | cons a S ha ih => rw [Finset.fold_cons, ih, hf a]; rfl

/-- An `and`-reduction, from the set bit, of an array of set bits is an array of set bits: at each result position it
    is the fold over the positions reduced into it, whichever they are. -/
theorem reduce_andi_one {s t u : Shape} {axes : List (Fin s.rank)} (x : IVec s 1) (hr : s.ReducesTo axes t)
    (hu : 0 < u.numel) (hx : ∀ i, x i = 1#1) (j : t.Idx) :
    Host.reduce IntOp.andi x (constantI u 1 1#1) hr hu j = 1#1 := by
  rw [Host.reduce_eq_fold]
  exact fold_andi_one _ x hx

/-- A select on an array of set bits is its first operand. -/
theorem select_of_one {s : Shape} {α : Type} (c : IVec s 1) (a b : s.Idx → α) (hc : ∀ j, c j = 1#1) :
    select c a b = a := by
  funext j
  rw [ValueIdx.select_apply, hc j, ValueIdx.select_one]

/-- A broadcast of an array that is `c` everywhere is `c` everywhere: each result position reads some operand position. -/
theorem bcast_of_const {s t : Shape} {α : Type} (dims : Fin s.rank → Fin t.rank) (hb : s.BroadcastsInDim t dims)
    (v : s.Idx → α) (c : α) (hv : ∀ k, v k = c) (j : t.Idx) : broadcastInDim t dims hb v j = c := hv _

/-! ## The three gathers

Each proof is the same two steps. The mask is the set bit everywhere: it is a broadcast of the reduction of the two
range tests on the column of wrapped words, and each entry of that column is the wrapped word of one index, to which
`wrap_mask` applies. What the select then returns is the kernel's gather, which is the reference's: the two programs
state the same dimension numbers and the same column of wrapped indices. -/

variable [Cert.KernelIdeal.Facts] [Cert.ReferenceIdeal.Facts]

/-- Where every index addresses a row of the 50000-row table, the gather with the fill is the plain gather. -/
theorem takeK1_eq (x : FVec Ideal Cert.KernelIdeal.S50000x128 .f32) (idx : IVec Cert.KernelIdeal.S400000 32)
    (h : ∀ e, InRange 50000 (idx e)) : takeK1 x idx = takeR1 x idx := by
  unfold takeK1 takeR1
  refine (select_of_one _ _ _ fun j => ?_).trans ?_
  · refine bcast_of_const _ _ _ _ (fun k => ?_) j
    refine reduce_andi_one _ _ _ (fun i => ?_) k
    exact wrap_mask (N := 50000) (M := 49999) rfl (by decide) _ (h _)
  · exact congrArg₂ (fun d c => Host.gather d x c) rfl rfl

/-- The same over the 25000-row table. -/
theorem takeK2_eq (x : FVec Ideal Cert.KernelIdeal.S25000x128 .f32) (idx : IVec Cert.KernelIdeal.S400000 32)
    (h : ∀ e, InRange 25000 (idx e)) : takeK2 x idx = takeR2 x idx := by
  unfold takeK2 takeR2
  refine (select_of_one _ _ _ fun j => ?_).trans ?_
  · refine bcast_of_const _ _ _ _ (fun k => ?_) j
    refine reduce_andi_one _ _ _ (fun i => ?_) k
    exact wrap_mask (N := 25000) (M := 24999) rfl (by decide) _ (h _)
  · exact congrArg₂ (fun d c => Host.gather d x c) rfl rfl

/-- The same at 600000 indices into the 50000-row table. -/
theorem takeK3_eq (x : FVec Ideal Cert.KernelIdeal.S50000x128 .f32) (idx : IVec Cert.KernelIdeal.S600000 32)
    (h : ∀ e, InRange 50000 (idx e)) : takeK3 x idx = takeR3 x idx := by
  unfold takeK3 takeR3
  refine (select_of_one _ _ _ fun j => ?_).trans ?_
  · refine bcast_of_const _ _ _ _ (fun k => ?_) j
    refine reduce_andi_one _ _ _ (fun i => ?_) k
    exact wrap_mask (N := 50000) (M := 49999) rfl (by decide) _ (h _)
  · exact congrArg₂ (fun d c => Host.gather d x c) rfl rfl

end Cert.MsgPass

end
-- ==== Proof.RefStage.lean ====
/-
  The reference's two dense maps are the waypoints `edgeG` and `nodeG`.

  Index by index at (r, n): the host's product of an array with a transposed weight is the sum over the contracted
  column k of x (r, k) · W (n, k); the bias broadcast first to a row and then down the rows reads b n; a bias cast to a
  1 × 128 row reads the same b n. So the per-edge map is `edgeG` of the transposed weight and the bias row.
  For the node update the contracted axis is the 256 columns of the concatenation [own | agg]: a column k < 128 reads
  own (r, k) against W (n, k), a column 128 + k reads agg (r, k) against W (n, 128 + k). A sum over 256 columns is the
  sum over the first 128 plus the sum over the last 128 (sums in a commutative monoid: no finiteness of the entries is
  used), and the two halves are `nodeG`'s two sums against the transposed column halves of the weight.
-/
import proofs.«410022_j38792144617921_1_alg».proof.Proof.Stages
import Idealize.ShloMosaic.Lib.Pipeline.Value
import Idealize.ShloMosaic.Lib.ValueLayout
import Idealize.ShloMosaic.PureOps.Ideal.Laws
import Mathlib.Algebra.BigOperators.Fin

noncomputable section

namespace Cert.MsgPass

open Idealize.ShloMosaic Idealize.ShloMosaic.ValueIdx

/-! ## Pieces that do not depend on the number of rows -/

/-- A sum over 256 columns is the sum over the first 128 plus the sum over the last 128. -/
theorem sum_fin256_halves {M : Type*} [AddCommMonoid M] (f : Fin 256 → M) :
    ∑ k : Fin 256, f k
      = (∑ k : Fin 128, f ⟨k.val, Nat.lt_of_lt_of_le k.isLt (by decide)⟩)
        + ∑ k : Fin 128, f ⟨128 + k.val, Nat.add_lt_add_left k.isLt 128⟩ :=
  Fin.sum_univ_add (a := 128) (b := 128) f

/-- A 128-vector broadcast to a 1 × 128 row and then down `E` rows reads, at (r, n), its entry n. -/
theorem biasRows_apply {E : Nat} (h1 : (⟨1, ![128]⟩ : Shape).BroadcastsInDim ⟨2, ![1, 128]⟩ ![1])
    (h2 : (⟨2, ![1, 128]⟩ : Shape).BroadcastsInDim ⟨2, ![E, 128]⟩ ![0, 1])
    (b : FVec Ideal ⟨1, ![128]⟩ .f32) (r : Fin E) (n : Fin 128) :
    broadcastInDim ⟨2, ![E, 128]⟩ ![0, 1] h2 (broadcastInDim ⟨2, ![1, 128]⟩ ![1] h1 b) (ix2 r n) = b (ix1 n) := by
  refine (broadcastInDim_apply _ h2 _ (ix2 r n) (ix2 (0 : Fin 1) n) (fun a => match a with
    | ⟨0, _⟩ => by show 0 = if (1 : Nat) = 1 then 0 else r.val; rw [if_pos rfl]
    | ⟨1, _⟩ => by show n.val = if (128 : Nat) = 1 then 0 else n.val; rw [if_neg (by decide)])).trans ?_
  exact broadcastInDim_apply _ h1 b (ix2 (0 : Fin 1) n) (ix1 n) (fun a => match a with
    | ⟨0, _⟩ => by show n.val = if (128 : Nat) = 1 then 0 else n.val; rw [if_neg (by decide)])

/-- The zero word broadcast to any shape reads the extended real 0 everywhere. -/
theorem zeroSplat_apply {t : Shape} (h : (⟨0, ![]⟩ : Shape).BroadcastsInDim t ![]) (i : t.Idx) :
    broadcastInDim t ![] h (constant (F := Ideal) ⟨0, ![]⟩ .f32 0x00000000#32) i = 0 := by
  refine (broadcastInDim_apply _ h _ i ix0 (fun a => a.elim0)).trans ?_
  rw [constant_apply]
  exact Ideal.ofBits_zero_f32

/-- A product with one contracted axis, rows × contraction against contraction × columns, read at (r, n): the sum over
    the contracted coordinate k of the left operand at (r, k) times the right at (k, n). The four coordinate facts say
    which axis of each operand carries the row, the column and the contracted coordinate. -/
theorem dotGeneral_ix2 {E K N : Nat} (D : DotDims ⟨2, ![E, K]⟩ ⟨2, ![K, N]⟩ ⟨2, ![E, N]⟩)
    (hr : D.contr.rank = 1) (hs : D.contr.size ⟨0, by omega⟩ = K)
    (l0 : ∀ (i : (⟨2, ![E, N]⟩ : Shape).Idx) (q : D.contr.Idx), (D.lhsIdx i q 0).val = (i 0).val)
    (l1 : ∀ (i : (⟨2, ![E, N]⟩ : Shape).Idx) (q : D.contr.Idx), (D.lhsIdx i q 1).val = (q ⟨0, by omega⟩).val)
    (r0 : ∀ (i : (⟨2, ![E, N]⟩ : Shape).Idx) (q : D.contr.Idx), (D.rhsIdx i q 0).val = (q ⟨0, by omega⟩).val)
    (r1 : ∀ (i : (⟨2, ![E, N]⟩ : Shape).Idx) (q : D.contr.Idx), (D.rhsIdx i q 1).val = (i 1).val)
    (x : FVec Ideal ⟨2, ![E, K]⟩ .f32) (w : FVec Ideal ⟨2, ![K, N]⟩ .f32) (r : Fin E) (n : Fin N) :
    Host.dotGeneral D none x w (ix2 r n) = ∑ k : Fin K, x (ix2 r k) * w (ix2 k n) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 r n) ((contrEquiv1 D K hr hs).symm k) = ix2 r k := funext fun a => Fin.ext (by
    match a with
    | ⟨0, _⟩ => exact l0 _ _
    | ⟨1, _⟩ => exact (l1 _ _).trans hk)
  have er : D.rhsIdx (ix2 r n) ((contrEquiv1 D K hr hs).symm k) = ix2 k n := funext fun a => Fin.ext (by
    match a with
    | ⟨0, _⟩ => exact (r0 _ _).trans hk
    | ⟨1, _⟩ => exact r1 _ _)
  rw [el, er]

/-- The concatenation [own | agg] along the columns reads, at a column below 128, `own`. -/
theorem concatCols_left {N : Nat}
    (h : Shape.Concatenates [(⟨2, ![N, 128]⟩ : Shape), ⟨2, ![N, 128]⟩] ⟨2, ![N, 256]⟩ 1)
    (own agg : FVec Ideal ⟨2, ![N, 128]⟩ .f32) (r : Fin N) (k : Fin 128) :
    concatenate ⟨2, ![N, 256]⟩ 1 [⟨⟨2, ![N, 128]⟩, own⟩, ⟨⟨2, ![N, 128]⟩, agg⟩] h
      (ix2 r (⟨k.val, Nat.lt_of_lt_of_le k.isLt (by decide)⟩ : Fin 256)) = own (ix2 r k) :=
  concatenate_pair_apply_left 1 own agg h _ rfl (ix2 r k) (fun b => match b with
    | ⟨0, _⟩ => rfl
    | ⟨1, _⟩ => rfl)

/-- … and at column 128 + k it reads `agg` at column k. -/
theorem concatCols_right {N : Nat}
    (h : Shape.Concatenates [(⟨2, ![N, 128]⟩ : Shape), ⟨2, ![N, 128]⟩] ⟨2, ![N, 256]⟩ 1)
    (own agg : FVec Ideal ⟨2, ![N, 128]⟩ .f32) (r : Fin N) (k : Fin 128) :
    concatenate ⟨2, ![N, 256]⟩ 1 [⟨⟨2, ![N, 128]⟩, own⟩, ⟨⟨2, ![N, 128]⟩, agg⟩] h
      (ix2 r (⟨128 + k.val, Nat.add_lt_add_left k.isLt 128⟩ : Fin 256)) = agg (ix2 r k) :=
  concatenate_pair_apply_right 1 own agg h _ rfl rfl (ix2 r k) (fun b hb => match b, hb with
    | ⟨0, _⟩, _ => rfl
    | ⟨1, _⟩, hb => absurd rfl hb) (by show k.val + 128 = 128 + k.val; exact Nat.add_comm _ _)

/-! ## The kernel's spelling of the weights and the bias, read at an index -/

section K
open Cert.KernelIdeal Cert.KernelIdeal.Facts₀
variable [Cert.KernelIdeal.Facts]

/-- The transposed weight at (k, n) is the weight at (n, k). -/
theorem wT_apply (W : FVec Ideal S128x128 .f32) (k n : Fin 128) : wT W (ix2 k n) = W (ix2 n k) := by
  unfold wT
  exact transpose_ix2_apply W _ k n

/-- The transposed first half of the node weight at (k, n) is the weight at (n, k). -/
theorem wTh_apply (W : FVec Ideal S128x256 .f32) (k n : Fin 128) :
    wTh W (ix2 k n) = W (ix2 n (⟨k.val, Nat.lt_of_lt_of_le k.isLt (by decide)⟩ : Fin 256)) := by
  unfold wTh
  refine (transpose_ix2_apply _ _ k n).trans ?_
  exact slice2_axis1_apply 0 W _ n k _ (Nat.zero_add _).symm

/-- The transposed second half of the node weight at (k, n) is the weight at (n, 128 + k). -/
theorem wTa_apply (W : FVec Ideal S128x256 .f32) (k n : Fin 128) :
    wTa W (ix2 k n) = W (ix2 n (⟨128 + k.val, Nat.add_lt_add_left k.isLt 128⟩ : Fin 256)) := by
  unfold wTa
  refine (transpose_ix2_apply _ _ k n).trans ?_
  exact slice2_axis1_apply 128 W _ n k _ rfl

/-- The bias as a row reads, at (0, n), its entry n. -/
theorem bRow_apply (b : FVec Ideal S128 .f32) (n : Fin 128) : bRow b (ix2 (0 : Fin 1) n) = b (ix1 n) := by
  unfold bRow
  exact shapeCast_a_1a_apply b _ 0 n

end K

/-! ## The reference's products read at an index

For each of the four products (400000 and 600000 edge rows against a 128 × 128 weight; 25000 and 50000 node rows of
256 columns against a 256 × 128 weight): which coordinate of each operand index is the row, which the column and which
the contracted one; then the product at (r, n) as a sum over the contracted coordinate. -/

section R
open Cert.ReferenceIdeal Cert.ReferenceIdeal.Facts₀
variable [Cert.ReferenceIdeal.Facts]

theorem edge400_lhs0 (i : S400000x128.Idx) (q : dot_S400000x128_S128x128_S400000x128_1_0_0_1_n_n.contr.Idx) :
    (dot_S400000x128_S128x128_S400000x128_1_0_0_1_n_n.lhsIdx i q 0).val = (i 0).val := by
  unfold DotDims.lhsIdx
  rw [dif_neg (show ¬(0 : Fin S400000x128.rank) ∈ dot_S400000x128_S128x128_S400000x128_1_0_0_1_n_n.lhsBatch from List.not_mem_nil),
    dif_pos (show (0 : Fin S400000x128.rank) ∈ dot_S400000x128_S128x128_S400000x128_1_0_0_1_n_n.lhsNonContracting from List.mem_singleton.2 rfl)]
  rfl
theorem edge400_lhs1 (i : S400000x128.Idx) (q : dot_S400000x128_S128x128_S400000x128_1_0_0_1_n_n.contr.Idx) :
    (dot_S400000x128_S128x128_S400000x128_1_0_0_1_n_n.lhsIdx i q 1).val = (q ⟨0, Nat.one_pos⟩).val :=
  dot_S400000x128_S128x128_S400000x128_1_0_0_1_n_n.lhsIdx_val_of_single rfl i q
theorem edge400_rhs0 (i : S400000x128.Idx) (q : dot_S400000x128_S128x128_S400000x128_1_0_0_1_n_n.contr.Idx) :
    (dot_S400000x128_S128x128_S400000x128_1_0_0_1_n_n.rhsIdx i q 0).val = (q ⟨0, Nat.one_pos⟩).val :=
  dot_S400000x128_S128x128_S400000x128_1_0_0_1_n_n.rhsIdx_val_of_single rfl i q
theorem edge400_rhs1 (i : S400000x128.Idx) (q : dot_S400000x128_S128x128_S400000x128_1_0_0_1_n_n.contr.Idx) :
    (dot_S400000x128_S128x128_S400000x128_1_0_0_1_n_n.rhsIdx i q 1).val = (i 1).val := by
  unfold DotDims.rhsIdx
  rw [dif_neg (show ¬(1 : Fin S128x128.rank) ∈ dot_S400000x128_S128x128_S400000x128_1_0_0_1_n_n.rhsBatch from List.not_mem_nil),
    dif_pos (show (1 : Fin S128x128.rank) ∈ dot_S400000x128_S128x128_S400000x128_1_0_0_1_n_n.rhsNonContracting from List.mem_singleton.2 rfl)]
  rfl

/-- 400000 edge rows against a 128 × 128 array, at (r, n). -/
theorem edge400_dot_apply (x : FVec Ideal S400000x128 .f32) (w : FVec Ideal S128x128 .f32) (r : Fin 400000) (n : Fin 128) :
    Host.dotGeneral dot_S400000x128_S128x128_S400000x128_1_0_0_1_n_n none x w (ix2 r n)
      = ∑ k : Fin 128, x (ix2 r k) * w (ix2 k n) :=
  dotGeneral_ix2 dot_S400000x128_S128x128_S400000x128_1_0_0_1_n_n rfl rfl edge400_lhs0 edge400_lhs1 edge400_rhs0 edge400_rhs1 x w r n

theorem edge600_lhs0 (i : S600000x128.Idx) (q : dot_S600000x128_S128x128_S600000x128_1_0_0_1_n_n.contr.Idx) :
    (dot_S600000x128_S128x128_S600000x128_1_0_0_1_n_n.lhsIdx i q 0).val = (i 0).val := by
  unfold DotDims.lhsIdx
  rw [dif_neg (show ¬(0 : Fin S600000x128.rank) ∈ dot_S600000x128_S128x128_S600000x128_1_0_0_1_n_n.lhsBatch from List.not_mem_nil),
    dif_pos (show (0 : Fin S600000x128.rank) ∈ dot_S600000x128_S128x128_S600000x128_1_0_0_1_n_n.lhsNonContracting from List.mem_singleton.2 rfl)]
  rfl
theorem edge600_lhs1 (i : S600000x128.Idx) (q : dot_S600000x128_S128x128_S600000x128_1_0_0_1_n_n.contr.Idx) :
    (dot_S600000x128_S128x128_S600000x128_1_0_0_1_n_n.lhsIdx i q 1).val = (q ⟨0, Nat.one_pos⟩).val :=
  dot_S600000x128_S128x128_S600000x128_1_0_0_1_n_n.lhsIdx_val_of_single rfl i q
theorem edge600_rhs0 (i : S600000x128.Idx) (q : dot_S600000x128_S128x128_S600000x128_1_0_0_1_n_n.contr.Idx) :
    (dot_S600000x128_S128x128_S600000x128_1_0_0_1_n_n.rhsIdx i q 0).val = (q ⟨0, Nat.one_pos⟩).val :=
  dot_S600000x128_S128x128_S600000x128_1_0_0_1_n_n.rhsIdx_val_of_single rfl i q
theorem edge600_rhs1 (i : S600000x128.Idx) (q : dot_S600000x128_S128x128_S600000x128_1_0_0_1_n_n.contr.Idx) :
    (dot_S600000x128_S128x128_S600000x128_1_0_0_1_n_n.rhsIdx i q 1).val = (i 1).val := by
  unfold DotDims.rhsIdx
  rw [dif_neg (show ¬(1 : Fin S128x128.rank) ∈ dot_S600000x128_S128x128_S600000x128_1_0_0_1_n_n.rhsBatch from List.not_mem_nil),
    dif_pos (show (1 : Fin S128x128.rank) ∈ dot_S600000x128_S128x128_S600000x128_1_0_0_1_n_n.rhsNonContracting from List.mem_singleton.2 rfl)]
  rfl

/-- 600000 edge rows against a 128 × 128 array, at (r, n). -/
theorem edge600_dot_apply (x : FVec Ideal S600000x128 .f32) (w : FVec Ideal S128x128 .f32) (r : Fin 600000) (n : Fin 128) :
    Host.dotGeneral dot_S600000x128_S128x128_S600000x128_1_0_0_1_n_n none x w (ix2 r n)
      = ∑ k : Fin 128, x (ix2 r k) * w (ix2 k n) :=
  dotGeneral_ix2 dot_S600000x128_S128x128_S600000x128_1_0_0_1_n_n rfl rfl edge600_lhs0 edge600_lhs1 edge600_rhs0 edge600_rhs1 x w r n

theorem node25_lhs0 (i : S25000x128.Idx) (q : dot_S25000x256_S256x128_S25000x128_1_0_0_1_n_n.contr.Idx) :
    (dot_S25000x256_S256x128_S25000x128_1_0_0_1_n_n.lhsIdx i q 0).val = (i 0).val := by
  unfold DotDims.lhsIdx
  rw [dif_neg (show ¬(0 : Fin S25000x256.rank) ∈ dot_S25000x256_S256x128_S25000x128_1_0_0_1_n_n.lhsBatch from List.not_mem_nil),
    dif_pos (show (0 : Fin S25000x256.rank) ∈ dot_S25000x256_S256x128_S25000x128_1_0_0_1_n_n.lhsNonContracting from List.mem_singleton.2 rfl)]
  rfl
theorem node25_lhs1 (i : S25000x128.Idx) (q : dot_S25000x256_S256x128_S25000x128_1_0_0_1_n_n.contr.Idx) :
    (dot_S25000x256_S256x128_S25000x128_1_0_0_1_n_n.lhsIdx i q 1).val = (q ⟨0, Nat.one_pos⟩).val :=
  dot_S25000x256_S256x128_S25000x128_1_0_0_1_n_n.lhsIdx_val_of_single rfl i q
theorem node25_rhs0 (i : S25000x128.Idx) (q : dot_S25000x256_S256x128_S25000x128_1_0_0_1_n_n.contr.Idx) :
    (dot_S25000x256_S256x128_S25000x128_1_0_0_1_n_n.rhsIdx i q 0).val = (q ⟨0, Nat.one_pos⟩).val :=
  dot_S25000x256_S256x128_S25000x128_1_0_0_1_n_n.rhsIdx_val_of_single rfl i q
theorem node25_rhs1 (i : S25000x128.Idx) (q : dot_S25000x256_S256x128_S25000x128_1_0_0_1_n_n.contr.Idx) :
    (dot_S25000x256_S256x128_S25000x128_1_0_0_1_n_n.rhsIdx i q 1).val = (i 1).val := by
  unfold DotDims.rhsIdx
  rw [dif_neg (show ¬(1 : Fin S256x128.rank) ∈ dot_S25000x256_S256x128_S25000x128_1_0_0_1_n_n.rhsBatch from List.not_mem_nil),
    dif_pos (show (1 : Fin S256x128.rank) ∈ dot_S25000x256_S256x128_S25000x128_1_0_0_1_n_n.rhsNonContracting from List.mem_singleton.2 rfl)]
  rfl

/-- 25000 node rows of 256 columns against a 256 × 128 array, at (r, n). -/
theorem node25_dot_apply (x : FVec Ideal S25000x256 .f32) (w : FVec Ideal S256x128 .f32) (r : Fin 25000) (n : Fin 128) :
    Host.dotGeneral dot_S25000x256_S256x128_S25000x128_1_0_0_1_n_n none x w (ix2 r n)
      = ∑ k : Fin 256, x (ix2 r k) * w (ix2 k n) :=
  dotGeneral_ix2 dot_S25000x256_S256x128_S25000x128_1_0_0_1_n_n rfl rfl node25_lhs0 node25_lhs1 node25_rhs0 node25_rhs1 x w r n

theorem node50_lhs0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch from List.not_mem_nil),
    dif_pos (show (0 : Fin S50000x256.rank) ∈ dot_S50000x256_S256x128_S50000x128_1_0_0_1_n_n.lhsNonContracting from List.mem_singleton.2 rfl)]
  rfl
theorem node50_lhs1 (i : S50000x128.Idx) (q : dot_S50000x256_S256x128_S50000x128_1_0_0_1_n_n.contr.Idx) :
    (dot_S50000x256_S256x128_S50000x128_1_0_0_1_n_n.lhsIdx i q 1).val = (q ⟨0, Nat.one_pos⟩).val :=
  dot_S50000x256_S256x128_S50000x128_1_0_0_1_n_n.lhsIdx_val_of_single rfl i q
theorem node50_rhs0 (i : S50000x128.Idx) (q : dot_S50000x256_S256x128_S50000x128_1_0_0_1_n_n.contr.Idx) :
    (dot_S50000x256_S256x128_S50000x128_1_0_0_1_n_n.rhsIdx i q 0).val = (q ⟨0, Nat.one_pos⟩).val :=
  dot_S50000x256_S256x128_S50000x128_1_0_0_1_n_n.rhsIdx_val_of_single rfl i q
theorem node50_rhs1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch from List.not_mem_nil),
    dif_pos (show (1 : Fin S256x128.rank) ∈ dot_S50000x256_S256x128_S50000x128_1_0_0_1_n_n.rhsNonContracting from List.mem_singleton.2 rfl)]
  rfl

/-- 50000 node rows of 256 columns against a 256 × 128 array, at (r, n). -/
theorem node50_dot_apply (x : FVec Ideal S50000x256 .f32) (w : FVec Ideal S256x128 .f32) (r : Fin 50000) (n : Fin 128) :
    Host.dotGeneral dot_S50000x256_S256x128_S50000x128_1_0_0_1_n_n none x w (ix2 r n)
      = ∑ k : Fin 256, x (ix2 r k) * w (ix2 k n) :=
  dotGeneral_ix2 dot_S50000x256_S256x128_S50000x128_1_0_0_1_n_n rfl rfl node50_lhs0 node50_lhs1 node50_rhs0 node50_rhs1 x w r n

end R

/-! ## The two maps -/

variable [Cert.KernelIdeal.Facts] [Cert.ReferenceIdeal.Facts]

/-- The reference's per-edge map over 400000 rows is `edgeG` of the transposed weight and the bias row. -/
theorem edgeR400_eq (x : FVec Ideal Cert.ReferenceIdeal.S400000x128 .f32) (W : FVec Ideal Cert.ReferenceIdeal.S128x128 .f32)
    (b : FVec Ideal Cert.ReferenceIdeal.S128 .f32) : edgeR400 x W b = edgeG (E := 400000) x (wT W) (bRow b) := by
  funext i
  obtain ⟨r, n, rfl⟩ : ∃ (r : Fin 400000) (n : Fin 128), i = ix2 r n := ⟨i 0, i 1, eq_ix2 i⟩
  rw [edgeG_apply, bRow_apply]
  unfold edgeR400
  rw [addf_apply, edge400_dot_apply, biasRows_apply]
  refine congrArg (· + b (ix1 n)) (Finset.sum_congr rfl fun k _ => ?_)
  rw [wT_apply]
  exact congrArg (x (ix2 r k) * ·) (transpose_ix2_apply W _ k n)

/-- The same over 600000 rows. -/
theorem edgeR600_eq (x : FVec Ideal Cert.ReferenceIdeal.S600000x128 .f32) (W : FVec Ideal Cert.ReferenceIdeal.S128x128 .f32)
    (b : FVec Ideal Cert.ReferenceIdeal.S128 .f32) : edgeR600 x W b = edgeG (E := 600000) x (wT W) (bRow b) := by
  funext i
  obtain ⟨r, n, rfl⟩ : ∃ (r : Fin 600000) (n : Fin 128), i = ix2 r n := ⟨i 0, i 1, eq_ix2 i⟩
  rw [edgeG_apply, bRow_apply]
  unfold edgeR600
  rw [addf_apply, edge600_dot_apply, biasRows_apply]
  refine congrArg (· + b (ix1 n)) (Finset.sum_congr rfl fun k _ => ?_)
  rw [wT_apply]
  exact congrArg (x (ix2 r k) * ·) (transpose_ix2_apply W _ k n)

/-- The reference's node update over 25000 rows is `nodeG` of the two transposed halves of the weight and the bias row:
    the sum over the 256 concatenated columns splits into the sums over its two halves. -/
theorem nodeR25_eq (own agg : FVec Ideal Cert.ReferenceIdeal.S25000x128 .f32) (Wu : FVec Ideal Cert.ReferenceIdeal.S128x256 .f32)
    (bu : FVec Ideal Cert.ReferenceIdeal.S128 .f32) : nodeR25 own agg Wu bu = nodeG (N := 25000) own agg (wTh Wu) (wTa Wu) (bRow bu) := by
  funext i
  obtain ⟨r, n, rfl⟩ : ∃ (r : Fin 25000) (n : Fin 128), i = ix2 r n := ⟨i 0, i 1, eq_ix2 i⟩
  rw [nodeG_apply, bRow_apply]
  unfold nodeR25
  rw [maximumf_apply, addf_apply, node25_dot_apply, biasRows_apply, zeroSplat_apply, sum_fin256_halves]
  refine congrArg (fun s => max (s + bu (ix1 n)) 0) (congrArg₂ (· + ·)
    (Finset.sum_congr rfl fun k _ => ?_) (Finset.sum_congr rfl fun k _ => ?_))
  · rw [wTh_apply, concatCols_left]
    exact congrArg (own (ix2 r k) * ·) (transpose_ix2_apply Wu _ _ n)
  · rw [wTa_apply, concatCols_right]
    exact congrArg (agg (ix2 r k) * ·) (transpose_ix2_apply Wu _ _ n)

/-- The same over 50000 rows. -/
theorem nodeR50_eq (own agg : FVec Ideal Cert.ReferenceIdeal.S50000x128 .f32) (Wu : FVec Ideal Cert.ReferenceIdeal.S128x256 .f32)
    (bu : FVec Ideal Cert.ReferenceIdeal.S128 .f32) : nodeR50 own agg Wu bu = nodeG (N := 50000) own agg (wTh Wu) (wTa Wu) (bRow bu) := by
  funext i
  obtain ⟨r, n, rfl⟩ : ∃ (r : Fin 50000) (n : Fin 128), i = ix2 r n := ⟨i 0, i 1, eq_ix2 i⟩
  rw [nodeG_apply, bRow_apply]
  unfold nodeR50
  rw [maximumf_apply, addf_apply, node50_dot_apply, biasRows_apply, zeroSplat_apply, sum_fin256_halves]
  refine congrArg (fun s => max (s + bu (ix1 n)) 0) (congrArg₂ (· + ·)
    (Finset.sum_congr rfl fun k _ => ?_) (Finset.sum_congr rfl fun k _ => ?_))
  · rw [wTh_apply, concatCols_left]
    exact congrArg (own (ix2 r k) * ·) (transpose_ix2_apply Wu _ _ n)
  · rw [wTa_apply, concatCols_right]
    exact congrArg (agg (ix2 r k) * ·) (transpose_ix2_apply Wu _ _ n)

end Cert.MsgPass

end
-- ==== Proof.Bridge.lean ====
/-
  Stage by stage the two spellings agree.

  The gathers agree where every index addresses a row (`takeK<s>_eq`); the per-edge map and the node update of the
  reference are `edgeG` and `nodeG` of the transposed weights (`edgeR…_eq`, `nodeR…_eq`); the mean over the arriving
  edges is the same chain of operations in both programs. So a stage's two spellings are one function of the arrays.
-/
import proofs.«410022_j38792144617921_1_alg».proof.Proof.Stages
import proofs.«410022_j38792144617921_1_alg».proof.Proof.TakeEq
import proofs.«410022_j38792144617921_1_alg».proof.Proof.RefStage

noncomputable section

namespace Cert.MsgPass

open Idealize.ShloMosaic

variable [Cert.KernelIdeal.Facts] [Cert.ReferenceIdeal.Facts]

/-- The mean over the arriving edges is spelt alike in both programs (stage 1's extents). -/
theorem aggK1_eq (msgs : FVec Ideal Cert.KernelIdeal.S400000x128 .f32) (dst : IVec Cert.KernelIdeal.S400000 32) :
    aggK1 msgs dst = aggR1 msgs dst := rfl

/-- Stage 2's extents. -/
theorem aggK2_eq (msgs : FVec Ideal Cert.KernelIdeal.S400000x128 .f32) (dst : IVec Cert.KernelIdeal.S400000 32) :
    aggK2 msgs dst = aggR2 msgs dst := rfl

/-- Stage 3's extents. -/
theorem aggK3_eq (msgs : FVec Ideal Cert.KernelIdeal.S600000x128 .f32) (dst : IVec Cert.KernelIdeal.S600000 32) :
    aggK3 msgs dst = aggR3 msgs dst := rfl

/-- Stage 1: tiles to pieces. -/
theorem stage1_eq (src : FVec Ideal Cert.KernelIdeal.S50000x128 .f32) (own : FVec Ideal Cert.KernelIdeal.S25000x128 .f32)
    (sidx didx : IVec Cert.KernelIdeal.S400000 32) (W : FVec Ideal Cert.KernelIdeal.S128x128 .f32)
    (b : FVec Ideal Cert.KernelIdeal.S128 .f32) (Wu : FVec Ideal Cert.KernelIdeal.S128x256 .f32)
    (bu : FVec Ideal Cert.KernelIdeal.S128 .f32) (h : ∀ e, InRange 50000 (sidx e)) :
    stageK1 src own sidx didx W b Wu bu = stageR1 src own sidx didx W b Wu bu := by
  unfold stageK1 stageR1
  rw [nodeR25_eq, edgeR400_eq, takeK1_eq src sidx h, aggK1_eq]

/-- Stage 2: pieces to tiles. -/
theorem stage2_eq (src : FVec Ideal Cert.KernelIdeal.S25000x128 .f32) (own : FVec Ideal Cert.KernelIdeal.S50000x128 .f32)
    (sidx didx : IVec Cert.KernelIdeal.S400000 32) (W : FVec Ideal Cert.KernelIdeal.S128x128 .f32)
    (b : FVec Ideal Cert.KernelIdeal.S128 .f32) (Wu : FVec Ideal Cert.KernelIdeal.S128x256 .f32)
    (bu : FVec Ideal Cert.KernelIdeal.S128 .f32) (h : ∀ e, InRange 25000 (sidx e)) :
    stageK2 src own sidx didx W b Wu bu = stageR2 src own sidx didx W b Wu bu := by
  unfold stageK2 stageR2
  rw [nodeR50_eq, edgeR400_eq, takeK2_eq src sidx h, aggK2_eq]

/-- Stage 3: tiles to tiles. -/
theorem stage3_eq (src own : FVec Ideal Cert.KernelIdeal.S50000x128 .f32)
    (sidx didx : IVec Cert.KernelIdeal.S600000 32) (W : FVec Ideal Cert.KernelIdeal.S128x128 .f32)
    (b : FVec Ideal Cert.KernelIdeal.S128 .f32) (Wu : FVec Ideal Cert.KernelIdeal.S128x256 .f32)
    (bu : FVec Ideal Cert.KernelIdeal.S128 .f32) (h : ∀ e, InRange 50000 (sidx e)) :
    stageK3 src own sidx didx W b Wu bu = stageR3 src own sidx didx W b Wu bu := by
  unfold stageK3 stageR3
  rw [nodeR50_eq, edgeR600_eq, takeK3_eq src sidx h, aggK3_eq]

end Cert.MsgPass

end
-- ==== Proof.PreFacts.lean ====
import proofs.«410022_j38792144617921_1_alg».proof.Defs
import proofs.«410022_j38792144617921_1_alg».proof.Proof.Stages
import Idealize.ShloMosaic.Lib.ReduceAll

/-
  The precondition's index conjuncts, read back.

  The precondition is one conjunction, associated to the left: fourteen conjuncts saying that every float input is
  finite, then three saying that every gather index lies in [-N, N) for the row count N of the table it addresses
  (N = 50000, 25000, 50000). Each index conjunct is the conjunction, over all positions e, of
  (idx[e] ≥ -N) ∧ (idx[e] < N), both comparisons signed, the bounds scalar literals broadcast to the array's extent.

  A conjunction that is 1 has every conjunct 1, so the three last conjuncts come off the left spine without looking at
  the float ones; a conjunction over all positions that is 1 is 1 at every position; and the two signed comparisons
  at one position are the two inequalities on the word's signed value.
-/

noncomputable section

namespace Cert.MsgPass

open Idealize.ShloMosaic Idealize.SL.Sem

variable [Cert.Pre_finite_inputs.Facts]

/-- The rank-0 shape has exactly one index (the empty tuple). -/
local instance subsingleton_scalar_idx : Subsingleton (⟨0, ![]⟩ : Shape).Idx := ⟨fun a b => funext fun d => d.elim0⟩

/-- One position: a word that tests ≥ lo and < hi, signed, where lo reads -N and hi reads N, lies in [-N, N). -/
theorem inRange_of_words {N : Nat} {lo hi w : BitVec 32} (hlo : lo.toInt = -(N : Int)) (hhi : hi.toInt = (N : Int))
    (h : IntOp.andi (IntOp.cmpi .sge w lo) (IntOp.cmpi .slt w hi) = 1#1) : InRange N w := by
  obtain ⟨h1, h2⟩ := IntOp.andi_eq_one.1 h
  rw [IntOp.cmpi_sge, hlo] at h1
  rw [IntOp.cmpi_slt, hhi] at h2
  exact ⟨h1, h2⟩

/-- One index conjunct: if the conjunction over all positions of (idx ≥ lo) ∧ (idx < hi) is 1, every entry of idx is
    in [-N, N). The bounds are scalars broadcast to the array's shape, so at every position they read lo and hi. -/
theorem inRange_of_all {S : Shape} {axes : List (Fin S.rank)} (N : Nat) (lo hi : BitVec 32)
    (hlo : lo.toInt = -(N : Int)) (hhi : hi.toInt = (N : Int)) (idx : IVec S 32)
    (hb : (⟨0, ![]⟩ : Shape).BroadcastsInDim S (![] : Fin 0 → Fin S.rank)) (hr : S.ReducesTo axes ⟨0, ![]⟩)
    (h0 : 0 < (⟨0, ![]⟩ : Shape).numel) (init : IVec ⟨0, ![]⟩ 1) (j : (⟨0, ![]⟩ : Shape).Idx)
    (h : Host.reduce IntOp.andi
          (andi (cmpi .sge idx (broadcastInDim S ![] hb (constantI ⟨0, ![]⟩ 32 lo)))
                (cmpi .slt idx (broadcastInDim S ![] hb (constantI ⟨0, ![]⟩ 32 hi)))) init hr h0 j = 1#1) :
    ∀ e, InRange N (idx e) := by
  intro e
  have he := Host.reduce_andi_all _ init hr h0 j h e
  exact inRange_of_words hlo hhi he

open Cert.Pre_finite_inputs in
/-- The tail of the precondition, over any values of the float conjuncts gathered so far: if it is 1, the three index
    arrays are in range. The result is ((((v63 ∧ v67) ∧ all₂) ∧ all₄) ∧ all₆). -/
theorem inRange_of_part4 {F : FTy → Type} [FloatOps F] (a2 a4 : IVec S400000 32) (a6 : IVec S600000 32)
    (v63 v67 : IVec S_ 1) (h : fn_part4 (F := F) a2 a4 a6 v63 v67 = fun _ => 1#1) :
    (∀ e, InRange 50000 (a2 e)) ∧ (∀ e, InRange 25000 (a4 e)) ∧ (∀ e, InRange 50000 (a6 e)) := by
  have h1 := congrFun h ValueIdx.ix0
  dsimp only [fn_part4, fn_part5] at h1
  obtain ⟨h1, h6⟩ := IntOp.andi_eq_one.1 h1
  obtain ⟨h1, h4⟩ := IntOp.andi_eq_one.1 h1
  obtain ⟨-, h2⟩ := IntOp.andi_eq_one.1 h1
  exact ⟨inRange_of_all 50000 _ _ (by decide) (by decide) a2 _ _ _ _ _ h2,
    inRange_of_all 25000 _ _ (by decide) (by decide) a4 _ _ _ _ _ h4,
    inRange_of_all 50000 _ _ (by decide) (by decide) a6 _ _ _ _ _ h6⟩

/-- The precondition's three index conjuncts, read back: every gather index addresses a row of its table. -/
theorem inRange_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ e, InRange 50000 ((m ((c.tc : Thread Cert.KernelIdeal.nD Cert.KernelIdeal.τ).loc Cert.KernelIdeal.main_arg2) : IVec Cert.KernelIdeal.S400000 32) e))
    ∧ (∀ e, InRange 25000 ((m ((c.tc : Thread Cert.KernelIdeal.nD Cert.KernelIdeal.τ).loc Cert.KernelIdeal.main_arg4) : IVec Cert.KernelIdeal.S400000 32) e))
    ∧ (∀ e, InRange 50000 ((m ((c.tc : Thread Cert.KernelIdeal.nD Cert.KernelIdeal.τ).loc Cert.KernelIdeal.main_arg6) : IVec Cert.KernelIdeal.S600000 32) e)) :=
  -- the predicate's definition runs through its parts to the tail, which receives the three index arrays unchanged
  inRange_of_part4 (F := Ideal) _ _ _ _ _ (h c)

end Cert.MsgPass

end
-- ==== Proof.Claims.lean ====
/-
  The five claims.

  Frames: the kernel's two programs by their generated frames; the reference's by its run with the results dropped.
  The idealization rewrote nothing, so there is nothing to preserve.
  Values: the idealized kernel ends with its two results at the three stages (for the pieces: the first stage) of the
  launch memory in its own spelling; the reference ends with them at the same stages in its spelling; from memories that
  agree on the arguments, and with every gather index addressing a row of its table (the precondition's three index
  conjuncts), each stage's two spellings are one function, so the results are equal.
-/
import proofs.«410022_j38792144617921_1_alg».proof.Defs
import proofs.«410022_j38792144617921_1_alg».proof.Proof.Gen.Kernel.Frame
import proofs.«410022_j38792144617921_1_alg».proof.Proof.Gen.KernelIdeal.Frame
import proofs.«410022_j38792144617921_1_alg».proof.Proof.Gen.Pre_finite_inputs
import proofs.«410022_j38792144617921_1_alg».proof.Proof.KernelRun
import proofs.«410022_j38792144617921_1_alg».proof.Proof.KernelValue
import proofs.«410022_j38792144617921_1_alg».proof.Proof.RefValue
import proofs.«410022_j38792144617921_1_alg».proof.Proof.Bridge
import proofs.«410022_j38792144617921_1_alg».proof.Proof.PreFacts

set_option maxRecDepth 16384

noncomputable section

namespace Cert.MsgPass

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run (Cert.ReferenceIdeal.defs (F := Ideal)) _ _).mono (fun _ h c => (h c).2.2) (ref_run m ρ)

theorem preserves : Cert.preserves_Kernel_KernelIdeal := trivial

theorem algebraic : Cert.algebraic_KernelIdeal_ReferenceIdeal := by
  intro m ρ m' ρ' hpre hagree
  have hr := fun c => inRange_of_pre m hpre c
  -- stage 1: the pieces
  have e1 : ∀ c, rPiece1 m' c = kPiece1 m c := by
    intro c
    obtain ⟨h0, h1, h2, h3, -, -, -, -, h8, h9, h10, h11, -⟩ := hagree c
    unfold rPiece1 kPiece1
    rw [h0, h1, h2, h3, h8, h9, h10, h11]
    exact (stage1_eq _ _ _ _ _ _ _ _ (hr c).1).symm
  -- stage 2: the tiles from the updated pieces
  have e2 : ∀ c, rTile2 m' c = kTile2 m c := by
    intro c
    obtain ⟨h0, -, -, -, h4, h5, -, -, -, -, -, -, h12, h13, h14, h15, -⟩ := hagree c
    unfold rTile2 kTile2
    rw [e1 c, h0, h4, h5, h12, h13, h14, h15]
    exact (stage2_eq _ _ _ _ _ _ _ _ (hr c).2.1).symm
  -- stage 3: the tiles from the tiles of stage 2
  have e3 : ∀ c, rTile3 m' c = kTile3 m c := by
    intro c
    obtain ⟨-, -, -, -, -, -, h6, h7, -, -, -, -, -, -, -, -, h16, h17, h18, h19⟩ := hagree c
    unfold rTile3 kTile3
    rw [e2 c, h6, h7, h16, h17, h18, h19]
    exact (stage3_eq _ _ _ _ _ _ _ _ (hr c).2.2).symm
  refine ⟨fun c => kTile3 m c, fun c => kPiece1 m c, ?_, ?_⟩
  · exact (θ_run (Cert.KernelIdeal.defs (F := Ideal)) _ _).mono
      (fun _ h c => ⟨(h c).1.trans (W15_v62 m ρ c), (h c).2.1.trans (W15_v20 m ρ c), (h c).2.2⟩)
      (run_values (F := Ideal) m ρ)
  · exact (θ_run (Cert.ReferenceIdeal.defs (F := Ideal)) _ _).mono
      (fun _ h c => ⟨(h c).1.trans (e3 c), (h c).2.1.trans (e1 c), (h c).2.2⟩)
      (ref_run m' ρ')

end Cert.MsgPass

end
-- ==== Proof.lean ====
/-
  A three-stage message-passing layer over two kinds of nodes (50000 tiles, 25000 pieces): each stage gathers the
  source nodes' rows along the edges, maps every edge row linearly, averages the rows arriving at each destination
  node, and updates each destination node from its own row concatenated with its average (a linear map and the
  positive part). The kernel computes the per-edge map and the node update in row blocks, the node update with the
  concatenation split into its two halves; the reference computes them as whole matrix products.

  Over the extended reals the two programs give the same two results: a row block of a product is the product of the
  row block, and a sum over the 256 concatenated columns is the sum over its two halves — both are regroupings of
  finite sums in a commutative monoid. The one place the programs differ is an index that addresses no row of its
  table: the kernel's gather fills such a row with a fixed pattern, the reference's clamps the index; the
  precondition keeps every gather index inside its table (counted from either end), where the two gathers agree.

  Proof/Spec.lean     the two dense maps as whole-array functions
  Proof/Stages.lean   one stage in each program's spelling
  Proof/TakeEq.lean, Proof/RefStage.lean, Proof/Bridge.lean   the two spellings of a stage are one function
  Proof/RegionEdge.lean, Proof/RegionNode.lean   what each of the six regions leaves in its output array
  Proof/KernelRun.lean, Proof/KernelValue.lean   the kernel's run, and its results as the stages of the launch memory
  Proof/RefValue.lean   the reference's run, likewise
  Proof/PreFacts.lean   the precondition's index conjuncts read back
  Proof/Claims.lean     the five claims
-/
import proofs.«410022_j38792144617921_1_alg».proof.Defs
import proofs.«410022_j38792144617921_1_alg».proof.Proof.Gen.Kernel
import proofs.«410022_j38792144617921_1_alg».proof.Proof.Gen.KernelIdeal
import proofs.«410022_j38792144617921_1_alg».proof.Proof.Gen.ReferenceIdeal
import proofs.«410022_j38792144617921_1_alg».proof.Proof.Gen.Pre_finite_inputs
import proofs.«410022_j38792144617921_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.MsgPass.frame_k, Cert.MsgPass.frame_ki, Cert.MsgPass.frame_ri, Cert.MsgPass.preserves, Cert.MsgPass.algebraic⟩

end Cert.Proof

end
